-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x81 : Shape := ⟨2, ![262144, 81]⟩
abbrev S262144 : Shape := ⟨1, ![262144]⟩
abbrev S_ : Shape := ⟨0, ![]⟩

class Facts : Prop where
  bcast_S_S262144x81 : S_.BroadcastsInDim S262144x81 (![] : Fin 0 → Fin S262144x81.rank)
  reducesTo_S262144x81_S_d0_1 : S262144x81.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S262144x81 .f32) (main_arg1 : IVec S262144 32) (main_arg2 : FVec F S262144 .f32) : IVec S_ 1 :=
  let main_v0 : FVec F S262144x81 .f32 := Host.absf main_arg0
  let main_cst : FVec F S_ .f32 := constant S_ .f32 0x7F800000#32
  let main_v1 : FVec F S262144x81 .f32 := broadcastInDim S262144x81 ![] bcast_S_S262144x81 main_cst
  let main_v2 : IVec S262144x81 1 := cmpf .olt main_v0 main_v1
  let main_c : IVec S_ 1 := constantI S_ 1 1#1
  let main_v3 : IVec S_ 1 := (fun x v => Host.reduce IntOp.andi x v reducesTo_S262144x81_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg1 main_v9
  let main_c_3 : IVec S_ 1 := constantI S_ 1 1#1
  let main_v11 : IVec S_ 1 := (fun x v => Host.reduce IntOp.andi x v reducesTo_S262144_S_d0 h_S_) main_v10 main_c_3
  let main_v12 : IVec S_ 1 := andi main_v8 main_v11
  let main_c_4 : IVec S_ 32 := constantI S_ 32 80#32
  let main_v13 : IVec S262144 32 := broadcastInDim S262144 ![] bcast_S_S262144 main_c_4
  let main_v14 : IVec S262144 1 := cmpi .sle main_arg1 main_v13
  let main_c_5 : IVec S_ 1 := constantI S_ 1 1#1
  let main_v15 : IVec S_ 1 := (fun x v => Host.reduce IntOp.andi x v reducesTo_S262144_S_d0 h_S_) main_v14 main_c_5
  fn_part1 (F := F) main_v12 main_v15
-- ==== Kernel.lean ====
abbrev S262144x81 : Shape := ⟨2, ![262144, 81]⟩
abbrev S262144 : Shape := ⟨1, ![262144]⟩
abbrev S_ : Shape := ⟨0, ![]⟩
abbrev S81 : Shape := ⟨1, ![81]⟩
abbrev S262144x1 : Shape := ⟨2, ![262144, 1]⟩
abbrev S1x81 : Shape := ⟨2, ![1, 81]⟩
abbrev S1 : Shape := ⟨1, ![1]⟩
abbrev S1x1 : Shape := ⟨2, ![1, 1]⟩
abbrev S2x1x6 : Shape := ⟨3, ![2, 1, 6]⟩
abbrev S4096x81 : Shape := ⟨2, ![4096, 81]⟩
abbrev S4096x1 : Shape := ⟨2, ![4096, 1]⟩
abbrev S1x1x6 : Shape := ⟨3, ![1, 1, 6]⟩
abbrev S1x6 : Shape := ⟨2, ![1, 6]⟩
abbrev S4096 : Shape := ⟨1, ![4096]⟩
abbrev S2x6 : Shape := ⟨2, ![2, 6]⟩
abbrev S6 : Shape := ⟨1, ![6]⟩

abbrev nBuf : Space → Nat
  | .hbm => 113
  | .vmem => 11
  | .smem => 0
  | _ => 0

abbrev bufTy : (tb : Table) → Fin (tcTables nBuf tb) → BufTy
  | .hbm, ⟨0, _⟩ => ⟨S262144x81, .f32⟩
  | .hbm, ⟨1, _⟩ => ⟨S262144, .i32⟩
  | .hbm, ⟨2, _⟩ => ⟨S262144, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S262144, .i32⟩
  | .hbm, ⟨7, _⟩ => ⟨S262144, .i32⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S_, .f32⟩
  | .hbm, ⟨12, _⟩ => ⟨S262144, .f32⟩
  | .hbm, ⟨13, _⟩ => ⟨S262144, .i1⟩
  | .hbm, ⟨14, _⟩ => ⟨S81, .i32⟩
  | .hbm, ⟨15, _⟩ => ⟨S262144x1, .i32⟩
  | .hbm, ⟨16, _⟩ => ⟨S1x81, .i32⟩
  | .hbm, ⟨17, _⟩ => ⟨S262144x81, .i32⟩
  | .hbm, ⟨18, _⟩ => ⟨S262144x81, .i32⟩
  | .hbm, ⟨19, _⟩ => ⟨S262144x81, .i1⟩
  | .hbm, ⟨20, _⟩ => ⟨S262144x1, .i1⟩
  | .hbm, ⟨21, _⟩ => ⟨S262144x81, .i1⟩
  | .hbm, ⟨22, _⟩ => ⟨S262144x81, .i1⟩
  | .hbm, ⟨23, _⟩ => ⟨S262144x81, .i32⟩
  | .hbm, ⟨24, _⟩ => ⟨S_, .i32⟩
  | .hbm, ⟨25, _⟩ => ⟨S81, .i32⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S262144x1, .i32⟩
  | .hbm, ⟨34, _⟩ => ⟨S1, .i32⟩
  | .hbm, ⟨35, _⟩ => ⟨S_, .i32⟩
  | .hbm, ⟨36, _⟩ => ⟨S262144x1, .i32⟩
  | .hbm, ⟨37, _⟩ => ⟨S262144x1, .i1⟩
  | .hbm, ⟨38, _⟩ => ⟨S1x1, .i32⟩
  | .hbm, ⟨39, _⟩ => ⟨S262144x1, .i32⟩
  | .hbm, ⟨40, _⟩ => ⟨S262144x1, .i1⟩
  | .hbm, ⟨41, _⟩ => ⟨S262144x1, .i1⟩
  | .hbm, ⟨42, _⟩ => ⟨S_, .i1⟩
  | .hbm, ⟨43, _⟩ => ⟨S262144, .i1⟩
  | .hbm, ⟨44, _⟩ => ⟨S262144, .i32⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S262144x1, .i32⟩
  | .hbm, ⟨52, _⟩ => ⟨S262144x1, .f32⟩
  | .hbm, ⟨53, _⟩ => ⟨S262144, .f32⟩
  | .hbm, ⟨54, _⟩ => ⟨S262144x1, .f32⟩
  | .hbm, ⟨55, _⟩ => ⟨S2x1x6, .f32⟩
  | .hbm, ⟨56, _⟩ => ⟨S2x6, .f32⟩
  | .hbm, ⟨57, _⟩ => ⟨S_, .f32⟩
  | .hbm, ⟨58, _⟩ => ⟨S6, .f32⟩
  | .hbm, ⟨59, _⟩ => ⟨S1, .f32⟩
  | .hbm, ⟨60, _⟩ => ⟨S_, .f32⟩
  | .hbm, ⟨61, _⟩ => ⟨S1, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S1, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .i1⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .local _ .vmem, ⟨0, _⟩ => ⟨S4096x81, .f32⟩
  | .local _ .vmem, ⟨1, _⟩ => ⟨S4096x81, .f32⟩
  | .local _ .vmem, ⟨2, _⟩ => ⟨S4096x1, .i32⟩
  | .local _ .vmem, ⟨3, _⟩ => ⟨S4096x1, .i32⟩
  | .local _ .vmem, ⟨4, _⟩ => ⟨S4096x1, .f32⟩
  | .local _ .vmem, ⟨5, _⟩ => ⟨S4096x1, .f32⟩
  | .local _ .vmem, ⟨6, _⟩ => ⟨S4096x1, .f32⟩
  | .local _ .vmem, ⟨7, _⟩ => ⟨S4096x1, .f32⟩
  | .local _ .vmem, ⟨8, _⟩ => ⟨S1x1x6, .f32⟩
  | .local _ .vmem, ⟨9, _⟩ => ⟨S1x1x6, .f32⟩
  | .local _ .vmem, ⟨10, _⟩ => ⟨S1x6, .f32⟩
  | _, _ => ⟨S262144x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_c_4 : Ref sig .tc := ⟨.hbm, 45, rfl⟩
abbrev main_call1_v14 : Ref sig .tc := ⟨.hbm, 46, rfl⟩
abbrev main_v14 : Ref sig .tc := ⟨.hbm, 47, rfl⟩
abbrev main_c_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_3 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_4 : Ref sig .tc := ⟨.hbm, 71, rfl⟩
abbrev main_v36 : Ref sig .tc := ⟨.hbm, 72, rfl⟩
abbrev main_cst_5 : Ref sig .tc := ⟨.hbm, 73, rfl⟩
abbrev main_v37 : Ref sig .tc := ⟨.hbm, 74, rfl⟩
abbrev main_cst_6 : Ref sig .tc := ⟨.hbm, 75, rfl⟩
abbrev main_v38 : Ref sig .tc := ⟨.hbm, 76, rfl⟩
abbrev main_v39 : Ref sig .tc := ⟨.hbm, 77, rfl⟩
abbrev main_cst_7 : Ref sig .tc := ⟨.hbm, 78, rfl⟩
abbrev main_call2_v0 : Ref sig .tc := ⟨.hbm, 79, rfl⟩
abbrev main_v40 : Ref sig .tc := ⟨.hbm, 80, rfl⟩
abbrev main_cst_8 : Ref sig .tc := ⟨.hbm, 81, rfl⟩
abbrev main_v41 : Ref sig .tc := ⟨.hbm, 82, rfl⟩
abbrev main_cst_9 : Ref sig .tc := ⟨.hbm, 83, rfl⟩
abbrev main_v42 : Ref sig .tc := ⟨.hbm, 84, rfl⟩
abbrev main_cst_10 : Ref sig .tc := ⟨.hbm, 85, rfl⟩
abbrev main_v43 : Ref sig .tc := ⟨.hbm, 86, rfl⟩
abbrev main_cst_11 : Ref sig .tc := ⟨.hbm, 87, rfl⟩
abbrev main_v44 : Ref sig .tc := ⟨.hbm, 88, rfl⟩
abbrev main_cst_12 : Ref sig .tc := ⟨.hbm, 89, rfl⟩
abbrev main_v45 : Ref sig .tc := ⟨.hbm, 90, rfl⟩
abbrev main_v46 : Ref sig .tc := ⟨.hbm, 91, rfl⟩
abbrev main_cst_13 : Ref sig .tc := ⟨.hbm, 92, rfl⟩
abbrev main_call3_v0 : Ref sig .tc := ⟨.hbm, 93, rfl⟩
abbrev main_v47 : Ref sig .tc := ⟨.hbm, 94, rfl⟩
abbrev main_cst_14 : Ref sig .tc := ⟨.hbm, 95, rfl⟩
abbrev main_v48 : Ref sig .tc := ⟨.hbm, 96, rfl⟩
abbrev main_cst_15 : Ref sig .tc := ⟨.hbm, 97, rfl⟩
abbrev main_v49 : Ref sig .tc := ⟨.hbm, 98, rfl⟩
abbrev main_cst_16 : Ref sig .tc := ⟨.hbm, 99, rfl⟩
abbrev main_v50 : Ref sig .tc := ⟨.hbm, 100, rfl⟩
abbrev main_cst_17 : Ref sig .tc := ⟨.hbm, 101, rfl⟩
abbrev main_v51 : Ref sig .tc := ⟨.hbm, 102, rfl⟩
abbrev main_cst_18 : Ref sig .tc := ⟨.hbm, 103, rfl⟩
abbrev main_v52 : Ref sig .tc := ⟨.hbm, 104, rfl⟩
abbrev main_v53 : Ref sig .tc := ⟨.hbm, 105, rfl⟩
abbrev main_cst_19 : Ref sig .tc := ⟨.hbm, 106, rfl⟩
abbrev main_call4_v0 : Ref sig .tc := ⟨.hbm, 107, rfl⟩
abbrev main_v54 : Ref sig .tc := ⟨.hbm, 108, rfl⟩
abbrev main_cst_20 : Ref sig .tc := ⟨.hbm, 109, rfl⟩
abbrev main_v55 : Ref sig .tc := ⟨.hbm, 110, rfl⟩
abbrev main_cst_21 : Ref sig .tc := ⟨.hbm, 111, rfl⟩
abbrev main_v56 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v123 : BitVec 1 := Scalar.cmpi .eq arg1 c31_i32
  let v124 : BitVec 32 := Scalar.extui v123
  let c0_i32_49 : BitVec 32 := 0#32
  let v125 : BitVec 1 := Scalar.cmpi .ne v124 c0_i32_49
  v125

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S81_S1x81_1 : S81.BroadcastsInDim S1x81 (![1] : Fin 1 → Fin S1x81.rank)
  bcast_S262144x1_S262144x81_0_1 : S262144x1.BroadcastsInDim S262144x81 (![0, 1] : Fin 2 → Fin S262144x81.rank)
  bcast_S1x81_S262144x81_0_1 : S1x81.BroadcastsInDim S262144x81 (![0, 1] : Fin 2 → Fin S262144x81.rank)
  natLt_1_32 : 1 < 32
  reducesTo_S262144x81_S81_d0 : S262144x81.ReducesTo [0] S81
  h_S_ : 0 < S_.numel
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  shapeCasts_S262144_S262144x1 : S262144.ShapeCasts S262144x1
  inb_S1x6_S1x6_0_0 : ∀ a, (![0, 0] : Fin 2 → Nat) a + S1x6.size a ≤ S1x6.size a
  h_S1x6 : 0 < S1x6.numel
  shapeCasts_S1x6_S1x6 : S1x6.ShapeCasts S1x6
  inb_S4096x81_S4096x81_0_0 : ∀ a, (![0, 0] : Fin 2 → Nat) a + S4096x81.size a ≤ S4096x81.size a
  h_S4096x81 : 0 < S4096x81.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x81_S4096 : S4096x81.Reduces [1] S4096
  shapeCasts_S4096_S4096x1 : S4096.ShapeCasts S4096x1
  broadcasts_S4096x1_S4096x81 : S4096x1.Broadcasts S4096x81
  iota_S4096x81_d1_w32 : S4096x81.Iotas .tc 32 [1]
  reduces_S4096x1_S1 : S4096x1.Reduces [0] S1
  shapeCasts_S1_S1x1 : S1.ShapeCasts S1x1
  inb_S1x6_S1x1_0_0 : ∀ a, (![0, 0] : Fin 2 → Nat) a + S1x1.size a ≤ S1x6.size a
  h_S1x1 : 0 < S1x1.numel
  shapeCasts_S1x1_S1x1 : S1x1.ShapeCasts S1x1
  inb_S1x6_S1x1_0_1 : ∀ a, (![0, 1] : Fin 2 → Nat) a + S1x1.size a ≤ S1x6.size a
  inb_S1x6_S1x1_0_2 : ∀ a, (![0, 2] : Fin 2 → Nat) a + S1x1.size a ≤ S1x6.size a
  inb_S1x6_S1x1_0_3 : ∀ a, (![0, 3] : Fin 2 → Nat) a + S1x1.size a ≤ S1x6.size a
  inb_S1x6_S1x1_0_4 : ∀ a, (![0, 4] : Fin 2 → Nat) a + S1x1.size a ≤ S1x6.size a
  inb_S1x6_S1x1_0_5 : ∀ a, (![0, 5] : Fin 2 → Nat) a + S1x1.size a ≤ S1x6.size a
  inb_S1x1x6_S1x1x6_0_0_0 : ∀ a, (![0, 0, 0] : Fin 3 → Nat) a + S1x1x6.size a ≤ S1x1x6.size a
  h_S1x1x6 : 0 < S1x1x6.numel
  shapeCasts_S1x1x6_S1x6 : S1x1x6.ShapeCasts S1x6
  shapeCasts_S1x6_S1x1x6 : S1x6.ShapeCasts S1x1x6
  shapeCasts_S2x1x6_S2x6 : S2x1x6.ShapeCasts S2x6
  reducesTo_S2x6_S6_d0 : S2x6.ReducesTo [0] S6
  slices_S6_S1_0 : S6.Slices ![0] S1
  shapeCasts_S1_S_ : S1.ShapeCasts S_
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1
  gather_S81_S262144x1_S262144_n_0_n_n_0_1_1_wf : GatherDims.WF S81 S262144x1 S262144 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x81.size a ≤ S262144x81.size a
  hwx0_0 : ∀ i : grid0.Coords, EltTy.bits .f32 = 32 ∨ (Rect.block (s := S262144x81) S4096x81.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .i32 = 32 ∨ (Rect.block (s := S262144x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S262144x1.size a
  hwx0_2 : ∀ i : grid0.Coords, EltTy.bits .f32 = 32 ∨ (Rect.block (s := S262144x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S262144x1.size a
  hwx0_3 : ∀ i : grid0.Coords, EltTy.bits .f32 = 32 ∨ (Rect.block (s := S262144x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x6.size a ≤ S2x1x6.size a
  hwx0_4 : ∀ i : grid0.Coords, EltTy.bits .f32 = 32 ∨ (Rect.block (s := S2x1x6) S1x1x6.size (cc0_transform_4 i) (hinb0_4 i)).WholeWords (EltTy.packing .f32)

variable [Facts₀]

def gather_S81_S262144x1_S262144_n_0_n_n_0_1_1 : GatherDims S81 S262144x1 S262144 where
  offsetDims := []
  collapsedSliceDims := [0]
  operandBatchingDims := []
  startIndicesBatchingDims := []
  startIndexMap := [0]
  indexVectorDim := 1
  sliceSizes := ![1]
  wf := gather_S81_S262144x1_S262144_n_0_n_n_0_1_1_wf

abbrev win0_0 : Pipeline.Window sig grid0 :=
  Pipeline.Window.ofSpec (Memref.whole main_arg0) S4096x81.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1x6.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S262144x81 : Shape := ⟨2, ![262144, 81]⟩
abbrev S262144 : Shape := ⟨1, ![262144]⟩
abbrev S_ : Shape := ⟨0, ![]⟩
abbrev S262144x1 : Shape := ⟨2, ![262144, 1]⟩
abbrev S81 : Shape := ⟨1, ![81]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 211
  | .vmem => 0
  | .smem => 0
  | _ => 0

abbrev hbmTy0_0 (i : Nat) : BufTy := match i % 128 with
  | 0 => ⟨S262144x81, .f32⟩
  | 1 => ⟨S262144, .i32⟩
  | 2 => ⟨S262144, .f32⟩
  | 3 => ⟨S_, .f32⟩
  | 4 => ⟨S262144, .f32⟩
  | 5 => ⟨S_, .f32⟩
  | 6 => ⟨S262144, .f32⟩
  | 7 => ⟨S262144, .f32⟩
  | 8 => ⟨S262144x1, .f32⟩
  | 9 => ⟨S262144x81, .f32⟩
  | 10 => ⟨S262144x81, .f32⟩
  | 11 => ⟨S262144x81, .f32⟩
  | 12 => ⟨S_, .f32⟩
  | 13 => ⟨S262144, .f32⟩
  | 14 => ⟨S262144x1, .f32⟩
  | 15 => ⟨S262144x81, .f32⟩
  | 16 => ⟨S262144x81, .f32⟩
  | 17 => ⟨S_, .f32⟩
  | 18 => ⟨S262144, .f32⟩
  | 19 => ⟨S262144, .i1⟩
  | 20 => ⟨S262144, .i32⟩
  | 21 => ⟨S_, .i32⟩
  | 22 => ⟨S81, .i32⟩
  | 23 => ⟨S262144x1, .i32⟩
  | 24 => ⟨S81, .i32⟩
  | 25 => ⟨S_, .i32⟩
  | 26 => ⟨S262144, .i32⟩
  | 27 => ⟨S262144, .i1⟩
  | 28 => ⟨S_, .i32⟩
  | 29 => ⟨S262144, .i32⟩
  | 30 => ⟨S262144, .i32⟩
  | 31 => ⟨S262144, .i32⟩
  | 32 => ⟨S262144x1, .i32⟩
  | 33 => ⟨S262144, .i32⟩
  | 34 => ⟨S_, .i32⟩
  | 35 => ⟨S262144, .i32⟩
  | 36 => ⟨S262144, .i1⟩
  | 37 => ⟨S262144x1, .i32⟩
  | 38 => ⟨S_, .i32⟩
  | 39 => ⟨S262144x1, .i32⟩
  | 40 => ⟨S262144x1, .i1⟩
  | 41 => ⟨S_, .i32⟩
  | 42 => ⟨S262144x1, .i32⟩
  | 43 => ⟨S262144x1, .i32⟩
  | 44 => ⟨S262144x1, .i32⟩
  | 45 => ⟨S262144x1x1, .i32⟩
  | 46 => ⟨S1, .i32⟩
  | 47 => ⟨S_, .i32⟩
  | 48 => ⟨S262144x1x1, .i32⟩
  | 49 => ⟨S262144x1x1, .i1⟩
  | 50 => ⟨S1x1x1, .i32⟩
  | 51 => ⟨S262144x1x1, .i32⟩
  | 52 => ⟨S262144x1x1, .i1⟩
  | 53 => ⟨S262144x1x1, .i1⟩
  | 54 => ⟨S_, .i1⟩
  | 55 => ⟨S262144x1, .i1⟩
  | 56 => ⟨S262144x1, .f32⟩
  | 57 => ⟨S_, .f32⟩
  | 58 => ⟨S262144x1, .f32⟩
  | 59 => ⟨S262144x1, .f32⟩
  | 60 => ⟨S262144, .f32⟩
  | 61 => ⟨S262144x1, .f32⟩
  | 62 => ⟨S262144x81, .f32⟩
  | 63 => ⟨S262144x81, .f32⟩
  | 64 => ⟨S_, .f32⟩
  | 65 => ⟨S_, .f32⟩
  | 66 => ⟨S_, .f32⟩
  | 67 => ⟨S262144x81, .f32⟩
  | 68 => ⟨S262144x81, .f32⟩
  | 69 => ⟨S_, .f32⟩
  | 70 => ⟨S262144x81, .f32⟩
  | 71 => ⟨S262144x81, .f32⟩
  | 72 => ⟨S262144x81, .f32⟩
  | 73 => ⟨S262144x81, .f32⟩
  | 74 => ⟨S_, .f32⟩
  | 75 => ⟨S262144x81, .f32⟩
  | 76 => ⟨S262144x81, .f32⟩
  | 77 => ⟨S_, .f32⟩
  | 78 => ⟨S262144, .f32⟩
  | 79 => ⟨S262144, .f32⟩
  | 80 => ⟨S_, .f32⟩
  | 81 => ⟨S_, .f32⟩
  | 82 => ⟨S_, .f32⟩
  | 83 => ⟨S262144, .f32⟩
  | 84 => ⟨S262144, .f32⟩
  | 85 => ⟨S_, .f32⟩
  | 86 => ⟨S262144, .f32⟩
  | 87 => ⟨S262144, .f32⟩
  | 88 => ⟨S_, .f32⟩
  | 89 => ⟨S262144, .f32⟩
  | 90 => ⟨S262144, .f32⟩
  | 91 => ⟨S262144x1, .f32⟩
  | 92 => ⟨S262144x81, .f32⟩
  | 93 => ⟨S262144x81, .f32⟩
  | 94 => ⟨S262144x1, .i32⟩
  | 95 => ⟨S_, .i32⟩
  | 96 => ⟨S262144x1, .i32⟩
  | 97 => ⟨S262144x1, .i1⟩
  | 98 => ⟨S_, .i32⟩
  | 99 => ⟨S262144x1, .i32⟩
  | 100 => ⟨S262144x1, .i32⟩
  | 101 => ⟨S262144x1, .i32⟩
  | 102 => ⟨S262144x1x1, .i32⟩
  | 103 => ⟨S1, .i32⟩
  | 104 => ⟨S_, .i32⟩
  | 105 => ⟨S262144x1x1, .i32⟩
  | 106 => ⟨S262144x1x1, .i1⟩
  | 107 => ⟨S1x1x1, .i32⟩
  | 108 => ⟨S262144x1x1, .i32⟩
  | 109 => ⟨S262144x1x1, .i1⟩
  | 110 => ⟨S262144x1x1, .i1⟩
  | 111 => ⟨S_, .i1⟩
  | 112 => ⟨S262144x1, .i1⟩
  | 113 => ⟨S262144x1, .f32⟩
  | 114 => ⟨S_, .f32⟩
  | 115 => ⟨S262144x1, .f32⟩
  | 116 => ⟨S262144x1, .f32⟩
  | 117 => ⟨S262144, .f32⟩
  | 118 => ⟨S_, .f32⟩
  | 119 => ⟨S262144, .f32⟩
  | 120 => ⟨S262144, .f32⟩
  | 121 => ⟨S_, .i32⟩
  | 122 => ⟨S262144, .i32⟩
  | 123 => ⟨S262144, .i1⟩
  | 124 => ⟨S262144, .i1⟩
  | 125 => ⟨S262144, .i1⟩
  | 126 => ⟨S_, .i32⟩
  | 127 => ⟨S262144, .i32⟩
  | _ => ⟨S262144x81, .f32⟩

abbrev hbmTy0_1 (i : Nat) : BufTy := match i % 128 with
  | 0 => ⟨S262144, .i1⟩
  | 1 => ⟨S262144, .i1⟩
  | 2 => ⟨S_, .i32⟩
  | 3 => ⟨S262144, .i32⟩
  | 4 => ⟨S262144, .i1⟩
  | 5 => ⟨S262144, .i1⟩
  | 6 => ⟨S262144, .i1⟩
  | 7 => ⟨S_, .i32⟩
  | 8 => ⟨S262144, .i32⟩
  | 9 => ⟨S262144, .i1⟩
  | 10 => ⟨S262144, .i1⟩
  | 11 => ⟨S262144, .i32⟩
  | 12 => ⟨S_, .i32⟩
  | 13 => ⟨S_, .i32⟩
  | 14 => ⟨S_, .f32⟩
  | 15 => ⟨S_, .f32⟩
  | 16 => ⟨S262144, .f32⟩
  | 17 => ⟨S262144, .f32⟩
  | 18 => ⟨S_, .f32⟩
  | 19 => ⟨S_, .f32⟩
  | 20 => ⟨S_, .i32⟩
  | 21 => ⟨S_, .i32⟩
  | 22 => ⟨S_, .i32⟩
  | 23 => ⟨S_, .i32⟩
  | 24 => ⟨S_, .f32⟩
  | 25 => ⟨S_, .i32⟩
  | 26 => ⟨S_, .i1⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S262144, .i32⟩
  | 36 => ⟨S_, .i32⟩
  | 37 => ⟨S_, .i32⟩
  | 38 => ⟨S_, .f32⟩
  | 39 => ⟨S_, .f32⟩
  | 40 => ⟨S262144, .f32⟩
  | 41 => ⟨S262144, .f32⟩
  | 42 => ⟨S_, .f32⟩
  | 43 => ⟨S_, .f32⟩
  | 44 => ⟨S_, .i32⟩
  | 45 => ⟨S_, .i32⟩
  | 46 => ⟨S_, .i32⟩
  | 47 => ⟨S_, .i32⟩
  | 48 => ⟨S_, .f32⟩
  | 49 => ⟨S_, .i32⟩
  | 50 => ⟨S_, .i1⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S262144, .i32⟩
  | 60 => ⟨S_, .i32⟩
  | 61 => ⟨S_, .i32⟩
  | 62 => ⟨S_, .f32⟩
  | 63 => ⟨S_, .f32⟩
  | 64 => ⟨S262144, .f32⟩
  | 65 => ⟨S262144, .f32⟩
  | 66 => ⟨S_, .f32⟩
  | 67 => ⟨S_, .f32⟩
  | 68 => ⟨S_, .i32⟩
  | 69 => ⟨S_, .i32⟩
  | 70 => ⟨S_, .i32⟩
  | 71 => ⟨S_, .i32⟩
  | 72 => ⟨S_, .f32⟩
  | 73 => ⟨S_, .i32⟩
  | 74 => ⟨S_, .i1⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | _ => ⟨S262144x81, .f32⟩

abbrev hbmTy (i : Nat) : BufTy := match i / 128 with
  | 0 => hbmTy0_0 i
  | 1 => hbmTy0_1 i
  | _ => ⟨S262144x81, .f32⟩

abbrev bufTy : (tb : Table) → Fin (tcTables nBuf tb) → BufTy
  | .hbm, ⟨i, _⟩ => hbmTy i
  | _, _ => ⟨S262144x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_cst : Ref sig .tc := ⟨.hbm, 57, rfl⟩
abbrev main_call0_v14 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_8 : Ref sig .tc := ⟨.hbm, 74, rfl⟩
abbrev main_v35 : Ref sig .tc := ⟨.hbm, 75, rfl⟩
abbrev main_v36 : Ref sig .tc := ⟨.hbm, 76, rfl⟩
abbrev main_cst_9 : Ref sig .tc := ⟨.hbm, 77, rfl⟩
abbrev main_v37 : Ref sig .tc := ⟨.hbm, 78, rfl⟩
abbrev main_v38 : Ref sig .tc := ⟨.hbm, 79, rfl⟩
abbrev main_cst_10 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v39 : Ref sig .tc := ⟨.hbm, 87, rfl⟩
abbrev main_cst_12 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_cst : Ref sig .tc := ⟨.hbm, 114, rfl⟩
abbrev main_call3_v14 : Ref sig .tc := ⟨.hbm, 115, rfl⟩
abbrev main_v46 : Ref sig .tc := ⟨.hbm, 116, rfl⟩
abbrev main_v47 : Ref sig .tc := ⟨.hbm, 117, rfl⟩
abbrev main_cst_13 : Ref sig .tc := ⟨.hbm, 118, rfl⟩
abbrev main_v48 : Ref sig .tc := ⟨.hbm, 119, rfl⟩
abbrev main_v49 : Ref sig .tc := ⟨.hbm, 120, rfl⟩
abbrev main_c_14 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_c_15 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_c_16 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_c_17 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_c_18 : Ref sig .tc := ⟨.hbm, 140, rfl⟩
abbrev main_v65 : Ref sig .tc := ⟨.hbm, 141, rfl⟩
abbrev main_cst_19 : Ref sig .tc := ⟨.hbm, 142, rfl⟩
abbrev main_call4_v0 : Ref sig .tc := ⟨.hbm, 143, rfl⟩
abbrev main_call4_v1 : Ref sig .tc := ⟨.hbm, 144, rfl⟩
abbrev main_v66 : Ref sig .tc := ⟨.hbm, 145, rfl⟩
abbrev main_cst_20 : Ref sig .tc := ⟨.hbm, 146, rfl⟩
abbrev main_v67 : Ref sig .tc := ⟨.hbm, 147, rfl⟩
abbrev main_c_21 : Ref sig .tc := ⟨.hbm, 148, rfl⟩
abbrev main_v68 : Ref sig .tc := ⟨.hbm, 149, rfl⟩
abbrev main_c_22 : Ref sig .tc := ⟨.hbm, 150, rfl⟩
abbrev main_v69 : Ref sig .tc := ⟨.hbm, 151, rfl⟩
abbrev main_v70 : Ref sig .tc := ⟨.hbm, 152, rfl⟩
abbrev main_c_23 : Ref sig .tc := ⟨.hbm, 153, rfl⟩
abbrev main_v71 : Ref sig .tc := ⟨.hbm, 154, rfl⟩
abbrev main_v72 : Ref sig .tc := ⟨.hbm, 155, rfl⟩
abbrev main_cst_24 : Ref sig .tc := ⟨.hbm, 156, rfl⟩
abbrev main_call5_v0 : Ref sig .tc := ⟨.hbm, 157, rfl⟩
abbrev main_v73 : Ref sig .tc := ⟨.hbm, 158, rfl⟩
abbrev main_cst_25 : Ref sig .tc := ⟨.hbm, 159, rfl⟩
abbrev main_v74 : Ref sig .tc := ⟨.hbm, 160, rfl⟩
abbrev main_cst_26 : Ref sig .tc := ⟨.hbm, 161, rfl⟩
abbrev main_v75 : Ref sig .tc := ⟨.hbm, 162, rfl⟩
abbrev main_v76 : Ref sig .tc := ⟨.hbm, 163, rfl⟩
abbrev main_c_27 : Ref sig .tc := ⟨.hbm, 164, rfl⟩
abbrev main_v77 : Ref sig .tc := ⟨.hbm, 165, rfl⟩
abbrev main_cst_28 : Ref sig .tc := ⟨.hbm, 166, rfl⟩
abbrev main_call6_v0 : Ref sig .tc := ⟨.hbm, 167, rfl⟩
abbrev main_call6_v1 : Ref sig .tc := ⟨.hbm, 168, rfl⟩
abbrev main_v78 : Ref sig .tc := ⟨.hbm, 169, rfl⟩
abbrev main_cst_29 : Ref sig .tc := ⟨.hbm, 170, rfl⟩
abbrev main_v79 : Ref sig .tc := ⟨.hbm, 171, rfl⟩
abbrev main_c_30 : Ref sig .tc := ⟨.hbm, 172, rfl⟩
abbrev main_v80 : Ref sig .tc := ⟨.hbm, 173, rfl⟩
abbrev main_c_31 : Ref sig .tc := ⟨.hbm, 174, rfl⟩
abbrev main_v81 : Ref sig .tc := ⟨.hbm, 175, rfl⟩
abbrev main_v82 : Ref sig .tc := ⟨.hbm, 176, rfl⟩
abbrev main_c_32 : Ref sig .tc := ⟨.hbm, 177, rfl⟩
abbrev main_v83 : Ref sig .tc := ⟨.hbm, 178, rfl⟩
abbrev main_v84 : Ref sig .tc := ⟨.hbm, 179, rfl⟩
abbrev main_cst_33 : Ref sig .tc := ⟨.hbm, 180, rfl⟩
abbrev main_call7_v0 : Ref sig .tc := ⟨.hbm, 181, rfl⟩
abbrev main_v85 : Ref sig .tc := ⟨.hbm, 182, rfl⟩
abbrev main_cst_34 : Ref sig .tc := ⟨.hbm, 183, rfl⟩
abbrev main_v86 : Ref sig .tc := ⟨.hbm, 184, rfl⟩
abbrev main_cst_35 : Ref sig .tc := ⟨.hbm, 185, rfl⟩
abbrev main_v87 : Ref sig .tc := ⟨.hbm, 186, rfl⟩
abbrev main_v88 : Ref sig .tc := ⟨.hbm, 187, rfl⟩
abbrev main_c_36 : Ref sig .tc := ⟨.hbm, 188, rfl⟩
abbrev main_v89 : Ref sig .tc := ⟨.hbm, 189, rfl⟩
abbrev main_cst_37 : Ref sig .tc := ⟨.hbm, 190, rfl⟩
abbrev main_call8_v0 : Ref sig .tc := ⟨.hbm, 191, rfl⟩
abbrev main_call8_v1 : Ref sig .tc := ⟨.hbm, 192, rfl⟩
abbrev main_v90 : Ref sig .tc := ⟨.hbm, 193, rfl⟩
abbrev main_cst_38 : Ref sig .tc := ⟨.hbm, 194, rfl⟩
abbrev main_v91 : Ref sig .tc := ⟨.hbm, 195, rfl⟩
abbrev main_c_39 : Ref sig .tc := ⟨.hbm, 196, rfl⟩
abbrev main_v92 : Ref sig .tc := ⟨.hbm, 197, rfl⟩
abbrev main_c_40 : Ref sig .tc := ⟨.hbm, 198, rfl⟩
abbrev main_v93 : Ref sig .tc := ⟨.hbm, 199, rfl⟩
abbrev main_v94 : Ref sig .tc := ⟨.hbm, 200, rfl⟩
abbrev main_c_41 : Ref sig .tc := ⟨.hbm, 201, rfl⟩
abbrev main_v95 : Ref sig .tc := ⟨.hbm, 202, rfl⟩
abbrev main_v96 : Ref sig .tc := ⟨.hbm, 203, rfl⟩
abbrev main_cst_42 : Ref sig .tc := ⟨.hbm, 204, rfl⟩
abbrev main_call9_v0 : Ref sig .tc := ⟨.hbm, 205, rfl⟩
abbrev main_v97 : Ref sig .tc := ⟨.hbm, 206, rfl⟩
abbrev main_cst_43 : Ref sig .tc := ⟨.hbm, 207, rfl⟩
abbrev main_v98 : Ref sig .tc := ⟨.hbm, 208, rfl⟩
abbrev main_cst_44 : Ref sig .tc := ⟨.hbm, 209, rfl⟩
abbrev main_v99 : Ref sig .tc := ⟨.hbm, 210, rfl⟩

abbrev nD : Nat := 1
abbrev τ : Topo := Topo.v7x

variable {F : FTy → Type} [FloatOps F]

class Facts₀ : Prop where
  reducesTo_S262144x81_S262144_d1 : S262144x81.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x81_0_1 : S262144x1.BroadcastsInDim S262144x81 (![0, 1] : Fin 2 → Fin S262144x81.rank)
  natLt_1_32 : 1 < 32
  bcast_S_S81 : S_.BroadcastsInDim S81 (![] : Fin 0 → Fin S81.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  bcast_S_S262144x81 : S_.BroadcastsInDim S262144x81 (![] : Fin 0 → Fin S262144x81.rank)
  reducesTo_S262144_S_d0 : S262144.ReducesTo [0] S_
  scatter_S81_S262144x1_S262144_n_0_0_1_wf : ScatterDims.WF S81 S262144x1 S262144 [] [0] [0] 1
  gather_S81_S262144x1_S262144_n_0_n_n_0_1_1_wf : GatherDims.WF S81 S262144x1 S262144 [] [0] [] [0] [] 1 ![1]
  gather_S262144x81_S262144x1x1_S262144x1_n_1_0_0_1_2_11_wf : GatherDims.WF S262144x81 S262144x1x1 S262144x1 [] [1] [0] [1] [0] 2 ![1, 1]

variable [Facts₀]

def scatter_S81_S262144x1_S262144_n_0_0_1 : ScatterDims S81 S262144x1 S262144 where
  updateWindowDims := []
  insertedWindowDims := [0]
  scatterDimsToOperandDims := [0]
  indexVectorDim := 1
  wf := scatter_S81_S262144x1_S262144_n_0_0_1_wf
def gather_S81_S262144x1_S262144_n_0_n_n_0_1_1 : GatherDims S81 S262144x1 S262144 where
  offsetDims := []
  collapsedSliceDims := [0]
  operandBatchingDims := []
  startIndicesBatchingDims := []
  startIndexMap := [0]
  indexVectorDim := 1
  sliceSizes := ![1]
  wf := gather_S81_S262144x1_S262144_n_0_n_n_0_1_1_wf
def gather_S262144x81_S262144x1x1_S262144x1_n_1_0_0_1_2_11 : GatherDims S262144x81 S262144x1x1 S262144x1 where
  offsetDims := []
  collapsedSliceDims := [1]
  operandBatchingDims := [0]
  startIndicesBatchingDims := [0]
  startIndexMap := [1]
  indexVectorDim := 2
  sliceSizes := ![1, 1]
  wf := gather_S262144x81_S262144x1x1_S262144x1_n_1_0_0_1_2_11_wf

class Facts : Prop extends Facts₀ where

variable [Facts]
-- ==== Proof.RefRunOps.lean ====
/- The reference's operation list cut into ten stretches (a cut before and after each of the two long inlined calls, then at the
   boundaries of the three groups and after the second and third groups' count words), the list as their concatenation, and that no operation of a stretch allocates. -/
import proofs.«415084_j9577777070150_2_alg».proof.Proof.RIOps

set_option maxRecDepth 16384

noncomputable section

namespace Cert.Loss.Ref

open Cert.ReferenceIdeal Cert.ReferenceIdeal.Gen Idealize.ShloMosaic Idealize.ShloMosaic.TcCoe Idealize.SL.Sem Idealize.ShloMosaic.StableHlo

variable {F : FTy → Type} [FloatOps F]

/-- Two lines of host operations run one after the other. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- Operations 1 … 35 of @main. -/
def s1 : List (HloOp τ sig (Elt F)) :=
  [
    nullary main_cst (constant S_ .f32 0xFF800000#32),
    binary main_arg0 main_cst main_v0 ((fun x v => Host.reduce FloatOps.maximumf x v reducesTo_S262144x81_S262144_d1 h_S_) : (⟨S262144x81, .f32⟩ : BufTy).Contents (Elt F) → (⟨S_, .f32⟩ : BufTy).Contents (Elt F) → (⟨S262144, .f32⟩ : BufTy).Contents (Elt F)),
    nullary main_cst_0 (constant S_ .f32 0xFF800000#32),
    unary main_cst_0 main_v1 (broadcastInDim S262144 ![] bcast_S_S262144 : (⟨S_, .f32⟩ : BufTy).Contents (Elt F) → (⟨S262144, .f32⟩ : BufTy).Contents (Elt F)),
    binary main_v1 main_v0 main_v2 (maximumf : (⟨S262144, .f32⟩ : BufTy).Contents (Elt F) → (⟨S262144, .f32⟩ : BufTy).Contents (Elt F) → (⟨S262144, .f32⟩ : BufTy).Contents (Elt F)),
    unary main_v2 main_v3 (broadcastInDim S262144x1 ![0] bcast_S262144_S262144x1_0 : (⟨S262144, .f32⟩ : BufTy).Contents (Elt F) → (⟨S262144x1, .f32⟩ : BufTy).Contents (Elt F)),
    unary main_v3 main_v4 (broadcastInDim S262144x81 ![0, 1] bcast_S262144x1_S262144x81_0_1 : (⟨S262144x1, .f32⟩ : BufTy).Contents (Elt F) → (⟨S262144x81, .f32⟩ : BufTy).Contents (Elt F)),
    binary main_arg0 main_v4 main_v5 (subf : (⟨S262144x81, .f32⟩ : BufTy).Contents (Elt F) → (⟨S262144x81, .f32⟩ : BufTy).Contents (Elt F) → (⟨S262144x81, .f32⟩ : BufTy).Contents (Elt F)),
    unary main_v5 main_v6 (Host.exp : (⟨S262144x81, .f32⟩ : BufTy).Contents (Elt F) → (⟨S262144x81, .f32⟩ : BufTy).Contents (Elt F)),
    nullary main_cst_1 (constant S_ .f32 0x00000000#32),
    binary main_v6 main_cst_1 main_v7 ((fun x v => Host.reduceAdd x v reducesTo_S262144x81_S262144_d1 h_S_) : (⟨S262144x81, .f32⟩ : BufTy).Contents (Elt F) → (⟨S_, .f32⟩ : BufTy).Contents (Elt F) → (⟨S262144, .f32⟩ : BufTy).Contents (Elt F)),
    unary main_v7 main_v8 (broadcastInDim S262144x1 ![0] bcast_S262144_S262144x1_0 : (⟨S262144, .f32⟩ : BufTy).Contents (Elt F) → (⟨S262144x1, .f32⟩ : BufTy).Contents (Elt F)),
    unary main_v8 main_v9 (broadcastInDim S262144x81 ![0, 1] bcast_S262144x1_S262144x81_0_1 : (⟨S262144x1, .f32⟩ : BufTy).Contents (Elt F) → (⟨S262144x81, .f32⟩ : BufTy).Contents (Elt F)),
    binary main_v6 main_v9 main_v10 (Host.divf : (⟨S262144x81, .f32⟩ : BufTy).Contents (Elt F) → (⟨S262144x81, .f32⟩ : BufTy).Contents (Elt F) → (⟨S262144x81, .f32⟩ : BufTy).Contents (Elt F)),
    nullary main_cst_2 (constant S_ .f32 0x00000000#32),
    unary main_cst_2 main_v11 (broadcastInDim S262144 ![] bcast_S_S262144 : (⟨S_, .f32⟩ : BufTy).Contents (Elt F) → (⟨S262144, .f32⟩ : BufTy).Contents (Elt F)),
    binary main_arg2 main_v11 main_v12 (cmpf .ogt : (⟨S262144, .f32⟩ : BufTy).Contents (Elt F) → (⟨S262144, .f32⟩ : BufTy).Contents (Elt F) → (⟨S262144, .i1⟩ : BufTy).Contents (Elt F)),
    unary main_v12 main_v13 ((extui 32 · natLt_1_32) : (⟨S262144, .i1⟩ : BufTy).Contents (Elt F) → (⟨S262144, .i32⟩ : BufTy).Contents (Elt F)),
    nullary main_c (constantI S_ 32 0#32),
    unary main_c main_v14 (broadcastInDim S81 ![] bcast_S_S81 : (⟨S_, .i32⟩ : BufTy).Contents (Elt F) → (⟨S81, .i32⟩ : BufTy).Contents (Elt F)),
    unary main_arg1 main_v15 (broadcastInDim S262144x1 ![0] bcast_S262144_S262144x1_0 : (⟨S262144, .i32⟩ : BufTy).Contents (Elt F) → (⟨S262144x1, .i32⟩ : BufTy).Contents (Elt F)),
    ternary main_v14 main_v15 main_v13 main_v16 ((fun x i u => Host.scatter scatter_S81_S262144x1_S262144_n_0_0_1 IntOp.addi x i u) : (⟨S81, .i32⟩ : BufTy).Contents (Elt F) → (⟨S262144x1, .i32⟩ : BufTy).Contents (Elt F) → (⟨S262144, .i32⟩ : BufTy).Contents (Elt F) → (⟨S81, .i32⟩ : BufTy).Contents (Elt F)),
    nullary main_c_3 (constantI S_ 32 0#32),
    unary main_c_3 main_v17 (broadcastInDim S262144 ![] bcast_S_S262144 : (⟨S_, .i32⟩ : BufTy).Contents (Elt F) → (⟨S262144, .i32⟩ : BufTy).Contents (Elt F)),
    binary main_arg1 main_v17 main_v18 (cmpi .slt : (⟨S262144, .i32⟩ : BufTy).Contents (Elt F) → (⟨S262144, .i32⟩ : BufTy).Contents (Elt F) → (⟨S262144, .i1⟩ : BufTy).Contents (Elt F)),
    nullary main_c_4 (constantI S_ 32 81#32),
    unary main_c_4 main_v19 (broadcastInDim S262144 ![] bcast_S_S262144 : (⟨S_, .i32⟩ : BufTy).Contents (Elt F) → (⟨S262144, .i32⟩ : BufTy).Contents (Elt F)),
    binary main_arg1 main_v19 main_v20 (addi : (⟨S262144, .i32⟩ : BufTy).Contents (Elt F) → (⟨S262144, .i32⟩ : BufTy).Contents (Elt F) → (⟨S262144, .i32⟩ : BufTy).Contents (Elt F)),
    ternary main_v18 main_v20 main_arg1 main_v21 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v21 main_v22 (broadcastInDim S262144x1 ![0] bcast_S262144_S262144x1_0 : (⟨S262144, .i32⟩ : BufTy).Contents (Elt F) → (⟨S262144x1, .i32⟩ : BufTy).Contents (Elt F)),
    binary main_v16 main_v22 main_v23 ((fun x i => Host.gather gather_S81_S262144x1_S262144_n_0_n_n_0_1_1 x i) : (⟨S81, .i32⟩ : BufTy).Contents (Elt F) → (⟨S262144x1, .i32⟩ : BufTy).Contents (Elt F) → (⟨S262144, .i32⟩ : BufTy).Contents (Elt F)),
    nullary main_c_5 (constantI S_ 32 2#32),
    unary main_c_5 main_v24 (broadcastInDim S262144 ![] bcast_S_S262144 : (⟨S_, .i32⟩ : BufTy).Contents (Elt F) → (⟨S262144, .i32⟩ : BufTy).Contents (Elt F)),
    binary main_v23 main_v24 main_v25 (cmpi .sge : (⟨S262144, .i32⟩ : BufTy).Contents (Elt F) → (⟨S262144, .i32⟩ : BufTy).Contents (Elt F) → (⟨S262144, .i1⟩ : BufTy).Contents (Elt F)),
    unary main_arg1 main_v26 (broadcastInDim S262144x1 ![0] bcast_S262144_S262144x1_0 : (⟨S262144, .i32⟩ : BufTy).Contents (Elt F) → (⟨S262144x1, .i32⟩ : BufTy).Contents (Elt F)) ]

/-- Operations 36 … 57 of @main. -/
def s2 : List (HloOp τ sig (Elt F)) :=
  [
    TRef.nullary (TRef.of (T := ⟨S_, .i32⟩) main_call0_c) (constantI S_ 32 0#32),
    TRef.unary (TRef.of (T := ⟨S_, .i32⟩) main_call0_c) (TRef.of (T := ⟨S262144x1, .i32⟩) main_call0_v0) (broadcastInDim S262144x1 ![] bcast_S_S262144x1),
    TRef.binary (TRef.of (T := ⟨S262144x1, .i32⟩) main_v26) (TRef.of (T := ⟨S262144x1, .i32⟩) main_call0_v0) (TRef.of (T := ⟨S262144x1, .i1⟩) main_call0_v1) (cmpi .slt),
    TRef.nullary (TRef.of (T := ⟨S_, .i32⟩) main_call0_c_0) (constantI S_ 32 81#32),
    TRef.unary (TRef.of (T := ⟨S_, .i32⟩) main_call0_c_0) (TRef.of (T := ⟨S262144x1, .i32⟩) main_call0_v2) (broadcastInDim S262144x1 ![] bcast_S_S262144x1),
    TRef.binary (TRef.of (T := ⟨S262144x1, .i32⟩) main_v26) (TRef.of (T := ⟨S262144x1, .i32⟩) main_call0_v2) (TRef.of (T := ⟨S262144x1, .i32⟩) main_call0_v3) addi,
    TRef.ternary (TRef.of (T := ⟨S262144x1, .i1⟩) main_call0_v1) (TRef.of (T := ⟨S262144x1, .i32⟩) main_call0_v3) (TRef.of (T := ⟨S262144x1, .i32⟩) main_v26) (TRef.of (T := ⟨S262144x1, .i32⟩) main_call0_v4) select,
    TRef.reshape (TRef.of (T := ⟨S262144x1, .i32⟩) main_call0_v4) (TRef.of (T := ⟨S262144x1x1, .i32⟩) main_call0_v5) rfl shapeCasts_S262144x1_S262144x1x1,
    TRef.nullary (TRef.of (T := ⟨S1, .i32⟩) main_call0_c_1) (constantI S1 32 80#32),
    TRef.nullary (TRef.of (T := ⟨S_, .i32⟩) main_call0_c_2) (constantI S_ 32 0#32),
    TRef.unary (TRef.of (T := ⟨S_, .i32⟩) main_call0_c_2) (TRef.of (T := ⟨S262144x1x1, .i32⟩) main_call0_v6) (broadcastInDim S262144x1x1 ![] bcast_S_S262144x1x1),
    TRef.binary (TRef.of (T := ⟨S262144x1x1, .i32⟩) main_call0_v5) (TRef.of (T := ⟨S262144x1x1, .i32⟩) main_call0_v6) (TRef.of (T := ⟨S262144x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S262144x1x1, .i32⟩) main_call0_v9) (broadcastInDim S262144x1x1 ![0, 1, 2] bcast_S1x1x1_S262144x1x1_0_1_2),
    TRef.binary (TRef.of (T := ⟨S262144x1x1, .i32⟩) main_call0_v5) (TRef.of (T := ⟨S262144x1x1, .i32⟩) main_call0_v9) (TRef.of (T := ⟨S262144x1x1, .i1⟩) main_call0_v10) (cmpi .sle),
    TRef.binary (TRef.of (T := ⟨S262144x1x1, .i1⟩) main_call0_v7) (TRef.of (T := ⟨S262144x1x1, .i1⟩) main_call0_v10) (TRef.of (T := ⟨S262144x1x1, .i1⟩) main_call0_v11) andi,
    TRef.nullary (TRef.of (T := ⟨S_, .i1⟩) main_call0_c_3) (constantI S_ 1 1#1),
    TRef.binary (TRef.of (T := ⟨S262144x1x1, .i1⟩) main_call0_v11) (TRef.of (T := ⟨S_, .i1⟩) main_call0_c_3) (TRef.of (T := ⟨S262144x1, .i1⟩) main_call0_v12) (fun x v => Host.reduce IntOp.andi x v reducesTo_S262144x1x1_S262144x1_d2 h_S_),
    TRef.binary (TRef.of (T := ⟨S262144x81, .f32⟩) main_v10) (TRef.of (T := ⟨S262144x1x1, .i32⟩) main_call0_v5) (TRef.of (T := ⟨S262144x1, .f32⟩) main_call0_v13) (fun x i => Host.gather gather_S262144x81_S262144x1x1_S262144x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S262144x1, .f32⟩) main_call0_v14) (broadcastInDim S262144x1 ![] bcast_S_S262144x1),
    TRef.ternary (TRef.of (T := ⟨S262144x1, .i1⟩) main_call0_v12) (TRef.of (T := ⟨S262144x1, .f32⟩) main_call0_v13) (TRef.of (T := ⟨S262144x1, .f32⟩) main_call0_v14) (TRef.of (T := ⟨S262144x1, .f32⟩) main_v27) select ]

/-- Operations 58 … 92 of @main. -/
def s3 : List (HloOp τ sig (Elt F)) :=
  [
    reshape main_v27 main_v28 rfl shapeCasts_S262144x1_S262144,
    unary main_v28 main_v29 (broadcastInDim S262144x1 ![0] bcast_S262144_S262144x1_0 : (⟨S262144, .f32⟩ : BufTy).Contents (Elt F) → (⟨S262144x1, .f32⟩ : BufTy).Contents (Elt F)),
    unary main_v29 main_v30 (broadcastInDim S262144x81 ![0, 1] bcast_S262144x1_S262144x81_0_1 : (⟨S262144x1, .f32⟩ : BufTy).Contents (Elt F) → (⟨S262144x81, .f32⟩ : BufTy).Contents (Elt F)),
    binary main_v30 main_v10 main_v31 (subf : (⟨S262144x81, .f32⟩ : BufTy).Contents (Elt F) → (⟨S262144x81, .f32⟩ : BufTy).Contents (Elt F) → (⟨S262144x81, .f32⟩ : BufTy).Contents (Elt F)),
    nullary main_cst_6 (constant S_ .f32 0x3A83126F#32),
    nullary main_cst_7 (constant S_ .f32 0x3F800000#32),
    TRef.unary (TRef.of (T := ⟨S_, .f32⟩) main_cst_6) (TRef.of (T := ⟨S_, .f32⟩) main_call1_v0) id,
    TRef.unary (TRef.of (T := ⟨S_, .f32⟩) main_call1_v0) (TRef.of (T := ⟨S262144x81, .f32⟩) main_call1_v1) (broadcastInDim S262144x81 ![] bcast_S_S262144x81),
    TRef.binary (TRef.of (T := ⟨S262144x81, .f32⟩) main_call1_v1) (TRef.of (T := ⟨S262144x81, .f32⟩) main_v31) (TRef.of (T := ⟨S262144x81, .f32⟩) main_call1_v2) maximumf,
    TRef.unary (TRef.of (T := ⟨S_, .f32⟩) main_cst_7) (TRef.of (T := ⟨S_, .f32⟩) main_call1_v3) id,
    TRef.unary (TRef.of (T := ⟨S_, .f32⟩) main_call1_v3) (TRef.of (T := ⟨S262144x81, .f32⟩) main_call1_v4) (broadcastInDim S262144x81 ![] bcast_S_S262144x81),
    TRef.binary (TRef.of (T := ⟨S262144x81, .f32⟩) main_call1_v4) (TRef.of (T := ⟨S262144x81, .f32⟩) main_call1_v2) (TRef.of (T := ⟨S262144x81, .f32⟩) main_v32) minimumf,
    unary main_v32 main_v33 (Host.log : (⟨S262144x81, .f32⟩ : BufTy).Contents (Elt F) → (⟨S262144x81, .f32⟩ : BufTy).Contents (Elt F)),
    unary main_v33 main_v34 (Host.negf : (⟨S262144x81, .f32⟩ : BufTy).Contents (Elt F) → (⟨S262144x81, .f32⟩ : BufTy).Contents (Elt F)),
    nullary main_cst_8 (constant S_ .f32 0x40A00000#32),
    unary main_cst_8 main_v35 (broadcastInDim S262144x81 ![] bcast_S_S262144x81 : (⟨S_, .f32⟩ : BufTy).Contents (Elt F) → (⟨S262144x81, .f32⟩ : BufTy).Contents (Elt F)),
    binary main_v34 main_v35 main_v36 (minimumf : (⟨S262144x81, .f32⟩ : BufTy).Contents (Elt F) → (⟨S262144x81, .f32⟩ : BufTy).Contents (Elt F) → (⟨S262144x81, .f32⟩ : BufTy).Contents (Elt F)),
    nullary main_cst_9 (constant S_ .f32 0x3F800000#32),
    unary main_cst_9 main_v37 (broadcastInDim S262144 ![] bcast_S_S262144 : (⟨S_, .f32⟩ : BufTy).Contents (Elt F) → (⟨S262144, .f32⟩ : BufTy).Contents (Elt F)),
    binary main_v37 main_v28 main_v38 (subf : (⟨S262144, .f32⟩ : BufTy).Contents (Elt F) → (⟨S262144, .f32⟩ : BufTy).Contents (Elt F) → (⟨S262144, .f32⟩ : BufTy).Contents (Elt F)),
    nullary main_cst_10 (constant S_ .f32 0x38D1B717#32),
    nullary main_cst_11 (constant S_ .f32 0x3F800000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S262144, .f32⟩) main_call2_v1) (broadcastInDim S262144 ![] bcast_S_S262144),
    TRef.binary (TRef.of (T := ⟨S262144, .f32⟩) main_call2_v1) (TRef.of (T := ⟨S262144, .f32⟩) main_v38) (TRef.of (T := ⟨S262144, .f32⟩) main_call2_v2) maximumf,
    TRef.unary (TRef.of (T := ⟨S_, .f32⟩) main_cst_11) (TRef.of (T := ⟨S_, .f32⟩) main_call2_v3) id,
    TRef.unary (TRef.of (T := ⟨S_, .f32⟩) main_call2_v3) (TRef.of (T := ⟨S262144, .f32⟩) main_call2_v4) (broadcastInDim S262144 ![] bcast_S_S262144),
    TRef.binary (TRef.of (T := ⟨S262144, .f32⟩) main_call2_v4) (TRef.of (T := ⟨S262144, .f32⟩) main_call2_v2) (TRef.of (T := ⟨S262144, .f32⟩) main_v39) minimumf,
    nullary main_cst_12 (constant S_ .f32 0x40000000#32),
    unary main_cst_12 main_v40 (broadcastInDim S262144 ![] bcast_S_S262144 : (⟨S_, .f32⟩ : BufTy).Contents (Elt F) → (⟨S262144, .f32⟩ : BufTy).Contents (Elt F)),
    binary main_v39 main_v40 main_v41 (Host.powf : (⟨S262144, .f32⟩ : BufTy).Contents (Elt F) → (⟨S262144, .f32⟩ : BufTy).Contents (Elt F) → (⟨S262144, .f32⟩ : BufTy).Contents (Elt F)),
    unary main_v41 main_v42 (broadcastInDim S262144x1 ![0] bcast_S262144_S262144x1_0 : (⟨S262144, .f32⟩ : BufTy).Contents (Elt F) → (⟨S262144x1, .f32⟩ : BufTy).Contents (Elt F)),
    unary main_v42 main_v43 (broadcastInDim S262144x81 ![0, 1] bcast_S262144x1_S262144x81_0_1 : (⟨S262144x1, .f32⟩ : BufTy).Contents (Elt F) → (⟨S262144x81, .f32⟩ : BufTy).Contents (Elt F)),
    binary main_v43 main_v36 main_v44 (mulf : (⟨S262144x81, .f32⟩ : BufTy).Contents (Elt F) → (⟨S262144x81, .f32⟩ : BufTy).Contents (Elt F) → (⟨S262144x81, .f32⟩ : BufTy).Contents (Elt F)),
    unary main_arg1 main_v45 (broadcastInDim S262144x1 ![0] bcast_S262144_S262144x1_0 : (⟨S262144, .i32⟩ : BufTy).Contents (Elt F) → (⟨S262144x1, .i32⟩ : BufTy).Contents (Elt F)) ]

/-- Operations 93 … 114 of @main. -/
def s4 : List (HloOp τ sig (Elt F)) :=
  [
    TRef.nullary (TRef.of (T := ⟨S_, .i32⟩) main_call3_c) (constantI S_ 32 0#32),
    TRef.unary (TRef.of (T := ⟨S_, .i32⟩) main_call3_c) (TRef.of (T := ⟨S262144x1, .i32⟩) main_call3_v0) (broadcastInDim S262144x1 ![] bcast_S_S262144x1),
    TRef.binary (TRef.of (T := ⟨S262144x1, .i32⟩) main_v45) (TRef.of (T := ⟨S262144x1, .i32⟩) main_call3_v0) (TRef.of (T := ⟨S262144x1, .i1⟩) main_call3_v1) (cmpi .slt),
    TRef.nullary (TRef.of (T := ⟨S_, .i32⟩) main_call3_c_0) (constantI S_ 32 81#32),
    TRef.unary (TRef.of (T := ⟨S_, .i32⟩) main_call3_c_0) (TRef.of (T := ⟨S262144x1, .i32⟩) main_call3_v2) (broadcastInDim S262144x1 ![] bcast_S_S262144x1),
    TRef.binary (TRef.of (T := ⟨S262144x1, .i32⟩) main_v45) (TRef.of (T := ⟨S262144x1, .i32⟩) main_call3_v2) (TRef.of (T := ⟨S262144x1, .i32⟩) main_call3_v3) addi,
    TRef.ternary (TRef.of (T := ⟨S262144x1, .i1⟩) main_call3_v1) (TRef.of (T := ⟨S262144x1, .i32⟩) main_call3_v3) (TRef.of (T := ⟨S262144x1, .i32⟩) main_v45) (TRef.of (T := ⟨S262144x1, .i32⟩) main_call3_v4) select,
    TRef.reshape (TRef.of (T := ⟨S262144x1, .i32⟩) main_call3_v4) (TRef.of (T := ⟨S262144x1x1, .i32⟩) main_call3_v5) rfl shapeCasts_S262144x1_S262144x1x1,
    TRef.nullary (TRef.of (T := ⟨S1, .i32⟩) main_call3_c_1) (constantI S1 32 80#32),
    TRef.nullary (TRef.of (T := ⟨S_, .i32⟩) main_call3_c_2) (constantI S_ 32 0#32),
    TRef.unary (TRef.of (T := ⟨S_, .i32⟩) main_call3_c_2) (TRef.of (T := ⟨S262144x1x1, .i32⟩) main_call3_v6) (broadcastInDim S262144x1x1 ![] bcast_S_S262144x1x1),
    TRef.binary (TRef.of (T := ⟨S262144x1x1, .i32⟩) main_call3_v5) (TRef.of (T := ⟨S262144x1x1, .i32⟩) main_call3_v6) (TRef.of (T := ⟨S262144x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S262144x1x1, .i32⟩) main_call3_v9) (broadcastInDim S262144x1x1 ![0, 1, 2] bcast_S1x1x1_S262144x1x1_0_1_2),
    TRef.binary (TRef.of (T := ⟨S262144x1x1, .i32⟩) main_call3_v5) (TRef.of (T := ⟨S262144x1x1, .i32⟩) main_call3_v9) (TRef.of (T := ⟨S262144x1x1, .i1⟩) main_call3_v10) (cmpi .sle),
    TRef.binary (TRef.of (T := ⟨S262144x1x1, .i1⟩) main_call3_v7) (TRef.of (T := ⟨S262144x1x1, .i1⟩) main_call3_v10) (TRef.of (T := ⟨S262144x1x1, .i1⟩) main_call3_v11) andi,
    TRef.nullary (TRef.of (T := ⟨S_, .i1⟩) main_call3_c_3) (constantI S_ 1 1#1),
    TRef.binary (TRef.of (T := ⟨S262144x1x1, .i1⟩) main_call3_v11) (TRef.of (T := ⟨S_, .i1⟩) main_call3_c_3) (TRef.of (T := ⟨S262144x1, .i1⟩) main_call3_v12) (fun x v => Host.reduce IntOp.andi x v reducesTo_S262144x1x1_S262144x1_d2 h_S_),
    TRef.binary (TRef.of (T := ⟨S262144x81, .f32⟩) main_v44) (TRef.of (T := ⟨S262144x1x1, .i32⟩) main_call3_v5) (TRef.of (T := ⟨S262144x1, .f32⟩) main_call3_v13) (fun x i => Host.gather gather_S262144x81_S262144x1x1_S262144x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S262144x1, .f32⟩) main_call3_v14) (broadcastInDim S262144x1 ![] bcast_S_S262144x1),
    TRef.ternary (TRef.of (T := ⟨S262144x1, .i1⟩) main_call3_v12) (TRef.of (T := ⟨S262144x1, .f32⟩) main_call3_v13) (TRef.of (T := ⟨S262144x1, .f32⟩) main_call3_v14) (TRef.of (T := ⟨S262144x1, .f32⟩) main_v46) select ]

/-- Operations 115 … 139 of @main. -/
def s5 : List (HloOp τ sig (Elt F)) :=
  [
    reshape main_v46 main_v47 rfl shapeCasts_S262144x1_S262144,
    nullary main_cst_13 (constant S_ .f32 0x00000000#32),
    binary main_v44 main_cst_13 main_v48 ((fun x v => Host.reduceAdd x v reducesTo_S262144x81_S262144_d1 h_S_) : (⟨S262144x81, .f32⟩ : BufTy).Contents (Elt F) → (⟨S_, .f32⟩ : BufTy).Contents (Elt F) → (⟨S262144, .f32⟩ : BufTy).Contents (Elt F)),
    binary main_v48 main_v47 main_v49 (subf : (⟨S262144, .f32⟩ : BufTy).Contents (Elt F) → (⟨S262144, .f32⟩ : BufTy).Contents (Elt F) → (⟨S262144, .f32⟩ : BufTy).Contents (Elt F)),
    nullary main_c_14 (constantI S_ 32 60#32),
    unary main_c_14 main_v50 (broadcastInDim S262144 ![] bcast_S_S262144 : (⟨S_, .i32⟩ : BufTy).Contents (Elt F) → (⟨S262144, .i32⟩ : BufTy).Contents (Elt F)),
    binary main_arg1 main_v50 main_v51 (cmpi .slt : (⟨S262144, .i32⟩ : BufTy).Contents (Elt F) → (⟨S262144, .i32⟩ : BufTy).Contents (Elt F) → (⟨S262144, .i1⟩ : BufTy).Contents (Elt F)),
    binary main_v12 main_v51 main_v52 (andi : (⟨S262144, .i1⟩ : BufTy).Contents (Elt F) → (⟨S262144, .i1⟩ : BufTy).Contents (Elt F) → (⟨S262144, .i1⟩ : BufTy).Contents (Elt F)),
    binary main_v52 main_v25 main_v53 (andi : (⟨S262144, .i1⟩ : BufTy).Contents (Elt F) → (⟨S262144, .i1⟩ : BufTy).Contents (Elt F) → (⟨S262144, .i1⟩ : BufTy).Contents (Elt F)),
    nullary main_c_15 (constantI S_ 32 60#32),
    unary main_c_15 main_v54 (broadcastInDim S262144 ![] bcast_S_S262144 : (⟨S_, .i32⟩ : BufTy).Contents (Elt F) → (⟨S262144, .i32⟩ : BufTy).Contents (Elt F)),
    binary main_arg1 main_v54 main_v55 (cmpi .sge : (⟨S262144, .i32⟩ : BufTy).Contents (Elt F) → (⟨S262144, .i32⟩ : BufTy).Contents (Elt F) → (⟨S262144, .i1⟩ : BufTy).Contents (Elt F)),
    binary main_v12 main_v55 main_v56 (andi : (⟨S262144, .i1⟩ : BufTy).Contents (Elt F) → (⟨S262144, .i1⟩ : BufTy).Contents (Elt F) → (⟨S262144, .i1⟩ : BufTy).Contents (Elt F)),
    nullary main_c_16 (constantI S_ 32 80#32),
    unary main_c_16 main_v57 (broadcastInDim S262144 ![] bcast_S_S262144 : (⟨S_, .i32⟩ : BufTy).Contents (Elt F) → (⟨S262144, .i32⟩ : BufTy).Contents (Elt F)),
    binary main_arg1 main_v57 main_v58 (cmpi .slt : (⟨S262144, .i32⟩ : BufTy).Contents (Elt F) → (⟨S262144, .i32⟩ : BufTy).Contents (Elt F) → (⟨S262144, .i1⟩ : BufTy).Contents (Elt F)),
    binary main_v56 main_v58 main_v59 (andi : (⟨S262144, .i1⟩ : BufTy).Contents (Elt F) → (⟨S262144, .i1⟩ : BufTy).Contents (Elt F) → (⟨S262144, .i1⟩ : BufTy).Contents (Elt F)),
    binary main_v59 main_v25 main_v60 (andi : (⟨S262144, .i1⟩ : BufTy).Contents (Elt F) → (⟨S262144, .i1⟩ : BufTy).Contents (Elt F) → (⟨S262144, .i1⟩ : BufTy).Contents (Elt F)),
    nullary main_c_17 (constantI S_ 32 80#32),
    unary main_c_17 main_v61 (broadcastInDim S262144 ![] bcast_S_S262144 : (⟨S_, .i32⟩ : BufTy).Contents (Elt F) → (⟨S262144, .i32⟩ : BufTy).Contents (Elt F)),
    binary main_arg1 main_v61 main_v62 (cmpi .eq : (⟨S262144, .i32⟩ : BufTy).Contents (Elt F) → (⟨S262144, .i32⟩ : BufTy).Contents (Elt F) → (⟨S262144, .i1⟩ : BufTy).Contents (Elt F)),
    binary main_v12 main_v62 main_v63 (andi : (⟨S262144, .i1⟩ : BufTy).Contents (Elt F) → (⟨S262144, .i1⟩ : BufTy).Contents (Elt F) → (⟨S262144, .i1⟩ : BufTy).Contents (Elt F)),
    unary main_v53 main_v64 ((extui 32 · natLt_1_32) : (⟨S262144, .i1⟩ : BufTy).Contents (Elt F) → (⟨S262144, .i32⟩ : BufTy).Contents (Elt F)),
    nullary main_c_18 (constantI S_ 32 0#32),
    binary main_v64 main_c_18 main_v65 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)) ]

/-- Operations 140 … 160 of @main. -/
def s6 : List (HloOp τ sig (Elt F)) :=
  [
    nullary main_cst_19 (constant S_ .f32 0x00000000#32),
    TRef.unary (TRef.of (T := ⟨S_, .f32⟩) main_cst_19) (TRef.of (T := ⟨S_, .f32⟩) main_call4_v0) id,
    TRef.unary (TRef.of (T := ⟨S_, .f32⟩) main_call4_v0) (TRef.of (T := ⟨S262144, .f32⟩) main_call4_v1) (broadcastInDim S262144 ![] bcast_S_S262144),
    TRef.ternary (TRef.of (T := ⟨S262144, .i1⟩) main_v53) (TRef.of (T := ⟨S262144, .f32⟩) main_v49) (TRef.of (T := ⟨S262144, .f32⟩) main_call4_v1) (TRef.of (T := ⟨S262144, .f32⟩) main_v66) select,
    nullary main_cst_20 (constant S_ .f32 0x00000000#32),
    binary main_v66 main_cst_20 main_v67 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_c_21 (constantI S_ 32 1#32),
    binary main_v65 main_c_21 main_v68 (maxsi : (⟨S_, .i32⟩ : BufTy).Contents (Elt F) → (⟨S_, .i32⟩ : BufTy).Contents (Elt F) → (⟨S_, .i32⟩ : BufTy).Contents (Elt F)),
    nullary main_c_22 (constantI S_ 32 80#32),
    binary main_v68 main_c_22 main_v69 (muli : (⟨S_, .i32⟩ : BufTy).Contents (Elt F) → (⟨S_, .i32⟩ : BufTy).Contents (Elt F) → (⟨S_, .i32⟩ : BufTy).Contents (Elt F)),
    unary main_v69 main_v70 (sitofp .f32 : (⟨S_, .i32⟩ : BufTy).Contents (Elt F) → (⟨S_, .f32⟩ : BufTy).Contents (Elt F)),
    nullary main_c_23 (constantI S_ 32 0#32),
    binary main_v65 main_c_23 main_v71 (cmpi .sgt : (⟨S_, .i32⟩ : BufTy).Contents (Elt F) → (⟨S_, .i32⟩ : BufTy).Contents (Elt F) → (⟨S_, .i1⟩ : BufTy).Contents (Elt F)),
    binary main_v67 main_v70 main_v72 (Host.divf : (⟨S_, .f32⟩ : BufTy).Contents (Elt F) → (⟨S_, .f32⟩ : BufTy).Contents (Elt F) → (⟨S_, .f32⟩ : BufTy).Contents (Elt F)),
    nullary main_cst_24 (constant S_ .f32 0x00000000#32),
    TRef.unary (TRef.of (T := ⟨S_, .f32⟩) main_cst_24) (TRef.of (T := ⟨S_, .f32⟩) main_call5_v0) id,
    TRef.ternary (TRef.of (T := ⟨S_, .i1⟩) main_v71) (TRef.of (T := ⟨S_, .f32⟩) main_v72) (TRef.of (T := ⟨S_, .f32⟩) main_call5_v0) (TRef.of (T := ⟨S_, .f32⟩) main_v73) select,
    nullary main_cst_25 (constant S_ .f32 0x3D088889#32),
    binary main_v73 main_cst_25 main_v74 (mulf : (⟨S_, .f32⟩ : BufTy).Contents (Elt F) → (⟨S_, .f32⟩ : BufTy).Contents (Elt F) → (⟨S_, .f32⟩ : BufTy).Contents (Elt F)),
    nullary main_cst_26 (constant S_ .f32 0x3F800000#32),
    binary main_v74 main_cst_26 main_v75 (minimumf : (⟨S_, .f32⟩ : BufTy).Contents (Elt F) → (⟨S_, .f32⟩ : BufTy).Contents (Elt F) → (⟨S_, .f32⟩ : BufTy).Contents (Elt F)) ]

/-- Operations 161 … 163 of @main. -/
def s7 : List (HloOp τ sig (Elt F)) :=
  [
    unary main_v60 main_v76 ((extui 32 · natLt_1_32) : (⟨S262144, .i1⟩ : BufTy).Contents (Elt F) → (⟨S262144, .i32⟩ : BufTy).Contents (Elt F)),
    nullary main_c_27 (constantI S_ 32 0#32),
    binary main_v76 main_c_27 main_v77 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)) ]

/-- Operations 164 … 184 of @main. -/
def s8 : List (HloOp τ sig (Elt F)) :=
  [
    nullary main_cst_28 (constant S_ .f32 0x00000000#32),
    TRef.unary (TRef.of (T := ⟨S_, .f32⟩) main_cst_28) (TRef.of (T := ⟨S_, .f32⟩) main_call6_v0) id,
    TRef.unary (TRef.of (T := ⟨S_, .f32⟩) main_call6_v0) (TRef.of (T := ⟨S262144, .f32⟩) main_call6_v1) (broadcastInDim S262144 ![] bcast_S_S262144),
    TRef.ternary (TRef.of (T := ⟨S262144, .i1⟩) main_v60) (TRef.of (T := ⟨S262144, .f32⟩) main_v49) (TRef.of (T := ⟨S262144, .f32⟩) main_call6_v1) (TRef.of (T := ⟨S262144, .f32⟩) main_v78) select,
    nullary main_cst_29 (constant S_ .f32 0x00000000#32),
    binary main_v78 main_cst_29 main_v79 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_c_30 (constantI S_ 32 1#32),
    binary main_v77 main_c_30 main_v80 (maxsi : (⟨S_, .i32⟩ : BufTy).Contents (Elt F) → (⟨S_, .i32⟩ : BufTy).Contents (Elt F) → (⟨S_, .i32⟩ : BufTy).Contents (Elt F)),
    nullary main_c_31 (constantI S_ 32 80#32),
    binary main_v80 main_c_31 main_v81 (muli : (⟨S_, .i32⟩ : BufTy).Contents (Elt F) → (⟨S_, .i32⟩ : BufTy).Contents (Elt F) → (⟨S_, .i32⟩ : BufTy).Contents (Elt F)),
    unary main_v81 main_v82 (sitofp .f32 : (⟨S_, .i32⟩ : BufTy).Contents (Elt F) → (⟨S_, .f32⟩ : BufTy).Contents (Elt F)),
    nullary main_c_32 (constantI S_ 32 0#32),
    binary main_v77 main_c_32 main_v83 (cmpi .sgt : (⟨S_, .i32⟩ : BufTy).Contents (Elt F) → (⟨S_, .i32⟩ : BufTy).Contents (Elt F) → (⟨S_, .i1⟩ : BufTy).Contents (Elt F)),
    binary main_v79 main_v82 main_v84 (Host.divf : (⟨S_, .f32⟩ : BufTy).Contents (Elt F) → (⟨S_, .f32⟩ : BufTy).Contents (Elt F) → (⟨S_, .f32⟩ : BufTy).Contents (Elt F)),
    nullary main_cst_33 (constant S_ .f32 0x00000000#32),
    TRef.unary (TRef.of (T := ⟨S_, .f32⟩) main_cst_33) (TRef.of (T := ⟨S_, .f32⟩) main_call7_v0) id,
    TRef.ternary (TRef.of (T := ⟨S_, .i1⟩) main_v83) (TRef.of (T := ⟨S_, .f32⟩) main_v84) (TRef.of (T := ⟨S_, .f32⟩) main_call7_v0) (TRef.of (T := ⟨S_, .f32⟩) main_v85) select,
    nullary main_cst_34 (constant S_ .f32 0x3DCCCCCD#32),
    binary main_v85 main_cst_34 main_v86 (mulf : (⟨S_, .f32⟩ : BufTy).Contents (Elt F) → (⟨S_, .f32⟩ : BufTy).Contents (Elt F) → (⟨S_, .f32⟩ : BufTy).Contents (Elt F)),
    nullary main_cst_35 (constant S_ .f32 0x3F800000#32),
    binary main_v86 main_cst_35 main_v87 (minimumf : (⟨S_, .f32⟩ : BufTy).Contents (Elt F) → (⟨S_, .f32⟩ : BufTy).Contents (Elt F) → (⟨S_, .f32⟩ : BufTy).Contents (Elt F)) ]

/-- Operations 185 … 187 of @main. -/
def s9 : List (HloOp τ sig (Elt F)) :=
  [
    unary main_v63 main_v88 ((extui 32 · natLt_1_32) : (⟨S262144, .i1⟩ : BufTy).Contents (Elt F) → (⟨S262144, .i32⟩ : BufTy).Contents (Elt F)),
    nullary main_c_36 (constantI S_ 32 0#32),
    binary main_v88 main_c_36 main_v89 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)) ]

/-- Operations 188 … 208 of @main. -/
def s10 : List (HloOp τ sig (Elt F)) :=
  [
    nullary main_cst_37 (constant S_ .f32 0x00000000#32),
    TRef.unary (TRef.of (T := ⟨S_, .f32⟩) main_cst_37) (TRef.of (T := ⟨S_, .f32⟩) main_call8_v0) id,
    TRef.unary (TRef.of (T := ⟨S_, .f32⟩) main_call8_v0) (TRef.of (T := ⟨S262144, .f32⟩) main_call8_v1) (broadcastInDim S262144 ![] bcast_S_S262144),
    TRef.ternary (TRef.of (T := ⟨S262144, .i1⟩) main_v63) (TRef.of (T := ⟨S262144, .f32⟩) main_v49) (TRef.of (T := ⟨S262144, .f32⟩) main_call8_v1) (TRef.of (T := ⟨S262144, .f32⟩) main_v90) select,
    nullary main_cst_38 (constant S_ .f32 0x00000000#32),
    binary main_v90 main_cst_38 main_v91 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_c_39 (constantI S_ 32 1#32),
    binary main_v89 main_c_39 main_v92 (maxsi : (⟨S_, .i32⟩ : BufTy).Contents (Elt F) → (⟨S_, .i32⟩ : BufTy).Contents (Elt F) → (⟨S_, .i32⟩ : BufTy).Contents (Elt F)),
    nullary main_c_40 (constantI S_ 32 80#32),
    binary main_v92 main_c_40 main_v93 (muli : (⟨S_, .i32⟩ : BufTy).Contents (Elt F) → (⟨S_, .i32⟩ : BufTy).Contents (Elt F) → (⟨S_, .i32⟩ : BufTy).Contents (Elt F)),
    unary main_v93 main_v94 (sitofp .f32 : (⟨S_, .i32⟩ : BufTy).Contents (Elt F) → (⟨S_, .f32⟩ : BufTy).Contents (Elt F)),
    nullary main_c_41 (constantI S_ 32 0#32),
    binary main_v89 main_c_41 main_v95 (cmpi .sgt : (⟨S_, .i32⟩ : BufTy).Contents (Elt F) → (⟨S_, .i32⟩ : BufTy).Contents (Elt F) → (⟨S_, .i1⟩ : BufTy).Contents (Elt F)),
    binary main_v91 main_v94 main_v96 (Host.divf : (⟨S_, .f32⟩ : BufTy).Contents (Elt F) → (⟨S_, .f32⟩ : BufTy).Contents (Elt F) → (⟨S_, .f32⟩ : BufTy).Contents (Elt F)),
    nullary main_cst_42 (constant S_ .f32 0x00000000#32),
    TRef.unary (TRef.of (T := ⟨S_, .f32⟩) main_cst_42) (TRef.of (T := ⟨S_, .f32⟩) main_call9_v0) id,
    TRef.ternary (TRef.of (T := ⟨S_, .i1⟩) main_v95) (TRef.of (T := ⟨S_, .f32⟩) main_v96) (TRef.of (T := ⟨S_, .f32⟩) main_call9_v0) (TRef.of (T := ⟨S_, .f32⟩) main_v97) select,
    nullary main_cst_43 (constant S_ .f32 0x3A83126F#32),
    binary main_v97 main_cst_43 main_v98 (mulf : (⟨S_, .f32⟩ : BufTy).Contents (Elt F) → (⟨S_, .f32⟩ : BufTy).Contents (Elt F) → (⟨S_, .f32⟩ : BufTy).Contents (Elt F)),
    nullary main_cst_44 (constant S_ .f32 0x3F800000#32),
    binary main_v98 main_cst_44 main_v99 (minimumf : (⟨S_, .f32⟩ : BufTy).Contents (Elt F) → (⟨S_, .f32⟩ : BufTy).Contents (Elt F) → (⟨S_, .f32⟩ : BufTy).Contents (Elt F)) ]

/-- The ten stretches, in order, are the whole list. -/
theorem ops_eq : (ValueOps.ops (F := F)) = s1 ++ (s2 ++ (s3 ++ (s4 ++ (s5 ++ (s6 ++ (s7 ++ (s8 ++ (s9 ++ s10)))))))) := rfl

/-- No operation of stretch 1 allocates. -/
theorem s1_fresh : ∀ op ∈ (s1 : List (HloOp τ sig (Elt F))), op.fresh = ∅ := by
  intro _ h
  (repeat (cases h with | head => rfl | tail _ h => ?_))
  exact nomatch h

/-- No operation of stretch 2 allocates. -/
theorem s2_fresh : ∀ op ∈ (s2 : List (HloOp τ sig (Elt F))), op.fresh = ∅ := by
  intro _ h
  (repeat (cases h with | head => rfl | tail _ h => ?_))
  exact nomatch h

/-- No operation of stretch 3 allocates. -/
theorem s3_fresh : ∀ op ∈ (s3 : List (HloOp τ sig (Elt F))), op.fresh = ∅ := by
  intro _ h
  (repeat (cases h with | head => rfl | tail _ h => ?_))
  exact nomatch h

/-- No operation of stretch 4 allocates. -/
theorem s4_fresh : ∀ op ∈ (s4 : List (HloOp τ sig (Elt F))), op.fresh = ∅ := by
  intro _ h
  (repeat (cases h with | head => rfl | tail _ h => ?_))
  exact nomatch h

/-- No operation of stretch 5 allocates. -/
theorem s5_fresh : ∀ op ∈ (s5 : List (HloOp τ sig (Elt F))), op.fresh = ∅ := by
  intro _ h
  (repeat (cases h with | head => rfl | tail _ h => ?_))
  exact nomatch h

/-- No operation of stretch 6 allocates. -/
theorem s6_fresh : ∀ op ∈ (s6 : List (HloOp τ sig (Elt F))), op.fresh = ∅ := by
  intro _ h
  (repeat (cases h with | head => rfl | tail _ h => ?_))
  exact nomatch h

/-- No operation of stretch 7 allocates. -/
theorem s7_fresh : ∀ op ∈ (s7 : List (HloOp τ sig (Elt F))), op.fresh = ∅ := by
  intro _ h
  (repeat (cases h with | head => rfl | tail _ h => ?_))
  exact nomatch h

/-- No operation of stretch 8 allocates. -/
theorem s8_fresh : ∀ op ∈ (s8 : List (HloOp τ sig (Elt F))), op.fresh = ∅ := by
  intro _ h
  (repeat (cases h with | head => rfl | tail _ h => ?_))
  exact nomatch h

/-- No operation of stretch 9 allocates. -/
theorem s9_fresh : ∀ op ∈ (s9 : List (HloOp τ sig (Elt F))), op.fresh = ∅ := by
  intro _ h
  (repeat (cases h with | head => rfl | tail _ h => ?_))
  exact nomatch h

/-- No operation of stretch 10 allocates. -/
theorem s10_fresh : ∀ op ∈ (s10 : List (HloOp τ sig (Elt F))), op.fresh = ∅ := by
  intro _ h
  (repeat (cases h with | head => rfl | tail _ h => ?_))
  exact nomatch h

/-- So no operation of the list does. -/
theorem ops_fresh : ∀ op ∈ (ValueOps.ops (F := F)), op.fresh = ∅ := by
  intro op h
  rw [ops_eq] at h
  simp only [List.mem_append] at h
  rcases h with h | h | h | h | h | h | h | h | h | h
  · exact s1_fresh op h
  · exact s2_fresh op h
  · exact s3_fresh op h
  · exact s4_fresh op h
  · exact s5_fresh op h
  · exact s6_fresh op h
  · exact s7_fresh op h
  · exact s8_fresh op h
  · exact s9_fresh op h
  · exact s10_fresh op h

end Cert.Loss.Ref

end
-- ==== Proof.RefRunA.lean ====
/- Stretches 1, 2, 3 of the reference's operation list: for each buffer a later stretch reads, the stage of the stage-by-stage reading
   it holds afterwards (given the stages of the buffers the stretch reads), and for each buffer carried through, that the stretch leaves it alone. -/
import proofs.«415084_j9577777070150_2_alg».proof.Proof.RefRunOps
import proofs.«415084_j9577777070150_2_alg».proof.Proof.RIReadDefs

set_option maxRecDepth 16384

noncomputable section

namespace Cert.Loss.Ref

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-! ## Stretch 1 -/

set_option maxHeartbeats 4000000 in
theorem s1_main_v10 (W : Valuation τ sig (Elt F)) (x0 : (⟨S262144x81, .f32⟩ : BufTy).Contents (Elt F))
    (h_main_arg0 : (W (Proc.devRef .tc main_arg0) : (⟨S262144x81, .f32⟩ : BufTy).Contents (Elt F)) = x0) :
    (after s1 W (Proc.devRef .tc main_v10) : (⟨S262144x81, .f32⟩ : BufTy).Contents (Elt F)) = val_main_v10 (F := F) x0 := by
  simp only [s1]
  after_results_simp
  try simp only [TRef.ofBuf, TRef.toBuf, cast_eq]
  rw [h_main_arg0]
  rfl

set_option maxHeartbeats 4000000 in
theorem s1_main_v12 (W : Valuation τ sig (Elt F)) (x2 : (⟨S262144, .f32⟩ : BufTy).Contents (Elt F))
    (h_main_arg2 : (W (Proc.devRef .tc main_arg2) : (⟨S262144, .f32⟩ : BufTy).Contents (Elt F)) = x2) :
    (after s1 W (Proc.devRef .tc main_v12) : (⟨S262144, .i1⟩ : BufTy).Contents (Elt F)) = val_main_v12 (F := F) x2 := by
  simp only [s1]
  after_results_simp
  try simp only [TRef.ofBuf, TRef.toBuf, cast_eq]
  rw [h_main_arg2]
  rfl

set_option maxHeartbeats 4000000 in
theorem s1_main_v25 (W : Valuation τ sig (Elt F)) (x1 : (⟨S262144, .i32⟩ : BufTy).Contents (Elt F)) (x2 : (⟨S262144, .f32⟩ : BufTy).Contents (Elt F))
    (h_main_arg1 : (W (Proc.devRef .tc main_arg1) : (⟨S262144, .i32⟩ : BufTy).Contents (Elt F)) = x1)
    (h_main_arg2 : (W (Proc.devRef .tc main_arg2) : (⟨S262144, .f32⟩ : BufTy).Contents (Elt F)) = x2) :
    (after s1 W (Proc.devRef .tc main_v25) : (⟨S262144, .i1⟩ : BufTy).Contents (Elt F)) = val_main_v25 (F := F) x1 x2 := by
  simp only [s1]
  after_results_simp
  try simp only [TRef.ofBuf, TRef.toBuf, cast_eq]
  rw [h_main_arg1, h_main_arg2]
  rfl

set_option maxHeartbeats 4000000 in
theorem s1_main_v26 (W : Valuation τ sig (Elt F)) (x1 : (⟨S262144, .i32⟩ : BufTy).Contents (Elt F))
    (h_main_arg1 : (W (Proc.devRef .tc main_arg1) : (⟨S262144, .i32⟩ : BufTy).Contents (Elt F)) = x1) :
    (after s1 W (Proc.devRef .tc main_v26) : (⟨S262144x1, .i32⟩ : BufTy).Contents (Elt F)) = val_main_v26 (F := F) x1 := by
  simp only [s1]
  after_results_simp
  try simp only [TRef.ofBuf, TRef.toBuf, cast_eq]
  rw [h_main_arg1]
  rfl

set_option maxHeartbeats 4000000 in
theorem s1_keep_main_arg0 (W : Valuation τ sig (Elt F)) :
    after s1 W (Proc.devRef .tc main_arg0) = W (Proc.devRef .tc main_arg0) := by
  simp only [s1]
  after_results_simp

set_option maxHeartbeats 4000000 in
theorem s1_keep_main_arg1 (W : Valuation τ sig (Elt F)) :
    after s1 W (Proc.devRef .tc main_arg1) = W (Proc.devRef .tc main_arg1) := by
  simp only [s1]
  after_results_simp

set_option maxHeartbeats 4000000 in
theorem s1_keep_main_arg2 (W : Valuation τ sig (Elt F)) :
    after s1 W (Proc.devRef .tc main_arg2) = W (Proc.devRef .tc main_arg2) := by
  simp only [s1]
  after_results_simp

/-! ## Stretch 2 -/

set_option maxHeartbeats 4000000 in
theorem s2_main_v27 (W : Valuation τ sig (Elt F)) (x0 : (⟨S262144x81, .f32⟩ : BufTy).Contents (Elt F)) (x1 : (⟨S262144, .i32⟩ : BufTy).Contents (Elt F))
    (h_main_v26 : (W (Proc.devRef .tc main_v26) : (⟨S262144x1, .i32⟩ : BufTy).Contents (Elt F)) = val_main_v26 (F := F) x1)
    (h_main_v10 : (W (Proc.devRef .tc main_v10) : (⟨S262144x81, .f32⟩ : BufTy).Contents (Elt F)) = val_main_v10 (F := F) x0) :
    (after s2 W (Proc.devRef .tc main_v27) : (⟨S262144x1, .f32⟩ : BufTy).Contents (Elt F)) = val_main_v27 (F := F) x0 x1 := by
  simp only [s2]
  after_results_simp
  try simp only [TRef.ofBuf, TRef.toBuf, cast_eq]
  rw [h_main_v26, h_main_v10]
  rfl

set_option maxHeartbeats 4000000 in
theorem s2_keep_main_v10 (W : Valuation τ sig (Elt F)) :
    after s2 W (Proc.devRef .tc main_v10) = W (Proc.devRef .tc main_v10) := by
  simp only [s2]
  after_results_simp

set_option maxHeartbeats 4000000 in
theorem s2_keep_main_v12 (W : Valuation τ sig (Elt F)) :
    after s2 W (Proc.devRef .tc main_v12) = W (Proc.devRef .tc main_v12) := by
  simp only [s2]
  after_results_simp

set_option maxHeartbeats 4000000 in
theorem s2_keep_main_v25 (W : Valuation τ sig (Elt F)) :
    after s2 W (Proc.devRef .tc main_v25) = W (Proc.devRef .tc main_v25) := by
  simp only [s2]
  after_results_simp

set_option maxHeartbeats 4000000 in
theorem s2_keep_main_arg0 (W : Valuation τ sig (Elt F)) :
    after s2 W (Proc.devRef .tc main_arg0) = W (Proc.devRef .tc main_arg0) := by
  simp only [s2]
  after_results_simp

set_option maxHeartbeats 4000000 in
theorem s2_keep_main_arg1 (W : Valuation τ sig (Elt F)) :
    after s2 W (Proc.devRef .tc main_arg1) = W (Proc.devRef .tc main_arg1) := by
  simp only [s2]
  after_results_simp

set_option maxHeartbeats 4000000 in
theorem s2_keep_main_arg2 (W : Valuation τ sig (Elt F)) :
    after s2 W (Proc.devRef .tc main_arg2) = W (Proc.devRef .tc main_arg2) := by
  simp only [s2]
  after_results_simp

/-! ## Stretch 3 -/

set_option maxHeartbeats 4000000 in
theorem s3_main_v44 (W : Valuation τ sig (Elt F)) (x0 : (⟨S262144x81, .f32⟩ : BufTy).Contents (Elt F)) (x1 : (⟨S262144, .i32⟩ : BufTy).Contents (Elt F))
    (h_main_v27 : (W (Proc.devRef .tc main_v27) : (⟨S262144x1, .f32⟩ : BufTy).Contents (Elt F)) = val_main_v27 (F := F) x0 x1)
    (h_main_v10 : (W (Proc.devRef .tc main_v10) : (⟨S262144x81, .f32⟩ : BufTy).Contents (Elt F)) = val_main_v10 (F := F) x0) :
    (after s3 W (Proc.devRef .tc main_v44) : (⟨S262144x81, .f32⟩ : BufTy).Contents (Elt F)) = val_main_v44 (F := F) x0 x1 := by
  simp only [s3]
  after_results_simp
  try simp only [TRef.ofBuf, TRef.toBuf, cast_eq]
  rw [h_main_v27, h_main_v10]
  rfl

set_option maxHeartbeats 4000000 in
theorem s3_main_v45 (W : Valuation τ sig (Elt F)) (x1 : (⟨S262144, .i32⟩ : BufTy).Contents (Elt F))
    (h_main_arg1 : (W (Proc.devRef .tc main_arg1) : (⟨S262144, .i32⟩ : BufTy).Contents (Elt F)) = x1) :
    (after s3 W (Proc.devRef .tc main_v45) : (⟨S262144x1, .i32⟩ : BufTy).Contents (Elt F)) = val_main_v45 (F := F) x1 := by
  simp only [s3]
  after_results_simp
  try simp only [TRef.ofBuf, TRef.toBuf, cast_eq]
  rw [h_main_arg1]
  rfl

set_option maxHeartbeats 4000000 in
theorem s3_keep_main_v12 (W : Valuation τ sig (Elt F)) :
    after s3 W (Proc.devRef .tc main_v12) = W (Proc.devRef .tc main_v12) := by
  simp only [s3]
  after_results_simp

set_option maxHeartbeats 4000000 in
theorem s3_keep_main_v25 (W : Valuation τ sig (Elt F)) :
    after s3 W (Proc.devRef .tc main_v25) = W (Proc.devRef .tc main_v25) := by
  simp only [s3]
  after_results_simp

set_option maxHeartbeats 4000000 in
theorem s3_keep_main_arg0 (W : Valuation τ sig (Elt F)) :
    after s3 W (Proc.devRef .tc main_arg0) = W (Proc.devRef .tc main_arg0) := by
  simp only [s3]
  after_results_simp

set_option maxHeartbeats 4000000 in
theorem s3_keep_main_arg1 (W : Valuation τ sig (Elt F)) :
    after s3 W (Proc.devRef .tc main_arg1) = W (Proc.devRef .tc main_arg1) := by
  simp only [s3]
  after_results_simp

set_option maxHeartbeats 4000000 in
theorem s3_keep_main_arg2 (W : Valuation τ sig (Elt F)) :
    after s3 W (Proc.devRef .tc main_arg2) = W (Proc.devRef .tc main_arg2) := by
  simp only [s3]
  after_results_simp

end Cert.Loss.Ref

end
-- ==== Proof.RefRunB.lean ====
/- Stretches 4, 5 of the reference's operation list: for each buffer a later stretch reads, the stage of the stage-by-stage reading
   it holds afterwards (given the stages of the buffers the stretch reads), and for each buffer carried through, that the stretch leaves it alone. -/
import proofs.«415084_j9577777070150_2_alg».proof.Proof.RefRunOps
import proofs.«415084_j9577777070150_2_alg».proof.Proof.RIReadDefs

set_option maxRecDepth 16384

noncomputable section

namespace Cert.Loss.Ref

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-! ## Stretch 4 -/

set_option maxHeartbeats 4000000 in
theorem s4_main_v46 (W : Valuation τ sig (Elt F)) (x0 : (⟨S262144x81, .f32⟩ : BufTy).Contents (Elt F)) (x1 : (⟨S262144, .i32⟩ : BufTy).Contents (Elt F))
    (h_main_v45 : (W (Proc.devRef .tc main_v45) : (⟨S262144x1, .i32⟩ : BufTy).Contents (Elt F)) = val_main_v45 (F := F) x1)
    (h_main_v44 : (W (Proc.devRef .tc main_v44) : (⟨S262144x81, .f32⟩ : BufTy).Contents (Elt F)) = val_main_v44 (F := F) x0 x1) :
    (after s4 W (Proc.devRef .tc main_v46) : (⟨S262144x1, .f32⟩ : BufTy).Contents (Elt F)) = val_main_v46 (F := F) x0 x1 := by
  simp only [s4]
  after_results_simp
  try simp only [TRef.ofBuf, TRef.toBuf, cast_eq]
  rw [h_main_v45, h_main_v44]
  rfl

set_option maxHeartbeats 4000000 in
theorem s4_keep_main_v44 (W : Valuation τ sig (Elt F)) :
    after s4 W (Proc.devRef .tc main_v44) = W (Proc.devRef .tc main_v44) := by
  simp only [s4]
  after_results_simp

set_option maxHeartbeats 4000000 in
theorem s4_keep_main_v12 (W : Valuation τ sig (Elt F)) :
    after s4 W (Proc.devRef .tc main_v12) = W (Proc.devRef .tc main_v12) := by
  simp only [s4]
  after_results_simp

set_option maxHeartbeats 4000000 in
theorem s4_keep_main_v25 (W : Valuation τ sig (Elt F)) :
    after s4 W (Proc.devRef .tc main_v25) = W (Proc.devRef .tc main_v25) := by
  simp only [s4]
  after_results_simp

set_option maxHeartbeats 4000000 in
theorem s4_keep_main_arg0 (W : Valuation τ sig (Elt F)) :
    after s4 W (Proc.devRef .tc main_arg0) = W (Proc.devRef .tc main_arg0) := by
  simp only [s4]
  after_results_simp

set_option maxHeartbeats 4000000 in
theorem s4_keep_main_arg1 (W : Valuation τ sig (Elt F)) :
    after s4 W (Proc.devRef .tc main_arg1) = W (Proc.devRef .tc main_arg1) := by
  simp only [s4]
  after_results_simp

set_option maxHeartbeats 4000000 in
theorem s4_keep_main_arg2 (W : Valuation τ sig (Elt F)) :
    after s4 W (Proc.devRef .tc main_arg2) = W (Proc.devRef .tc main_arg2) := by
  simp only [s4]
  after_results_simp

/-! ## Stretch 5 -/

set_option maxHeartbeats 4000000 in
theorem s5_main_v49 (W : Valuation τ sig (Elt F)) (x0 : (⟨S262144x81, .f32⟩ : BufTy).Contents (Elt F)) (x1 : (⟨S262144, .i32⟩ : BufTy).Contents (Elt F))
    (h_main_v46 : (W (Proc.devRef .tc main_v46) : (⟨S262144x1, .f32⟩ : BufTy).Contents (Elt F)) = val_main_v46 (F := F) x0 x1)
    (h_main_v44 : (W (Proc.devRef .tc main_v44) : (⟨S262144x81, .f32⟩ : BufTy).Contents (Elt F)) = val_main_v44 (F := F) x0 x1) :
    (after s5 W (Proc.devRef .tc main_v49) : (⟨S262144, .f32⟩ : BufTy).Contents (Elt F)) = val_main_v49 (F := F) x0 x1 := by
  simp only [s5]
  after_results_simp
  try simp only [TRef.ofBuf, TRef.toBuf, cast_eq]
  rw [h_main_v46, h_main_v44]
  rfl

set_option maxHeartbeats 4000000 in
theorem s5_main_v53 (W : Valuation τ sig (Elt F)) (x1 : (⟨S262144, .i32⟩ : BufTy).Contents (Elt F)) (x2 : (⟨S262144, .f32⟩ : BufTy).Contents (Elt F))
    (h_main_arg1 : (W (Proc.devRef .tc main_arg1) : (⟨S262144, .i32⟩ : BufTy).Contents (Elt F)) = x1)
    (h_main_v12 : (W (Proc.devRef .tc main_v12) : (⟨S262144, .i1⟩ : BufTy).Contents (Elt F)) = val_main_v12 (F := F) x2)
    (h_main_v25 : (W (Proc.devRef .tc main_v25) : (⟨S262144, .i1⟩ : BufTy).Contents (Elt F)) = val_main_v25 (F := F) x1 x2) :
    (after s5 W (Proc.devRef .tc main_v53) : (⟨S262144, .i1⟩ : BufTy).Contents (Elt F)) = val_main_v53 (F := F) x1 x2 := by
  simp only [s5]
  after_results_simp
  try simp only [TRef.ofBuf, TRef.toBuf, cast_eq]
  rw [h_main_arg1, h_main_v12, h_main_v25]
  rfl

set_option maxHeartbeats 4000000 in
theorem s5_main_v60 (W : Valuation τ sig (Elt F)) (x1 : (⟨S262144, .i32⟩ : BufTy).Contents (Elt F)) (x2 : (⟨S262144, .f32⟩ : BufTy).Contents (Elt F))
    (h_main_arg1 : (W (Proc.devRef .tc main_arg1) : (⟨S262144, .i32⟩ : BufTy).Contents (Elt F)) = x1)
    (h_main_v12 : (W (Proc.devRef .tc main_v12) : (⟨S262144, .i1⟩ : BufTy).Contents (Elt F)) = val_main_v12 (F := F) x2)
    (h_main_v25 : (W (Proc.devRef .tc main_v25) : (⟨S262144, .i1⟩ : BufTy).Contents (Elt F)) = val_main_v25 (F := F) x1 x2) :
    (after s5 W (Proc.devRef .tc main_v60) : (⟨S262144, .i1⟩ : BufTy).Contents (Elt F)) = val_main_v60 (F := F) x1 x2 := by
  simp only [s5]
  after_results_simp
  try simp only [TRef.ofBuf, TRef.toBuf, cast_eq]
  rw [h_main_arg1, h_main_v12, h_main_v25]
  rfl

set_option maxHeartbeats 4000000 in
theorem s5_main_v63 (W : Valuation τ sig (Elt F)) (x1 : (⟨S262144, .i32⟩ : BufTy).Contents (Elt F)) (x2 : (⟨S262144, .f32⟩ : BufTy).Contents (Elt F))
    (h_main_arg1 : (W (Proc.devRef .tc main_arg1) : (⟨S262144, .i32⟩ : BufTy).Contents (Elt F)) = x1)
    (h_main_v12 : (W (Proc.devRef .tc main_v12) : (⟨S262144, .i1⟩ : BufTy).Contents (Elt F)) = val_main_v12 (F := F) x2) :
    (after s5 W (Proc.devRef .tc main_v63) : (⟨S262144, .i1⟩ : BufTy).Contents (Elt F)) = val_main_v63 (F := F) x1 x2 := by
  simp only [s5]
  after_results_simp
  try simp only [TRef.ofBuf, TRef.toBuf, cast_eq]
  rw [h_main_arg1, h_main_v12]
  rfl

set_option maxHeartbeats 4000000 in
theorem s5_main_v65 (W : Valuation τ sig (Elt F)) (x1 : (⟨S262144, .i32⟩ : BufTy).Contents (Elt F)) (x2 : (⟨S262144, .f32⟩ : BufTy).Contents (Elt F))
    (h_main_arg1 : (W (Proc.devRef .tc main_arg1) : (⟨S262144, .i32⟩ : BufTy).Contents (Elt F)) = x1)
    (h_main_v12 : (W (Proc.devRef .tc main_v12) : (⟨S262144, .i1⟩ : BufTy).Contents (Elt F)) = val_main_v12 (F := F) x2)
    (h_main_v25 : (W (Proc.devRef .tc main_v25) : (⟨S262144, .i1⟩ : BufTy).Contents (Elt F)) = val_main_v25 (F := F) x1 x2) :
    (after s5 W (Proc.devRef .tc main_v65) : (⟨S_, .i32⟩ : BufTy).Contents (Elt F)) = val_main_v65 (F := F) x1 x2 := by
  simp only [s5]
  after_results_simp
  try simp only [TRef.ofBuf, TRef.toBuf, cast_eq]
  rw [h_main_arg1, h_main_v12, h_main_v25]
  rfl

set_option maxHeartbeats 4000000 in
theorem s5_keep_main_arg0 (W : Valuation τ sig (Elt F)) :
    after s5 W (Proc.devRef .tc main_arg0) = W (Proc.devRef .tc main_arg0) := by
  simp only [s5]
  after_results_simp

set_option maxHeartbeats 4000000 in
theorem s5_keep_main_arg1 (W : Valuation τ sig (Elt F)) :
    after s5 W (Proc.devRef .tc main_arg1) = W (Proc.devRef .tc main_arg1) := by
  simp only [s5]
  after_results_simp

set_option maxHeartbeats 4000000 in
theorem s5_keep_main_arg2 (W : Valuation τ sig (Elt F)) :
    after s5 W (Proc.devRef .tc main_arg2) = W (Proc.devRef .tc main_arg2) := by
  simp only [s5]
  after_results_simp

end Cert.Loss.Ref

end
-- ==== Proof.RefRunC.lean ====
/- Stretches 6, 7, 8, 9, 10 of the reference's operation list: for each buffer a later stretch reads, the stage of the stage-by-stage reading
   it holds afterwards (given the stages of the buffers the stretch reads), and for each buffer carried through, that the stretch leaves it alone. -/
import proofs.«415084_j9577777070150_2_alg».proof.Proof.RefRunOps
import proofs.«415084_j9577777070150_2_alg».proof.Proof.RIReadDefs

set_option maxRecDepth 16384

noncomputable section

namespace Cert.Loss.Ref

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-! ## Stretch 6 -/

set_option maxHeartbeats 4000000 in
theorem s6_main_v75 (W : Valuation τ sig (Elt F)) (x0 : (⟨S262144x81, .f32⟩ : BufTy).Contents (Elt F)) (x1 : (⟨S262144, .i32⟩ : BufTy).Contents (Elt F)) (x2 : (⟨S262144, .f32⟩ : BufTy).Contents (Elt F))
    (h_main_v53 : (W (Proc.devRef .tc main_v53) : (⟨S262144, .i1⟩ : BufTy).Contents (Elt F)) = val_main_v53 (F := F) x1 x2)
    (h_main_v49 : (W (Proc.devRef .tc main_v49) : (⟨S262144, .f32⟩ : BufTy).Contents (Elt F)) = val_main_v49 (F := F) x0 x1)
    (h_main_v65 : (W (Proc.devRef .tc main_v65) : (⟨S_, .i32⟩ : BufTy).Contents (Elt F)) = val_main_v65 (F := F) x1 x2) :
    (after s6 W (Proc.devRef .tc main_v75) : (⟨S_, .f32⟩ : BufTy).Contents (Elt F)) = val_main_v75 (F := F) x0 x1 x2 := by
  simp only [s6]
  after_results_simp
  try simp only [TRef.ofBuf, TRef.toBuf, cast_eq]
  rw [h_main_v53, h_main_v49, h_main_v65]
  rfl

set_option maxHeartbeats 4000000 in
theorem s6_keep_main_v49 (W : Valuation τ sig (Elt F)) :
    after s6 W (Proc.devRef .tc main_v49) = W (Proc.devRef .tc main_v49) := by
  simp only [s6]
  after_results_simp

set_option maxHeartbeats 4000000 in
theorem s6_keep_main_v60 (W : Valuation τ sig (Elt F)) :
    after s6 W (Proc.devRef .tc main_v60) = W (Proc.devRef .tc main_v60) := by
  simp only [s6]
  after_results_simp

set_option maxHeartbeats 4000000 in
theorem s6_keep_main_v63 (W : Valuation τ sig (Elt F)) :
    after s6 W (Proc.devRef .tc main_v63) = W (Proc.devRef .tc main_v63) := by
  simp only [s6]
  after_results_simp

set_option maxHeartbeats 4000000 in
theorem s6_keep_main_arg0 (W : Valuation τ sig (Elt F)) :
    after s6 W (Proc.devRef .tc main_arg0) = W (Proc.devRef .tc main_arg0) := by
  simp only [s6]
  after_results_simp

set_option maxHeartbeats 4000000 in
theorem s6_keep_main_arg1 (W : Valuation τ sig (Elt F)) :
    after s6 W (Proc.devRef .tc main_arg1) = W (Proc.devRef .tc main_arg1) := by
  simp only [s6]
  after_results_simp

set_option maxHeartbeats 4000000 in
theorem s6_keep_main_arg2 (W : Valuation τ sig (Elt F)) :
    after s6 W (Proc.devRef .tc main_arg2) = W (Proc.devRef .tc main_arg2) := by
  simp only [s6]
  after_results_simp

/-! ## Stretch 7 -/

set_option maxHeartbeats 4000000 in
theorem s7_main_v77 (W : Valuation τ sig (Elt F)) (x1 : (⟨S262144, .i32⟩ : BufTy).Contents (Elt F)) (x2 : (⟨S262144, .f32⟩ : BufTy).Contents (Elt F))
    (h_main_v60 : (W (Proc.devRef .tc main_v60) : (⟨S262144, .i1⟩ : BufTy).Contents (Elt F)) = val_main_v60 (F := F) x1 x2) :
    (after s7 W (Proc.devRef .tc main_v77) : (⟨S_, .i32⟩ : BufTy).Contents (Elt F)) = val_main_v77 (F := F) x1 x2 := by
  simp only [s7]
  after_results_simp
  try simp only [TRef.ofBuf, TRef.toBuf, cast_eq]
  rw [h_main_v60]
  rfl

set_option maxHeartbeats 4000000 in
theorem s7_keep_main_v75 (W : Valuation τ sig (Elt F)) :
    after s7 W (Proc.devRef .tc main_v75) = W (Proc.devRef .tc main_v75) := by
  simp only [s7]
  after_results_simp

set_option maxHeartbeats 4000000 in
theorem s7_keep_main_v49 (W : Valuation τ sig (Elt F)) :
    after s7 W (Proc.devRef .tc main_v49) = W (Proc.devRef .tc main_v49) := by
  simp only [s7]
  after_results_simp

set_option maxHeartbeats 4000000 in
theorem s7_keep_main_v60 (W : Valuation τ sig (Elt F)) :
    after s7 W (Proc.devRef .tc main_v60) = W (Proc.devRef .tc main_v60) := by
  simp only [s7]
  after_results_simp

set_option maxHeartbeats 4000000 in
theorem s7_keep_main_v63 (W : Valuation τ sig (Elt F)) :
    after s7 W (Proc.devRef .tc main_v63) = W (Proc.devRef .tc main_v63) := by
  simp only [s7]
  after_results_simp

set_option maxHeartbeats 4000000 in
theorem s7_keep_main_arg0 (W : Valuation τ sig (Elt F)) :
    after s7 W (Proc.devRef .tc main_arg0) = W (Proc.devRef .tc main_arg0) := by
  simp only [s7]
  after_results_simp

set_option maxHeartbeats 4000000 in
theorem s7_keep_main_arg1 (W : Valuation τ sig (Elt F)) :
    after s7 W (Proc.devRef .tc main_arg1) = W (Proc.devRef .tc main_arg1) := by
  simp only [s7]
  after_results_simp

set_option maxHeartbeats 4000000 in
theorem s7_keep_main_arg2 (W : Valuation τ sig (Elt F)) :
    after s7 W (Proc.devRef .tc main_arg2) = W (Proc.devRef .tc main_arg2) := by
  simp only [s7]
  after_results_simp

/-! ## Stretch 8 -/

set_option maxHeartbeats 4000000 in
theorem s8_main_v87 (W : Valuation τ sig (Elt F)) (x0 : (⟨S262144x81, .f32⟩ : BufTy).Contents (Elt F)) (x1 : (⟨S262144, .i32⟩ : BufTy).Contents (Elt F)) (x2 : (⟨S262144, .f32⟩ : BufTy).Contents (Elt F))
    (h_main_v60 : (W (Proc.devRef .tc main_v60) : (⟨S262144, .i1⟩ : BufTy).Contents (Elt F)) = val_main_v60 (F := F) x1 x2)
    (h_main_v49 : (W (Proc.devRef .tc main_v49) : (⟨S262144, .f32⟩ : BufTy).Contents (Elt F)) = val_main_v49 (F := F) x0 x1)
    (h_main_v77 : (W (Proc.devRef .tc main_v77) : (⟨S_, .i32⟩ : BufTy).Contents (Elt F)) = val_main_v77 (F := F) x1 x2) :
    (after s8 W (Proc.devRef .tc main_v87) : (⟨S_, .f32⟩ : BufTy).Contents (Elt F)) = val_main_v87 (F := F) x0 x1 x2 := by
  simp only [s8]
  after_results_simp
  try simp only [TRef.ofBuf, TRef.toBuf, cast_eq]
  rw [h_main_v60, h_main_v49, h_main_v77]
  rfl

set_option maxHeartbeats 4000000 in
theorem s8_keep_main_v75 (W : Valuation τ sig (Elt F)) :
    after s8 W (Proc.devRef .tc main_v75) = W (Proc.devRef .tc main_v75) := by
  simp only [s8]
  after_results_simp

set_option maxHeartbeats 4000000 in
theorem s8_keep_main_v49 (W : Valuation τ sig (Elt F)) :
    after s8 W (Proc.devRef .tc main_v49) = W (Proc.devRef .tc main_v49) := by
  simp only [s8]
  after_results_simp

set_option maxHeartbeats 4000000 in
theorem s8_keep_main_v63 (W : Valuation τ sig (Elt F)) :
    after s8 W (Proc.devRef .tc main_v63) = W (Proc.devRef .tc main_v63) := by
  simp only [s8]
  after_results_simp

set_option maxHeartbeats 4000000 in
theorem s8_keep_main_arg0 (W : Valuation τ sig (Elt F)) :
    after s8 W (Proc.devRef .tc main_arg0) = W (Proc.devRef .tc main_arg0) := by
  simp only [s8]
  after_results_simp

set_option maxHeartbeats 4000000 in
theorem s8_keep_main_arg1 (W : Valuation τ sig (Elt F)) :
    after s8 W (Proc.devRef .tc main_arg1) = W (Proc.devRef .tc main_arg1) := by
  simp only [s8]
  after_results_simp

set_option maxHeartbeats 4000000 in
theorem s8_keep_main_arg2 (W : Valuation τ sig (Elt F)) :
    after s8 W (Proc.devRef .tc main_arg2) = W (Proc.devRef .tc main_arg2) := by
  simp only [s8]
  after_results_simp

/-! ## Stretch 9 -/

set_option maxHeartbeats 4000000 in
theorem s9_main_v89 (W : Valuation τ sig (Elt F)) (x1 : (⟨S262144, .i32⟩ : BufTy).Contents (Elt F)) (x2 : (⟨S262144, .f32⟩ : BufTy).Contents (Elt F))
    (h_main_v63 : (W (Proc.devRef .tc main_v63) : (⟨S262144, .i1⟩ : BufTy).Contents (Elt F)) = val_main_v63 (F := F) x1 x2) :
    (after s9 W (Proc.devRef .tc main_v89) : (⟨S_, .i32⟩ : BufTy).Contents (Elt F)) = val_main_v89 (F := F) x1 x2 := by
  simp only [s9]
  after_results_simp
  try simp only [TRef.ofBuf, TRef.toBuf, cast_eq]
  rw [h_main_v63]
  rfl

set_option maxHeartbeats 4000000 in
theorem s9_keep_main_v75 (W : Valuation τ sig (Elt F)) :
    after s9 W (Proc.devRef .tc main_v75) = W (Proc.devRef .tc main_v75) := by
  simp only [s9]
  after_results_simp

set_option maxHeartbeats 4000000 in
theorem s9_keep_main_v87 (W : Valuation τ sig (Elt F)) :
    after s9 W (Proc.devRef .tc main_v87) = W (Proc.devRef .tc main_v87) := by
  simp only [s9]
  after_results_simp

set_option maxHeartbeats 4000000 in
theorem s9_keep_main_v49 (W : Valuation τ sig (Elt F)) :
    after s9 W (Proc.devRef .tc main_v49) = W (Proc.devRef .tc main_v49) := by
  simp only [s9]
  after_results_simp

set_option maxHeartbeats 4000000 in
theorem s9_keep_main_v63 (W : Valuation τ sig (Elt F)) :
    after s9 W (Proc.devRef .tc main_v63) = W (Proc.devRef .tc main_v63) := by
  simp only [s9]
  after_results_simp

set_option maxHeartbeats 4000000 in
theorem s9_keep_main_arg0 (W : Valuation τ sig (Elt F)) :
    after s9 W (Proc.devRef .tc main_arg0) = W (Proc.devRef .tc main_arg0) := by
  simp only [s9]
  after_results_simp

set_option maxHeartbeats 4000000 in
theorem s9_keep_main_arg1 (W : Valuation τ sig (Elt F)) :
    after s9 W (Proc.devRef .tc main_arg1) = W (Proc.devRef .tc main_arg1) := by
  simp only [s9]
  after_results_simp

set_option maxHeartbeats 4000000 in
theorem s9_keep_main_arg2 (W : Valuation τ sig (Elt F)) :
    after s9 W (Proc.devRef .tc main_arg2) = W (Proc.devRef .tc main_arg2) := by
  simp only [s9]
  after_results_simp

/-! ## Stretch 10 -/

set_option maxHeartbeats 4000000 in
theorem s10_main_v99 (W : Valuation τ sig (Elt F)) (x0 : (⟨S262144x81, .f32⟩ : BufTy).Contents (Elt F)) (x1 : (⟨S262144, .i32⟩ : BufTy).Contents (Elt F)) (x2 : (⟨S262144, .f32⟩ : BufTy).Contents (Elt F))
    (h_main_v63 : (W (Proc.devRef .tc main_v63) : (⟨S262144, .i1⟩ : BufTy).Contents (Elt F)) = val_main_v63 (F := F) x1 x2)
    (h_main_v49 : (W (Proc.devRef .tc main_v49) : (⟨S262144, .f32⟩ : BufTy).Contents (Elt F)) = val_main_v49 (F := F) x0 x1)
    (h_main_v89 : (W (Proc.devRef .tc main_v89) : (⟨S_, .i32⟩ : BufTy).Contents (Elt F)) = val_main_v89 (F := F) x1 x2) :
    (after s10 W (Proc.devRef .tc main_v99) : (⟨S_, .f32⟩ : BufTy).Contents (Elt F)) = val_main_v99 (F := F) x0 x1 x2 := by
  simp only [s10]
  after_results_simp
  try simp only [TRef.ofBuf, TRef.toBuf, cast_eq]
  rw [h_main_v63, h_main_v49, h_main_v89]
  rfl

set_option maxHeartbeats 4000000 in
theorem s10_keep_main_v75 (W : Valuation τ sig (Elt F)) :
    after s10 W (Proc.devRef .tc main_v75) = W (Proc.devRef .tc main_v75) := by
  simp only [s10]
  after_results_simp

set_option maxHeartbeats 4000000 in
theorem s10_keep_main_v87 (W : Valuation τ sig (Elt F)) :
    after s10 W (Proc.devRef .tc main_v87) = W (Proc.devRef .tc main_v87) := by
  simp only [s10]
  after_results_simp

set_option maxHeartbeats 4000000 in
theorem s10_keep_main_arg0 (W : Valuation τ sig (Elt F)) :
    after s10 W (Proc.devRef .tc main_arg0) = W (Proc.devRef .tc main_arg0) := by
  simp only [s10]
  after_results_simp

set_option maxHeartbeats 4000000 in
theorem s10_keep_main_arg1 (W : Valuation τ sig (Elt F)) :
    after s10 W (Proc.devRef .tc main_arg1) = W (Proc.devRef .tc main_arg1) := by
  simp only [s10]
  after_results_simp

set_option maxHeartbeats 4000000 in
theorem s10_keep_main_arg2 (W : Valuation τ sig (Elt F)) :
    after s10 W (Proc.devRef .tc main_arg2) = W (Proc.devRef .tc main_arg2) := by
  simp only [s10]
  after_results_simp

end Cert.Loss.Ref

end
-- ==== Proof.RefRun.lean ====
/- The reference's run: after the whole operation list the three result buffers hold the last stages of the stage-by-stage reading of the
   arguments and the arguments are as launched; so does every weakly fair execution of @main. -/
import proofs.«415084_j9577777070150_2_alg».proof.Proof.RefRunA
import proofs.«415084_j9577777070150_2_alg».proof.Proof.RefRunB
import proofs.«415084_j9577777070150_2_alg».proof.Proof.RefRunC

set_option maxRecDepth 16384

noncomputable section

namespace Cert.Loss.Ref

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

set_option maxHeartbeats 4000000 in
/-- After all the operations the three result buffers hold the three last stages of the stage-by-stage reading, and the three arguments are
    what they were. -/
theorem after_ops (V : Valuation τ sig (Elt F)) :
    ((after (ValueOps.ops (F := F)) V (Proc.devRef .tc main_v75) : (⟨S_, .f32⟩ : BufTy).Contents (Elt F))
        = val_main_v75 (F := F) (V (Proc.devRef .tc main_arg0)) (V (Proc.devRef .tc main_arg1)) (V (Proc.devRef .tc main_arg2)))
    ∧ ((after (ValueOps.ops (F := F)) V (Proc.devRef .tc main_v87) : (⟨S_, .f32⟩ : BufTy).Contents (Elt F))
        = val_main_v87 (F := F) (V (Proc.devRef .tc main_arg0)) (V (Proc.devRef .tc main_arg1)) (V (Proc.devRef .tc main_arg2)))
    ∧ ((after (ValueOps.ops (F := F)) V (Proc.devRef .tc main_v99) : (⟨S_, .f32⟩ : BufTy).Contents (Elt F))
        = val_main_v99 (F := F) (V (Proc.devRef .tc main_arg0)) (V (Proc.devRef .tc main_arg1)) (V (Proc.devRef .tc main_arg2)))
    ∧ (after (ValueOps.ops (F := F)) V (Proc.devRef .tc main_arg0) = V (Proc.devRef .tc main_arg0))
    ∧ (after (ValueOps.ops (F := F)) V (Proc.devRef .tc main_arg1) = V (Proc.devRef .tc main_arg1))
    ∧ (after (ValueOps.ops (F := F)) V (Proc.devRef .tc main_arg2) = V (Proc.devRef .tc main_arg2)) := by
  rw [ops_eq]
  simp only [after_append]
  have e1_main_v10 := s1_main_v10 (V) (V (Proc.devRef .tc main_arg0)) rfl
  have e1_main_v12 := s1_main_v12 (V) (V (Proc.devRef .tc main_arg2)) rfl
  have e1_main_v25 := s1_main_v25 (V) (V (Proc.devRef .tc main_arg1)) (V (Proc.devRef .tc main_arg2)) rfl rfl
  have e1_main_v26 := s1_main_v26 (V) (V (Proc.devRef .tc main_arg1)) rfl
  have e1_main_arg0 := (s1_keep_main_arg0 (V)).trans rfl
  have e1_main_arg1 := (s1_keep_main_arg1 (V)).trans rfl
  have e1_main_arg2 := (s1_keep_main_arg2 (V)).trans rfl
  have e2_main_v27 := s2_main_v27 (after s1 (V)) (V (Proc.devRef .tc main_arg0)) (V (Proc.devRef .tc main_arg1)) e1_main_v26 e1_main_v10
  have e2_main_v10 := (s2_keep_main_v10 (after s1 (V))).trans e1_main_v10
  have e2_main_v12 := (s2_keep_main_v12 (after s1 (V))).trans e1_main_v12
  have e2_main_v25 := (s2_keep_main_v25 (after s1 (V))).trans e1_main_v25
  have e2_main_arg0 := (s2_keep_main_arg0 (after s1 (V))).trans e1_main_arg0
  have e2_main_arg1 := (s2_keep_main_arg1 (after s1 (V))).trans e1_main_arg1
  have e2_main_arg2 := (s2_keep_main_arg2 (after s1 (V))).trans e1_main_arg2
  have e3_main_v44 := s3_main_v44 (after s2 (after s1 (V))) (V (Proc.devRef .tc main_arg0)) (V (Proc.devRef .tc main_arg1)) e2_main_v27 e2_main_v10
  have e3_main_v45 := s3_main_v45 (after s2 (after s1 (V))) (V (Proc.devRef .tc main_arg1)) e2_main_arg1
  have e3_main_v12 := (s3_keep_main_v12 (after s2 (after s1 (V)))).trans e2_main_v12
  have e3_main_v25 := (s3_keep_main_v25 (after s2 (after s1 (V)))).trans e2_main_v25
  have e3_main_arg0 := (s3_keep_main_arg0 (after s2 (after s1 (V)))).trans e2_main_arg0
  have e3_main_arg1 := (s3_keep_main_arg1 (after s2 (after s1 (V)))).trans e2_main_arg1
  have e3_main_arg2 := (s3_keep_main_arg2 (after s2 (after s1 (V)))).trans e2_main_arg2
  have e4_main_v46 := s4_main_v46 (after s3 (after s2 (after s1 (V)))) (V (Proc.devRef .tc main_arg0)) (V (Proc.devRef .tc main_arg1)) e3_main_v45 e3_main_v44
  have e4_main_v44 := (s4_keep_main_v44 (after s3 (after s2 (after s1 (V))))).trans e3_main_v44
  have e4_main_v12 := (s4_keep_main_v12 (after s3 (after s2 (after s1 (V))))).trans e3_main_v12
  have e4_main_v25 := (s4_keep_main_v25 (after s3 (after s2 (after s1 (V))))).trans e3_main_v25
  have e4_main_arg0 := (s4_keep_main_arg0 (after s3 (after s2 (after s1 (V))))).trans e3_main_arg0
  have e4_main_arg1 := (s4_keep_main_arg1 (after s3 (after s2 (after s1 (V))))).trans e3_main_arg1
  have e4_main_arg2 := (s4_keep_main_arg2 (after s3 (after s2 (after s1 (V))))).trans e3_main_arg2
  have e5_main_v49 := s5_main_v49 (after s4 (after s3 (after s2 (after s1 (V))))) (V (Proc.devRef .tc main_arg0)) (V (Proc.devRef .tc main_arg1)) e4_main_v46 e4_main_v44
  have e5_main_v53 := s5_main_v53 (after s4 (after s3 (after s2 (after s1 (V))))) (V (Proc.devRef .tc main_arg1)) (V (Proc.devRef .tc main_arg2)) e4_main_arg1 e4_main_v12 e4_main_v25
  have e5_main_v60 := s5_main_v60 (after s4 (after s3 (after s2 (after s1 (V))))) (V (Proc.devRef .tc main_arg1)) (V (Proc.devRef .tc main_arg2)) e4_main_arg1 e4_main_v12 e4_main_v25
  have e5_main_v63 := s5_main_v63 (after s4 (after s3 (after s2 (after s1 (V))))) (V (Proc.devRef .tc main_arg1)) (V (Proc.devRef .tc main_arg2)) e4_main_arg1 e4_main_v12
  have e5_main_v65 := s5_main_v65 (after s4 (after s3 (after s2 (after s1 (V))))) (V (Proc.devRef .tc main_arg1)) (V (Proc.devRef .tc main_arg2)) e4_main_arg1 e4_main_v12 e4_main_v25
  have e5_main_arg0 := (s5_keep_main_arg0 (after s4 (after s3 (after s2 (after s1 (V)))))).trans e4_main_arg0
  have e5_main_arg1 := (s5_keep_main_arg1 (after s4 (after s3 (after s2 (after s1 (V)))))).trans e4_main_arg1
  have e5_main_arg2 := (s5_keep_main_arg2 (after s4 (after s3 (after s2 (after s1 (V)))))).trans e4_main_arg2
  have e6_main_v75 := s6_main_v75 (after s5 (after s4 (after s3 (after s2 (after s1 (V)))))) (V (Proc.devRef .tc main_arg0)) (V (Proc.devRef .tc main_arg1)) (V (Proc.devRef .tc main_arg2)) e5_main_v53 e5_main_v49 e5_main_v65
  have e6_main_v49 := (s6_keep_main_v49 (after s5 (after s4 (after s3 (after s2 (after s1 (V))))))).trans e5_main_v49
  have e6_main_v60 := (s6_keep_main_v60 (after s5 (after s4 (after s3 (after s2 (after s1 (V))))))).trans e5_main_v60
  have e6_main_v63 := (s6_keep_main_v63 (after s5 (after s4 (after s3 (after s2 (after s1 (V))))))).trans e5_main_v63
  have e6_main_arg0 := (s6_keep_main_arg0 (after s5 (after s4 (after s3 (after s2 (after s1 (V))))))).trans e5_main_arg0
  have e6_main_arg1 := (s6_keep_main_arg1 (after s5 (after s4 (after s3 (after s2 (after s1 (V))))))).trans e5_main_arg1
  have e6_main_arg2 := (s6_keep_main_arg2 (after s5 (after s4 (after s3 (after s2 (after s1 (V))))))).trans e5_main_arg2
  have e7_main_v77 := s7_main_v77 (after s6 (after s5 (after s4 (after s3 (after s2 (after s1 (V))))))) (V (Proc.devRef .tc main_arg1)) (V (Proc.devRef .tc main_arg2)) e6_main_v60
  have e7_main_v75 := (s7_keep_main_v75 (after s6 (after s5 (after s4 (after s3 (after s2 (after s1 (V)))))))).trans e6_main_v75
  have e7_main_v49 := (s7_keep_main_v49 (after s6 (after s5 (after s4 (after s3 (after s2 (after s1 (V)))))))).trans e6_main_v49
  have e7_main_v60 := (s7_keep_main_v60 (after s6 (after s5 (after s4 (after s3 (after s2 (after s1 (V)))))))).trans e6_main_v60
  have e7_main_v63 := (s7_keep_main_v63 (after s6 (after s5 (after s4 (after s3 (after s2 (after s1 (V)))))))).trans e6_main_v63
  have e7_main_arg0 := (s7_keep_main_arg0 (after s6 (after s5 (after s4 (after s3 (after s2 (after s1 (V)))))))).trans e6_main_arg0
  have e7_main_arg1 := (s7_keep_main_arg1 (after s6 (after s5 (after s4 (after s3 (after s2 (after s1 (V)))))))).trans e6_main_arg1
  have e7_main_arg2 := (s7_keep_main_arg2 (after s6 (after s5 (after s4 (after s3 (after s2 (after s1 (V)))))))).trans e6_main_arg2
  have e8_main_v87 := s8_main_v87 (after s7 (after s6 (after s5 (after s4 (after s3 (after s2 (after s1 (V)))))))) (V (Proc.devRef .tc main_arg0)) (V (Proc.devRef .tc main_arg1)) (V (Proc.devRef .tc main_arg2)) e7_main_v60 e7_main_v49 e7_main_v77
  have e8_main_v75 := (s8_keep_main_v75 (after s7 (after s6 (after s5 (after s4 (after s3 (after s2 (after s1 (V))))))))).trans e7_main_v75
  have e8_main_v49 := (s8_keep_main_v49 (after s7 (after s6 (after s5 (after s4 (after s3 (after s2 (after s1 (V))))))))).trans e7_main_v49
  have e8_main_v63 := (s8_keep_main_v63 (after s7 (after s6 (after s5 (after s4 (after s3 (after s2 (after s1 (V))))))))).trans e7_main_v63
  have e8_main_arg0 := (s8_keep_main_arg0 (after s7 (after s6 (after s5 (after s4 (after s3 (after s2 (after s1 (V))))))))).trans e7_main_arg0
  have e8_main_arg1 := (s8_keep_main_arg1 (after s7 (after s6 (after s5 (after s4 (after s3 (after s2 (after s1 (V))))))))).trans e7_main_arg1
  have e8_main_arg2 := (s8_keep_main_arg2 (after s7 (after s6 (after s5 (after s4 (after s3 (after s2 (after s1 (V))))))))).trans e7_main_arg2
  have e9_main_v89 := s9_main_v89 (after s8 (after s7 (after s6 (after s5 (after s4 (after s3 (after s2 (after s1 (V))))))))) (V (Proc.devRef .tc main_arg1)) (V (Proc.devRef .tc main_arg2)) e8_main_v63
  have e9_main_v75 := (s9_keep_main_v75 (after s8 (after s7 (after s6 (after s5 (after s4 (after s3 (after s2 (after s1 (V)))))))))).trans e8_main_v75
  have e9_main_v87 := (s9_keep_main_v87 (after s8 (after s7 (after s6 (after s5 (after s4 (after s3 (after s2 (after s1 (V)))))))))).trans e8_main_v87
  have e9_main_v49 := (s9_keep_main_v49 (after s8 (after s7 (after s6 (after s5 (after s4 (after s3 (after s2 (after s1 (V)))))))))).trans e8_main_v49
  have e9_main_v63 := (s9_keep_main_v63 (after s8 (after s7 (after s6 (after s5 (after s4 (after s3 (after s2 (after s1 (V)))))))))).trans e8_main_v63
  have e9_main_arg0 := (s9_keep_main_arg0 (after s8 (after s7 (after s6 (after s5 (after s4 (after s3 (after s2 (after s1 (V)))))))))).trans e8_main_arg0
  have e9_main_arg1 := (s9_keep_main_arg1 (after s8 (after s7 (after s6 (after s5 (after s4 (after s3 (after s2 (after s1 (V)))))))))).trans e8_main_arg1
  have e9_main_arg2 := (s9_keep_main_arg2 (after s8 (after s7 (after s6 (after s5 (after s4 (after s3 (after s2 (after s1 (V)))))))))).trans e8_main_arg2
  have e10_main_v99 := s10_main_v99 (after s9 (after s8 (after s7 (after s6 (after s5 (after s4 (after s3 (after s2 (after s1 (V)))))))))) (V (Proc.devRef .tc main_arg0)) (V (Proc.devRef .tc main_arg1)) (V (Proc.devRef .tc main_arg2)) e9_main_v63 e9_main_v49 e9_main_v89
  have e10_main_v75 := (s10_keep_main_v75 (after s9 (after s8 (after s7 (after s6 (after s5 (after s4 (after s3 (after s2 (after s1 (V))))))))))).trans e9_main_v75
  have e10_main_v87 := (s10_keep_main_v87 (after s9 (after s8 (after s7 (after s6 (after s5 (after s4 (after s3 (after s2 (after s1 (V))))))))))).trans e9_main_v87
  have e10_main_arg0 := (s10_keep_main_arg0 (after s9 (after s8 (after s7 (after s6 (after s5 (after s4 (after s3 (after s2 (after s1 (V))))))))))).trans e9_main_arg0
  have e10_main_arg1 := (s10_keep_main_arg1 (after s9 (after s8 (after s7 (after s6 (after s5 (after s4 (after s3 (after s2 (after s1 (V))))))))))).trans e9_main_arg1
  have e10_main_arg2 := (s10_keep_main_arg2 (after s9 (after s8 (after s7 (after s6 (after s5 (after s4 (after s3 (after s2 (after s1 (V))))))))))).trans e9_main_arg2
  exact ⟨e10_main_v75, e10_main_v87, e10_main_v99, e10_main_arg0, e10_main_arg1, e10_main_arg2⟩

set_option maxHeartbeats 4000000 in
/-- On every device, from any memory with zero counters: every weakly fair execution of @main terminates with the three results at the last
    stages of the stage-by-stage reading of the arguments, and the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v75) = Cert.ReferenceIdeal.Read.val_main_v75 (F := Ideal) (m ((c.tc : Thread nD τ).loc main_arg0)) (m ((c.tc : Thread nD τ).loc main_arg1)) (m ((c.tc : Thread nD τ).loc main_arg2))
      ∧ r.2.mem ((c.tc : Thread nD τ).loc main_v87) = Cert.ReferenceIdeal.Read.val_main_v87 (F := Ideal) (m ((c.tc : Thread nD τ).loc main_arg0)) (m ((c.tc : Thread nD τ).loc main_arg1)) (m ((c.tc : Thread nD τ).loc main_arg2))
      ∧ r.2.mem ((c.tc : Thread nD τ).loc main_v99) = Cert.ReferenceIdeal.Read.val_main_v99 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v75).trans (after_ops (launchContents m c)).1,
        (h c main_v87).trans (after_ops (launchContents m c)).2.1,
        (h c main_v99).trans (after_ops (launchContents m c)).2.2.1,
        (h c main_arg0).trans (after_ops (launchContents m c)).2.2.2.1,
        (h c main_arg1).trans (after_ops (launchContents m c)).2.2.2.2.1,
        (h c main_arg2).trans (after_ops (launchContents m c)).2.2.2.2.2⟩)
    (run_seq ValueOps.scopedRefs_eq ValueOps.scopedSems_eq defs main (fun _ => ValueOps.ops) ValueOps.main_eq
      (fun _ => ValueOps.ops_sub) m ρ (fun _ => ops_fresh))

end Cert.Loss.Ref

end
-- ==== Proof.Spec.lean ====
/-
  The quantity both programs compute, written once as mathematics over the extended reals.

  Inputs: a score matrix `X` (262144 rows of 81 classes), a label per row `L` (a class index 0 … 80) and a weight per row
  `Wt`.  Per row: the softmax `prob` of the scores (shifted by the row maximum), the clipped margin between the labelled
  class's probability and every class's, minus its logarithm capped at 5, weighted by the square of the clipped
  `1 - prob(label)`; `rowSum` adds that over the 80 classes other than the label (all 81, less the label's own term).
  A row is `valid` when its weight is positive; a class has `enough` samples when at least two valid rows carry it.  Rows
  are selected into three groups (base classes 0 … 59, novel classes 60 … 79, the background class 80); each group's loss is
  its mean row sum per class pair (sum / (max(count, 1) · 80), zero for an empty group), times the group's weight, capped at 1.
-/
import Idealize.ShloMosaic.PureOps.Ideal
import Idealize.ShloMosaic.Lib.ValueIdx

noncomputable section

namespace Cert.Loss

open Idealize.ShloMosaic Idealize.ShloMosaic.ValueIdx

/-! ## One row -/

/-- The largest score of a row: the fold of `max` from −∞ over its 81 entries. -/
def rowMax (x : Fin 81 → EReal) : EReal :=
  (Finset.univ : Finset (Fin 81)).fold max (Ideal.ofBits .f32 0xFF800000#32) x

/-- `exp` of a score less the row's maximum. -/
def expo (x : Fin 81 → EReal) (c : Fin 81) : EReal := Ideal.exp (x c - rowMax x)

/-- The softmax probability of class `c`. -/
def prob (x : Fin 81 → EReal) (c : Fin 81) : EReal := Ideal.div (expo x c) (∑ c' : Fin 81, expo x c')

/-- A margin clipped into [f32(0.001), 1]. -/
def clipMargin (z : EReal) : EReal :=
  min (Ideal.ofBits .f32 0x3F800000#32) (max (Ideal.ofBits .f32 0x3A83126F#32) z)

/-- Minus the logarithm of the clipped margin between the labelled class `k` and class `c`, capped at 5. -/
def logTerm (x : Fin 81 → EReal) (k c : Fin 81) : EReal :=
  min (-(Ideal.log (clipMargin (prob x k - prob x c)))) (Ideal.ofBits .f32 0x40A00000#32)

/-- `1 - prob(label)` clipped into [f32(0.0001), 1]. -/
def slack (x : Fin 81 → EReal) (k : Fin 81) : EReal :=
  min (Ideal.ofBits .f32 0x3F800000#32)
    (max (Ideal.ofBits .f32 0x38D1B717#32) (Ideal.ofBits .f32 0x3F800000#32 - prob x k))

/-- The weighted term of class `c` in a row labelled `k`. -/
def per (x : Fin 81 → EReal) (k c : Fin 81) : EReal := (slack x k * slack x k) * logTerm x k c

/-- The row's sum over the classes other than its label: all 81 terms less the label's own. -/
def rowSum (x : Fin 81 → EReal) (k : Fin 81) : EReal := (∑ c : Fin 81, per x k c) - per x k k

/-! ## Selection -/

/-- The class a label word names (a label is a word 0 … 80). -/
def cls (l : BitVec 32) : Fin 81 := ⟨l.toNat % 81, Nat.mod_lt _ (by decide)⟩

/-- A row counts when its weight is positive. -/
def valid (w : EReal) : BitVec 1 := Ideal.cmp .ogt w (Ideal.ofBits .f32 0x00000000#32)

/-- A class has enough samples when its count word is at least 2. -/
def enough (n : BitVec 32) : BitVec 1 := IntOp.cmpi .sge n 2#32

/-- Base classes: label below 60. -/
def selBase (l : BitVec 32) (w : EReal) (n : BitVec 32) : BitVec 1 :=
  IntOp.andi (IntOp.andi (valid w) (IntOp.cmpi .slt l 60#32)) (enough n)

/-- Novel classes: label from 60 to 79. -/
def selNovel (l : BitVec 32) (w : EReal) (n : BitVec 32) : BitVec 1 :=
  IntOp.andi (IntOp.andi (IntOp.andi (valid w) (IntOp.cmpi .sge l 60#32)) (IntOp.cmpi .slt l 80#32)) (enough n)

/-- The background class: label 80 (no sample-count condition). -/
def selNeg (l : BitVec 32) (w : EReal) : BitVec 1 := IntOp.andi (valid w) (IntOp.cmpi .eq l 80#32)

/-! ## The whole arrays -/

abbrev Scores := (⟨2, ![262144, 81]⟩ : Shape).Idx → EReal
abbrev Labels := (⟨1, ![262144]⟩ : Shape).Idx → BitVec 32
abbrev Weights := (⟨1, ![262144]⟩ : Shape).Idx → EReal

/-- Row `i` of the scores. -/
def row (X : Scores) (i : Fin 262144) : Fin 81 → EReal := fun c => X (ix2 i c)

/-- How many valid rows carry class `c`, as a 32-bit word (at most 262144: it does not wrap). -/
def countWord (L : Labels) (Wt : Weights) (c : Fin 81) : BitVec 32 :=
  BitVec.ofNat 32 (Finset.univ.filter fun i : Fin 262144 =>
    L (ix1 i) = BitVec.ofNat 32 c.val ∧ valid (Wt (ix1 i)) = 1#1).card

/-- The count word of row `i`'s own class. -/
def countAt (L : Labels) (Wt : Weights) (i : Fin 262144) : BitVec 32 := countWord L Wt (cls (L (ix1 i)))

/-- Row `i`'s sum. -/
def rowSumAt (X : Scores) (L : Labels) (i : Fin 262144) : EReal := rowSum (row X i) (cls (L (ix1 i)))

def baseAt (L : Labels) (Wt : Weights) (i : Fin 262144) : BitVec 1 := selBase (L (ix1 i)) (Wt (ix1 i)) (countAt L Wt i)
def novelAt (L : Labels) (Wt : Weights) (i : Fin 262144) : BitVec 1 := selNovel (L (ix1 i)) (Wt (ix1 i)) (countAt L Wt i)
def negAt (L : Labels) (Wt : Weights) (i : Fin 262144) : BitVec 1 := selNeg (L (ix1 i)) (Wt (ix1 i))

/-- The sum of `v` over the selected rows. -/
def total (sel : Fin 262144 → BitVec 1) (v : Fin 262144 → EReal) : EReal :=
  ∑ i : Fin 262144, if sel i = 1#1 then v i else 0

/-- The number of selected rows, as an extended real. -/
def number (sel : Fin 262144 → BitVec 1) : EReal := ∑ i : Fin 262144, if sel i = 1#1 then (1 : EReal) else 0

/-- A group's loss from its sum `s`, its count `n` and its weight literal: `min(mean · weight, 1)` with
    `mean = s / (max(n, 1) · 80)` for a non-empty group and 0 for an empty one. -/
def finish (s n : EReal) (wbits : BitVec 32) : EReal :=
  min ((if Ideal.cmp .ogt n (Ideal.ofBits .f32 0x00000000#32) = 1#1
        then Ideal.div s (max n (Ideal.ofBits .f32 0x3F800000#32) * Ideal.ofBits .f32 0x42A00000#32)
        else Ideal.ofBits .f32 0x00000000#32) * Ideal.ofBits .f32 wbits)
    (Ideal.ofBits .f32 0x3F800000#32)

/-- The three losses. -/
def lossBase (X : Scores) (L : Labels) (Wt : Weights) : EReal :=
  finish (total (baseAt L Wt) (rowSumAt X L)) (number (baseAt L Wt)) 0x3D088889#32
def lossNovel (X : Scores) (L : Labels) (Wt : Weights) : EReal :=
  finish (total (novelAt L Wt) (rowSumAt X L)) (number (novelAt L Wt)) 0x3DCCCCCD#32
def lossNeg (X : Scores) (L : Labels) (Wt : Weights) : EReal :=
  finish (total (negAt L Wt) (rowSumAt X L)) (number (negAt L Wt)) 0x3A83126F#32

/-- The domain of the labels: every label word is a class index 0 … 80. -/
def LabelsInRange (L : Labels) : Prop := ∀ i : Fin 262144, (L (ix1 i)).toNat ≤ 80

end Cert.Loss

end
-- ==== Proof.PreDecode.lean ====
/-
  The added domain conjunct read back: when the printed precondition holds, every label word is a class index 0 … 80.
  The precondition ends in two `jnp.all`s over the labels — `labels ≥ 0` and `labels ≤ 80`, signed — each a reduce by
  `and` that is 1 only if every compare is 1; a word that is signed-nonnegative and signed-at-most-80 has value at most 80.
-/
import proofs.«415084_j9577777070150_2_alg».proof.Pre_finite_inputs
import proofs.«415084_j9577777070150_2_alg».proof.Proof.Gen.Pre_finite_inputs
import proofs.«415084_j9577777070150_2_alg».proof.Proof.Spec
import Idealize.ShloMosaic.Lib.ReduceAll
import Idealize.ShloMosaic.Lib.Affine

noncomputable section

namespace Cert.Loss

open Idealize.ShloMosaic Idealize.ShloMosaic.ValueIdx

instance : Subsingleton Cert.Pre_finite_inputs.S_.Idx := ⟨fun _ _ => funext fun d => d.elim0⟩

/-- A 32-bit word that is nonnegative and at most 80 as a signed integer has value at most 80. -/
theorem toNat_le_of_signed (l : BitVec 32) (h0 : (0#32 : BitVec 32).toInt ≤ l.toInt) (h1 : l.toInt ≤ (80#32 : BitVec 32).toInt) :
    l.toNat ≤ 80 := by
  have e0 : (0#32 : BitVec 32).toInt = 0 := by decide
  have e1 : (80#32 : BitVec 32).toInt = 80 := by decide
  rw [e0] at h0; rw [e1] at h1
  have := BitVec.toInt_eq_toNat_cond l
  have hlt := l.isLt
  split at this <;> omega

/-- Under the precondition every label is a class index. -/
theorem labels_of_pre (X : Scores) (L : Labels) (Wt : Weights)
    (h : Cert.Pre_finite_inputs.fn (F := Ideal) X L Wt = fun _ => 1#1) : LabelsInRange L := by
  have h0 := congrFun h ix0
  dsimp only [Cert.Pre_finite_inputs.fn, Cert.Pre_finite_inputs.fn_part1] at h0
  obtain ⟨h12, h15⟩ := IntOp.andi_eq_one.1 h0
  obtain ⟨_, h11⟩ := IntOp.andi_eq_one.1 h12
  intro i
  have ge := Host.reduce_andi_all _ _ _ _ _ h11 (ix1 i)
  have le := Host.reduce_andi_all _ _ _ _ _ h15 (ix1 i)
  exact toNat_le_of_signed _ (IntOp.cmpi_sge.1 ge) (IntOp.cmpi_sle.1 le)

end Cert.Loss

end
-- ==== Proof.KSpec.lean ====
/-
  What the kernel's grid computes, as mathematics: the row range is cut into 64 tiles of 4096 rows (two halves of 32 tiles,
  one per core); each tile contributes six numbers — for each of the three groups the sum of the selected rows' row sums
  and the number of selected rows — which a core adds up over its 32 tiles; the two cores' six sums are then added and
  finished as the specification's `finish`.  Inside the kernel the "enough samples" flag of a row arrives as a float
  (1.0 or 0.0) and is re-read by `> 0`.
-/
import proofs.«415084_j9577777070150_2_alg».proof.Proof.Spec

noncomputable section

namespace Cert.Loss

open Idealize.ShloMosaic Idealize.ShloMosaic.ValueIdx

/-- A float flag re-read as a bit. -/
def flag (e : EReal) : BitVec 1 := Ideal.cmp .ogt e (Ideal.ofBits .f32 0x00000000#32)

/-- The three selections as the kernel body forms them from a row's label, weight and "enough" flag. -/
def tileBase (l : BitVec 32) (w e : EReal) : BitVec 1 := IntOp.andi (IntOp.andi (valid w) (IntOp.cmpi .slt l 60#32)) (flag e)
def tileNovel (l : BitVec 32) (w e : EReal) : BitVec 1 :=
  IntOp.andi (IntOp.andi (IntOp.andi (valid w) (IntOp.cmpi .sge l 60#32)) (IntOp.cmpi .slt l 80#32)) (flag e)
def tileNeg (l : BitVec 32) (w : EReal) : BitVec 1 := IntOp.andi (valid w) (IntOp.cmpi .eq l 80#32)

abbrev TileScores := (⟨2, ![4096, 81]⟩ : Shape).Idx → EReal
abbrev TileLabels := (⟨2, ![4096, 1]⟩ : Shape).Idx → BitVec 32
abbrev TileColumn := (⟨2, ![4096, 1]⟩ : Shape).Idx → EReal

/-- Row `r` of a tile's scores. -/
def tileRow (x : TileScores) (r : Fin 4096) : Fin 81 → EReal := fun c => x (ix2 r c)

/-- The sum over a tile's rows selected by `sel` of `v`. -/
def tileTotal (sel : Fin 4096 → BitVec 1) (v : Fin 4096 → EReal) : EReal := ∑ r : Fin 4096, if sel r = 1#1 then v r else 0

/-- One tile's six contributions, in the accumulator's order: base sum, base count, novel sum, novel count,
    background sum, background count. -/
def tileVec (x : TileScores) (l : TileLabels) (w e : TileColumn) (j : Fin 6) : EReal :=
  let rs : Fin 4096 → EReal := fun r => rowSum (tileRow x r) (cls (l (ix2 r 0)))
  let one : Fin 4096 → EReal := fun _ => 1
  let sb : Fin 4096 → BitVec 1 := fun r => tileBase (l (ix2 r 0)) (w (ix2 r 0)) (e (ix2 r 0))
  let sn : Fin 4096 → BitVec 1 := fun r => tileNovel (l (ix2 r 0)) (w (ix2 r 0)) (e (ix2 r 0))
  let sg : Fin 4096 → BitVec 1 := fun r => tileNeg (l (ix2 r 0)) (w (ix2 r 0))
  match j with
  | 0 => tileTotal sb rs
  | 1 => tileTotal sb one
  | 2 => tileTotal sn rs
  | 3 => tileTotal sn one
  | 4 => tileTotal sg rs
  | 5 => tileTotal sg one

/-- Tile `t` (0 … 63) of the whole arrays: rows 4096·t … 4096·t + 4095. -/
def tileOfScores (X : Scores) (t : Fin 64) : TileScores := fun y => X (ix2 ⟨t.val * 4096 + (y 0).val, by have h : (y 0).val < 4096 := (y 0).isLt; have := t.isLt; omega⟩ (y 1))
def tileOfLabels (L : Labels) (t : Fin 64) : TileLabels := fun y => L (ix1 ⟨t.val * 4096 + (y 0).val, by have h : (y 0).val < 4096 := (y 0).isLt; have := t.isLt; omega⟩)
def tileOfColumn (W : Weights) (t : Fin 64) : TileColumn := fun y => W (ix1 ⟨t.val * 4096 + (y 0).val, by have h : (y 0).val < 4096 := (y 0).isLt; have := t.isLt; omega⟩)

/-- The "enough samples" flag of every row, as the float the kernel is handed. -/
def enoughFlag (L : Labels) (Wt : Weights) : Weights := fun j => ((((enough (countAt L Wt (j 0))).toNat : ℕ) : ℝ) : EReal)

/-- Core `c`'s accumulator after its 32 tiles. -/
def coreAcc (X : Scores) (L : Labels) (Wt : Weights) (c : Fin 2) (j : Fin 6) : EReal :=
  ∑ t : Fin 32, tileVec (tileOfScores X ⟨c.val * 32 + t.val, by have := c.isLt; have := t.isLt; omega⟩) (tileOfLabels L ⟨c.val * 32 + t.val, by have := c.isLt; have := t.isLt; omega⟩)
    (tileOfColumn Wt ⟨c.val * 32 + t.val, by have := c.isLt; have := t.isLt; omega⟩) (tileOfColumn (enoughFlag L Wt) ⟨c.val * 32 + t.val, by have := c.isLt; have := t.isLt; omega⟩) j

/-- The two cores' accumulators added. -/
def gridAcc (X : Scores) (L : Labels) (Wt : Weights) (j : Fin 6) : EReal := ∑ c : Fin 2, coreAcc X L Wt c j

end Cert.Loss

end
-- ==== Proof.RowLaws.lean ====
/-
  Extended-real and word arithmetic shared by the two programs of this certificate.

  Each statement equates two spellings of one quantity of the specification: a one-hot sum with the selected
  term, a power by the float 2 with a square, `0 - y` with `-y`, a maximum against −∞ with its other
  argument, a 0/1 float flag read back by `> 0` with the bit, a count of selected rows as a sum of ones with
  the cardinality of the selected set, the mean taken through 32-bit words with the mean taken through extended
  reals, and a sum over all rows with the same sum taken tile by tile.
-/
import proofs.«415084_j9577777070150_2_alg».proof.Proof.Spec
import Idealize.ShloMosaic.PureOps.Ideal
import Idealize.ShloMosaic.PureOps.Ideal.Laws
import Idealize.ShloMosaic.Lib.StableHlo.Predicate
import Mathlib.Data.EReal.Basic
import Mathlib.Data.EReal.Operations
import Mathlib.Analysis.SpecialFunctions.Pow.Real
import Mathlib.Algebra.BigOperators.Fin
import Mathlib.Logic.Equiv.Fin.Basic

noncomputable section

namespace Cert.Loss

open Idealize.ShloMosaic Idealize.ShloMosaic.StableHlo.Predicate

/-! ## The float literals of the specification as extended reals -/

theorem f32_one : Ideal.ofBits .f32 0x3F800000#32 = 1 := by
  simp [Ideal.ofBits, Ideal.ieee, -EReal.coe_mul]; norm_num

theorem f32_two : Ideal.ofBits .f32 0x40000000#32 = ((2 : ℝ) : EReal) := by
  simp [Ideal.ofBits, Ideal.ieee, -EReal.coe_mul]; norm_num

theorem f32_eighty : Ideal.ofBits .f32 0x42A00000#32 = ((80 : ℝ) : EReal) := by
  simp [Ideal.ofBits, Ideal.ieee, -EReal.coe_mul]; norm_num

theorem f32_negInf : Ideal.ofBits .f32 0xFF800000#32 = ⊥ := by
  simp [Ideal.ofBits, Ideal.ieee]

/-! ## A one-hot sum selects its term -/

/-- Comparing a label word 0 … 80 with the word of a class index is comparing the classes. -/
theorem cmpi_eq_class_iff (l : BitVec 32) (hl : l.toNat ≤ 80) (c : Fin 81) :
    IntOp.cmpi .eq l (BitVec.ofNat 32 c.val) = 1#1 ↔ c = cls l := by
  have hc := c.isLt
  rw [cmpi_eq_iff]
  constructor
  · intro h
    apply Fin.ext
    have : l.toNat = c.val := by rw [h, BitVec.toNat_ofNat]; exact Nat.mod_eq_of_lt (by omega)
    simp only [cls]; omega
  · intro h
    subst h
    apply BitVec.eq_of_toNat_eq
    simp only [cls, BitVec.toNat_ofNat]
    omega

theorem oneHot_sum (f : Fin 81 → EReal) (l : BitVec 32) (hl : l.toNat ≤ 80) :
    (∑ c : Fin 81, f c * (if IntOp.cmpi .eq l (BitVec.ofNat 32 c.val) = 1#1 then (1 : EReal) else 0)) = f (cls l) := by
  simp only [cmpi_eq_class_iff l hl, mul_ite, mul_one, mul_zero]
  rw [Finset.sum_ite_eq' Finset.univ (cls l) f, if_pos (Finset.mem_univ _)]

/-! ## The square -/

/-- The floor of the clipped `1 - prob`: the float nearest 0.0001. -/
theorem f32_slackFloor : Ideal.ofBits .f32 0x38D1B717#32 = ((13743895 * (2 : ℝ) ^ (-37 : ℤ) : ℝ) : EReal) := by
  simp [Ideal.ofBits, Ideal.ieee, -EReal.coe_mul]

/-- The clipped `1 - prob` is a real number: it lies between a real literal and 1. -/
theorem slack_real (x : Fin 81 → EReal) (k : Fin 81) : ∃ r : ℝ, slack x k = (r : EReal) := by
  have htop : slack x k ≠ ⊤ := by
    have h1 : slack x k ≤ ((1 : ℝ) : EReal) := by
      unfold slack; rw [f32_one, EReal.coe_one]; exact min_le_left _ _
    exact ne_top_of_le_ne_top (EReal.coe_ne_top 1) h1
  have hbot : slack x k ≠ ⊥ := by
    have h1 : ⊥ < slack x k := by
      unfold slack
      refine lt_min ?_ (lt_of_lt_of_le ?_ (le_max_left _ _))
      · rw [f32_one, ← EReal.coe_one]; exact EReal.bot_lt_coe 1
      · rw [f32_slackFloor]; exact EReal.bot_lt_coe _
    exact h1.ne'
  lift slack x k to ℝ using ⟨htop, hbot⟩ with r hr
  exact ⟨r, rfl⟩

theorem pow_two_slack (x : Fin 81 → EReal) (k : Fin 81) :
    Ideal.pow (slack x k) (Ideal.ofBits .f32 0x40000000#32) = slack x k * slack x k := by
  obtain ⟨r, hr⟩ := slack_real x k
  rw [hr, f32_two, Ideal.pow_coe_coe, ← EReal.coe_mul]
  congr 1
  show r ^ (2 : ℝ) = r * r
  rw [Real.rpow_two, sq]

/-! ## Negation and the maximum against −∞ -/

theorem zero_sub_eq_neg (y : EReal) : Ideal.ofBits .f32 0x00000000#32 - y = -y := by
  rw [Ideal.ofBits_zero_f32, zero_sub]

theorem max_negInf (y : EReal) : max (Ideal.ofBits .f32 0xFF800000#32) y = y := by
  rw [f32_negInf]; exact max_bot_left y

/-! ## Bits as floats -/

/-- A bit widened to a word and read as a signed integer is 1 for a set bit and 0 for a clear one. -/
theorem oneHot_val (b : BitVec 1) : (((b.setWidth 32).toInt : ℝ) : EReal) = if b = 1#1 then 1 else 0 := by
  rcases BitVec.eq_zero_or_eq_one b with rfl | rfl
  · have h : (BitVec.setWidth 32 0#1).toInt = 0 := by decide
    rw [h, if_neg (by decide)]; simp
  · have h : (BitVec.setWidth 32 1#1).toInt = 1 := by decide
    rw [h, if_pos rfl]; simp

/-- The vector form: converting a widened mask to floats reads, at each index, the bit's value. -/
theorem sitofp_extui_apply {s : Shape} (v : IVec s 1) (h : 1 < 32) (i : s.Idx) :
    (sitofp (F := Ideal) .f32 (extui 32 v h) i : EReal) = if v i = 1#1 then 1 else 0 :=
  oneHot_val (v i)

/-- A 0/1 float flag read back by `> 0` is the bit it was made from. -/
theorem gt_zero_of_bit (b : BitVec 1) :
    Ideal.cmp .ogt (((b.toNat : ℝ)) : EReal) (Ideal.ofBits .f32 0x00000000#32) = b := by
  rw [Ideal.ofBits_zero_f32]
  rcases BitVec.eq_zero_or_eq_one b with rfl | rfl
  · simp [Ideal.cmp]
  · simp [Ideal.cmp]

/-! ## Counting the selected rows -/

theorem number_eq_card (sel : Fin 262144 → BitVec 1) :
    number sel = (((Finset.univ.filter fun i => sel i = 1#1).card : ℝ) : EReal) := by
  unfold number
  rw [Finset.sum_boole, EReal.coe_natCast]

/-! ## Sums tile by tile -/

theorem fold_add_eq_sum (g : Fin 32 → EReal) :
    (List.finRange 32).foldl (fun acc t => acc + g t) 0 = ∑ t : Fin 32, g t := by
  rw [Fin.sum_univ_def, List.sum_eq_foldl, List.foldl_map]

theorem sum_tiles (g : Fin 262144 → EReal) :
    (∑ c : Fin 2, ∑ t : Fin 32, ∑ r : Fin 4096, g ⟨(c.val * 32 + t.val) * 4096 + r.val, by omega⟩)
      = ∑ i : Fin 262144, g i := by
  let e : (Fin 2 × Fin 32) × Fin 4096 ≃ Fin 262144 :=
    ((finProdFinEquiv (m := 2) (n := 32)).prodCongr (Equiv.refl (Fin 4096))).trans
      (finProdFinEquiv (m := 64) (n := 4096))
  rw [← Equiv.sum_comp e g, Fintype.sum_prod_type, Fintype.sum_prod_type]
  refine Finset.sum_congr rfl fun c _ => Finset.sum_congr rfl fun t _ => Finset.sum_congr rfl fun r _ => ?_
  congr 1
  apply Fin.ext
  show (c.val * 32 + t.val) * 4096 + r.val = r.val + 4096 * (t.val + 32 * c.val)
  omega

/-! ## The mean through words and the mean through extended reals -/

/-- For a count word 1 … 262144, `max(n, 1) · 80` does not wrap and its signed value is `n · 80`. -/
theorem toInt_muli_maxsi (n : BitVec 32) (hpos : 0 < n.toNat) (hle : n.toNat ≤ 262144) :
    (IntOp.muli (IntOp.maxsi n 1#32) 80#32).toInt = ((n.toNat * 80 : ℕ) : ℤ) := by
  have hti : n.toInt = n.toNat := toInt_eq_toNat_of_lt (by omega)
  have h1 : (1#32 : BitVec 32).toInt = 1 := by decide
  have hmax : IntOp.maxsi n 1#32 = n := by
    unfold IntOp.maxsi
    split <;> rename_i hc <;> simp only [BitVec.slt, hti, h1, decide_eq_true_eq] at hc
    · rfl
    · apply BitVec.eq_of_toNat_eq; simp only [BitVec.toNat_ofNat]; omega
  have hnat : (IntOp.muli n 80#32).toNat = n.toNat * 80 := by
    show (n * 80#32).toNat = _
    rw [BitVec.toNat_mul]
    simp only [BitVec.toNat_ofNat]
    omega
  rw [hmax, toInt_eq_toNat_of_lt (by rw [hnat]; omega), hnat]

theorem finish_of_word (s : EReal) (sel : Fin 262144 → BitVec 1) (n : BitVec 32)
    (hn : n.toNat = (Finset.univ.filter fun i => sel i = 1#1).card) (wbits : BitVec 32) :
    min ((if IntOp.cmpi .sgt n 0#32 = 1#1
          then Ideal.div s ((((IntOp.muli (IntOp.maxsi n 1#32) 80#32).toInt : ℝ)) : EReal)
          else Ideal.ofBits .f32 0x00000000#32) * Ideal.ofBits .f32 wbits) (Ideal.ofBits .f32 0x3F800000#32)
      = finish s (number sel) wbits := by
  have hle : n.toNat ≤ 262144 := by
    rw [hn]; exact le_trans (Finset.card_le_univ _) (by simp)
  have hword : IntOp.cmpi .sgt n 0#32 = 1#1 ↔ 0 < n.toNat := by
    rw [sgt_iff_toNat (by omega) (by decide)]; rfl
  have hreal : Ideal.cmp .ogt (number sel) (Ideal.ofBits .f32 0x00000000#32) = 1#1 ↔ 0 < n.toNat := by
    rw [number_eq_card, ← hn, Ideal.ofBits_zero_f32]
    simp [Ideal.cmp, ofBool_eq_one_iff]
  unfold finish
  by_cases hpos : 0 < n.toNat
  · rw [if_pos (hword.mpr hpos), if_pos (hreal.mpr hpos), toInt_muli_maxsi n hpos hle, number_eq_card, ← hn,
      f32_one, f32_eighty]
    have hmax : max ((n.toNat : ℝ) : EReal) 1 = ((n.toNat : ℝ) : EReal) := by
      apply max_eq_left
      rw [← EReal.coe_one, EReal.coe_le_coe_iff]
      exact_mod_cast hpos
    rw [hmax, ← EReal.coe_mul]
    congr 3
    push_cast
    rfl
  · rw [if_neg (mt hword.mp hpos), if_neg (mt hreal.mp hpos)]

end Cert.Loss

end
-- ==== Proof.KJoin.lean ====
/-
  The grid's six sums are the specification's: adding a tile's contributions over the 32 tiles of each core and over the
  two cores visits every row 4096·(32c + t) + r exactly once, a tile's row is the array's row, and the "enough" flag the
  kernel is handed (a 0/1 float re-read by `> 0`) is the specification's bit.
-/
import proofs.«415084_j9577777070150_2_alg».proof.Proof.KSpec
import proofs.«415084_j9577777070150_2_alg».proof.Proof.RowLaws

noncomputable section

namespace Cert.Loss

open Idealize.ShloMosaic Idealize.ShloMosaic.ValueIdx

/-- Row `r` of tile `T` is row `4096·T + r` of the arrays. -/
abbrev rowOf (T : Fin 64) (r : Fin 4096) : Fin 262144 := ⟨T.val * 4096 + r.val, by have := T.isLt; have := r.isLt; omega⟩

theorem flag_enoughFlag (L : Labels) (Wt : Weights) (i : Fin 262144) :
    flag (enoughFlag L Wt (ix1 i)) = enough (countAt L Wt i) := by
  unfold flag enoughFlag
  exact gt_zero_of_bit _

theorem tileBase_eq (L : Labels) (Wt : Weights) (i : Fin 262144) :
    tileBase (L (ix1 i)) (Wt (ix1 i)) (enoughFlag L Wt (ix1 i)) = baseAt L Wt i := by
  unfold tileBase baseAt selBase; rw [flag_enoughFlag]

theorem tileNovel_eq (L : Labels) (Wt : Weights) (i : Fin 262144) :
    tileNovel (L (ix1 i)) (Wt (ix1 i)) (enoughFlag L Wt (ix1 i)) = novelAt L Wt i := by
  unfold tileNovel novelAt selNovel; rw [flag_enoughFlag]

theorem tileNeg_eq (L : Labels) (Wt : Weights) (i : Fin 262144) :
    tileNeg (L (ix1 i)) (Wt (ix1 i)) = negAt L Wt i := rfl

/-- A tile's selected sum depends on the selection and the summand row by row. -/
theorem tileTotal_congr {s s' : Fin 4096 → BitVec 1} {v v' : Fin 4096 → EReal} (hs : ∀ r, s r = s' r)
    (hv : ∀ r, v r = v' r) : tileTotal s v = tileTotal s' v' := by
  unfold tileTotal
  exact Finset.sum_congr rfl fun r _ => by rw [hs r, hv r]

/-- The shape shared by the six sums: a selection and a summand given row by row. -/
theorem grid_sum (sel : Fin 262144 → BitVec 1) (v : Fin 262144 → EReal) :
    (∑ c : Fin 2, ∑ t : Fin 32, tileTotal (fun r => sel (rowOf ⟨c.val * 32 + t.val, by have := c.isLt; have := t.isLt; omega⟩ r))
        (fun r => v (rowOf ⟨c.val * 32 + t.val, by have := c.isLt; have := t.isLt; omega⟩ r)))
      = total sel v := by
  unfold tileTotal total
  exact sum_tiles (fun i => if sel i = 1#1 then v i else 0)

theorem grid_base_total (X : Scores) (L : Labels) (Wt : Weights) : gridAcc X L Wt 0 = total (baseAt L Wt) (rowSumAt X L) := by
  rw [← grid_sum]
  refine Finset.sum_congr rfl fun c _ => Finset.sum_congr rfl fun t _ => ?_
  exact tileTotal_congr (fun r => tileBase_eq L Wt _) (fun r => rfl)

theorem grid_base_number (X : Scores) (L : Labels) (Wt : Weights) : gridAcc X L Wt 1 = number (baseAt L Wt) := by
  have : number (baseAt L Wt) = total (baseAt L Wt) (fun _ => 1) := rfl
  rw [this, ← grid_sum]
  refine Finset.sum_congr rfl fun c _ => Finset.sum_congr rfl fun t _ => ?_
  exact tileTotal_congr (fun r => tileBase_eq L Wt _) (fun r => rfl)

theorem grid_novel_total (X : Scores) (L : Labels) (Wt : Weights) : gridAcc X L Wt 2 = total (novelAt L Wt) (rowSumAt X L) := by
  rw [← grid_sum]
  refine Finset.sum_congr rfl fun c _ => Finset.sum_congr rfl fun t _ => ?_
  exact tileTotal_congr (fun r => tileNovel_eq L Wt _) (fun r => rfl)

theorem grid_novel_number (X : Scores) (L : Labels) (Wt : Weights) : gridAcc X L Wt 3 = number (novelAt L Wt) := by
  have : number (novelAt L Wt) = total (novelAt L Wt) (fun _ => 1) := rfl
  rw [this, ← grid_sum]
  refine Finset.sum_congr rfl fun c _ => Finset.sum_congr rfl fun t _ => ?_
  exact tileTotal_congr (fun r => tileNovel_eq L Wt _) (fun r => rfl)

theorem grid_neg_total (X : Scores) (L : Labels) (Wt : Weights) : gridAcc X L Wt 4 = total (negAt L Wt) (rowSumAt X L) := by
  rw [← grid_sum]
  refine Finset.sum_congr rfl fun c _ => Finset.sum_congr rfl fun t _ => ?_
  rfl

theorem grid_neg_number (X : Scores) (L : Labels) (Wt : Weights) : gridAcc X L Wt 5 = number (negAt L Wt) := by
  have : number (negAt L Wt) = total (negAt L Wt) (fun _ => 1) := rfl
  rw [this, ← grid_sum]
  refine Finset.sum_congr rfl fun c _ => Finset.sum_congr rfl fun t _ => ?_
  rfl

/-- So the kernel's three finished values are the three losses. -/
theorem finish_base (X : Scores) (L : Labels) (Wt : Weights) :
    finish (gridAcc X L Wt 0) (gridAcc X L Wt 1) 0x3D088889#32 = lossBase X L Wt := by
  rw [grid_base_total, grid_base_number]; rfl
theorem finish_novel (X : Scores) (L : Labels) (Wt : Weights) :
    finish (gridAcc X L Wt 2) (gridAcc X L Wt 3) 0x3DCCCCCD#32 = lossNovel X L Wt := by
  rw [grid_novel_total, grid_novel_number]; rfl
theorem finish_neg (X : Scores) (L : Labels) (Wt : Weights) :
    finish (gridAcc X L Wt 4) (gridAcc X L Wt 5) 0x3A83126F#32 = lossNeg X L Wt := by
  rw [grid_neg_total, grid_neg_number]; rfl

end Cert.Loss

end
-- ==== Proof.KBlocks.lean ====
/-
  The input blocks of a grid point are tiles of the whole arrays: point `t` (0 … 63) stages rows 4096·t … 4096·t + 4095
  of the scores, and the same rows of the three columns (labels, weights, the "enough samples" flag).
-/
import proofs.«415084_j9577777070150_2_alg».proof.Proof.KIRuns
import proofs.«415084_j9577777070150_2_alg».proof.Proof.KSpec

set_option maxRecDepth 16384

noncomputable section

namespace Cert.Loss.Ker

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ)

/-- The four input blocks of the tile at point `t`. -/
abbrev xblk (c : Dev nD) (t : Fin cfg0.N) : Vec Ideal S4096x81 .f32 := iblk m c 0 t
abbrev lblk (c : Dev nD) (t : Fin cfg0.N) : Vec Ideal S4096x1 .i32 := iblk m c 1 t
abbrev wblk (c : Dev nD) (t : Fin cfg0.N) : Vec Ideal S4096x1 .f32 := iblk m c 2 t
abbrev eblk (c : Dev nD) (t : Fin cfg0.N) : Vec Ideal S4096x1 .f32 := iblk m c 3 t

/-- The whole arrays the four windows read, as the grid finds them. -/
abbrev xarr (c : Dev nD) : Vec Ideal S262144x81 .f32 := V m c main_arg0
abbrev larr (c : Dev nD) : Vec Ideal S262144x1 .i32 := V m c main_v17
abbrev warr (c : Dev nD) : Vec Ideal S262144x1 .f32 := V m c main_v18
abbrev earr (c : Dev nD) : Vec Ideal S262144x1 .f32 := V m c main_v20

/-- The point as a tile number. -/
abbrev tileNo (t : Fin cfg0.N) : Fin 64 := ⟨t.val, lt_of_lt_of_eq t.isLt N_0⟩

/-- Row `r` of tile `t` in the whole arrays. -/
abbrev rowOf (t : Fin cfg0.N) (r : Fin 4096) : Fin 262144 :=
  ⟨t.val * 4096 + r.val, by have := r.isLt; have : t.val < 64 := lt_of_lt_of_eq t.isLt N_0; omega⟩

/-- The four windows' block indices, over the grid: the row block is the point's number, the column block 0. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The scores' block at point `t` is tile `t` of the scores. -/
theorem xblk_eq (c : Dev nD) (t : Fin cfg0.N) : xblk m c t = tileOfScores (xarr m c) (tileNo t) := by
  obtain ⟨⟨e0, e1⟩, -⟩ := block_index t
  funext y
  unfold tileOfScores
  show V m c main_arg0 (((cfg0.win 0).blk t).view.emb y) = V m c main_arg0 _
  refine congrArg (V m c main_arg0) (funext fun a => Fin.ext ?_)
  match a with
  | ⟨0, _⟩ => show win0_0.index t (0 : Fin 2) * 4096 + 1 * (y 0).val = t.val * 4096 + (y 0).val; rw [e0]; omega
  | ⟨1, _⟩ => show win0_0.index t (1 : Fin 2) * 81 + 1 * (y 1).val = (y 1).val; rw [e1]; omega

/-- A column's block at point `t` reads the column array at row 4096·t + r. -/
theorem lblk_apply (c : Dev nD) (t : Fin cfg0.N) (y : S4096x1.Idx) :
    lblk m c t y = larr m c (ix2 (rowOf t (y 0)) 0) := by
  obtain ⟨-, ⟨e0, e1⟩, -⟩ := block_index t
  show V m c main_v17 (((cfg0.win 1).blk t).view.emb y) = V m c main_v17 _
  refine congrArg (V m c main_v17) (funext fun a => Fin.ext ?_)
  match a with
  | ⟨0, _⟩ => show win0_1.index t (0 : Fin 2) * 4096 + 1 * (y 0).val = t.val * 4096 + (y 0).val; rw [e0]; omega
  | ⟨1, _⟩ => show win0_1.index t (1 : Fin 2) * 1 + 1 * (y 1).val = 0; rw [e1]; have h1 : (y 1).val < 1 := (y 1).isLt; omega

theorem wblk_apply (c : Dev nD) (t : Fin cfg0.N) (y : S4096x1.Idx) :
    wblk m c t y = warr m c (ix2 (rowOf t (y 0)) 0) := by
  obtain ⟨-, -, ⟨e0, e1⟩, -⟩ := block_index t
  show V m c main_v18 (((cfg0.win 2).blk t).view.emb y) = V m c main_v18 _
  refine congrArg (V m c main_v18) (funext fun a => Fin.ext ?_)
  match a with
  | ⟨0, _⟩ => show win0_2.index t (0 : Fin 2) * 4096 + 1 * (y 0).val = t.val * 4096 + (y 0).val; rw [e0]; omega
  | ⟨1, _⟩ => show win0_2.index t (1 : Fin 2) * 1 + 1 * (y 1).val = 0; rw [e1]; have h1 : (y 1).val < 1 := (y 1).isLt; omega

theorem eblk_apply (c : Dev nD) (t : Fin cfg0.N) (y : S4096x1.Idx) :
    eblk m c t y = earr m c (ix2 (rowOf t (y 0)) 0) := by
  obtain ⟨-, -, -, ⟨e0, e1⟩⟩ := block_index t
  show V m c main_v20 (((cfg0.win 3).blk t).view.emb y) = V m c main_v20 _
  refine congrArg (V m c main_v20) (funext fun a => Fin.ext ?_)
  match a with
  | ⟨0, _⟩ => show win0_3.index t (0 : Fin 2) * 4096 + 1 * (y 0).val = t.val * 4096 + (y 0).val; rw [e0]; omega
  | ⟨1, _⟩ => show win0_3.index t (1 : Fin 2) * 1 + 1 * (y 1).val = 0; rw [e1]; have h1 : (y 1).val < 1 := (y 1).isLt; omega

/-- So when a column array is a one-dimensional array read at the row, its block at point `t` is tile `t` of that array. -/
theorem lblk_eq (c : Dev nD) (t : Fin cfg0.N) (L : Labels) (hL : larr m c = fun j => L (ix1 (j 0))) :
    lblk m c t = tileOfLabels L (tileNo t) := by
  funext y
  rw [lblk_apply, hL]
  rfl

theorem wblk_eq (c : Dev nD) (t : Fin cfg0.N) (W : Weights) (hW : warr m c = fun j => W (ix1 (j 0))) :
    wblk m c t = tileOfColumn W (tileNo t) := by
  funext y
  rw [wblk_apply, hW]
  rfl

theorem eblk_eq (c : Dev nD) (t : Fin cfg0.N) (E : Weights) (hE : earr m c = fun j => E (ix1 (j 0))) :
    eblk m c t = tileOfColumn E (tileNo t) := by
  funext y
  rw [eblk_apply, hE]
  rfl

end Cert.Loss.Ker

end
-- ==== Proof.KAcc.lean ====
/-
  The accumulation across the grid.  A core's scratch holds, after the point at position `n`, the sum of the tiles'
  six contributions from the start of that core's stretch (the last multiple of 32 at or below `n`) up to `n`; at the
  last point of a stretch the same sum is what the output block receives.  The per-tile facts (what one run of the body
  leaves in the scratch and in the output block) enter as hypotheses `TileLaws`; the labels of every tile are assumed
  to be class indices.
-/
import proofs.«415084_j9577777070150_2_alg».proof.Proof.KIFrame
import proofs.«415084_j9577777070150_2_alg».proof.Proof.KBlocks

set_option maxRecDepth 16384

noncomputable section

namespace Cert.Loss.Ker

open Idealize.ShloMosaic Idealize.ShloMosaic.TcCoe Idealize.SL.Sem Idealize.ShloMosaic.ValueIdx
open Cert.KernelIdeal Cert.KernelIdeal.Gen Cert.KernelIdeal.GenP
open Idealize.ShloMosaic.Pipeline (Dat)

/-- What one run of the body leaves, case by case: the scratch reset to the tile's six contributions at the first
    point of a stretch, the tile's contributions added to it elsewhere, and at the last point of a stretch the output
    block at the scratch's new contents. -/
structure TileLaws : Prop where
  scratch_A : ∀ (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : cond0_0 i) (hc1 : ¬cond0_1 i)
      (x0 : Vec Ideal S4096x81 .f32) (x1 : Vec Ideal S4096x1 .i32) (x2 : Vec Ideal S4096x1 .f32) (x3 : Vec Ideal S4096x1 .f32),
      (∀ r : Fin 4096, (x1 (ix2 r 0)).toNat ≤ 80) → ∀ y : S1x6.Idx,
      sout0_A_0 (F := Ideal) c i arg2 harg2 arg3 harg3 arg4 harg4 arg5 harg5 arg6 harg6 arg7 harg7 hc0 hc1 x0 x1 x2 x3 y = tileVec x0 x1 x2 x3 (y 1)
  scratch_B : ∀ (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : ¬cond0_0 i) (hc1 : ¬cond0_1 i)
      (x0 : Vec Ideal S4096x81 .f32) (x1 : Vec Ideal S4096x1 .i32) (x2 : Vec Ideal S4096x1 .f32) (x3 : Vec Ideal S4096x1 .f32) (xs0 : Vec Ideal S1x6 .f32),
      (∀ r : Fin 4096, (x1 (ix2 r 0)).toNat ≤ 80) → ∀ y : S1x6.Idx,
      sout0_B_0 (F := Ideal) c i arg2 harg2 arg3 harg3 arg4 harg4 arg5 harg5 arg6 harg6 arg7 harg7 hc0 hc1 x0 x1 x2 x3 xs0 y = xs0 y + tileVec x0 x1 x2 x3 (y 1)
  scratch_C : ∀ (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : ¬cond0_0 i) (hc1 : cond0_1 i)
      (x0 : Vec Ideal S4096x81 .f32) (x1 : Vec Ideal S4096x1 .i32) (x2 : Vec Ideal S4096x1 .f32) (x3 : Vec Ideal S4096x1 .f32) (xs0 : Vec Ideal S1x6 .f32),
      (∀ r : Fin 4096, (x1 (ix2 r 0)).toNat ≤ 80) → ∀ y : S1x6.Idx,
      sout0_C_0 (F := Ideal) c i arg2 harg2 arg3 harg3 arg4 harg4 arg5 harg5 arg6 harg6 arg7 harg7 hc0 hc1 x0 x1 x2 x3 xs0 y = xs0 y + tileVec x0 x1 x2 x3 (y 1)
  block_C : ∀ (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : ¬cond0_0 i) (hc1 : cond0_1 i)
      (x0 : Vec Ideal S4096x81 .f32) (x1 : Vec Ideal S4096x1 .i32) (x2 : Vec Ideal S4096x1 .f32) (x3 : Vec Ideal S4096x1 .f32) (xs0 : Vec Ideal S1x6 .f32),
      (∀ r : Fin 4096, (x1 (ix2 r 0)).toNat ≤ 80) → ∀ y : S1x1x6.Idx,
      out0_C_4 (F := Ideal) c i arg2 harg2 arg3 harg3 arg4 harg4 arg5 harg5 arg6 harg6 arg7 harg7 hc0 hc1 x0 x1 x2 x3 xs0 y = xs0 (ix2 0 (y 2)) + tileVec x0 x1 x2 x3 (y 2)

variable (m : (ℓ : Loc nD τ sig) → Buf (Elt Ideal) ℓ)

/-- The six contributions of the tile at point `t`. -/
def tv (c : Dev nD) (t : Fin cfg0.N) (j : Fin 6) : EReal := tileVec (xblk m c t) (lblk m c t) (wblk m c t) (eblk m c t) j

/-- The same at any position (zero past the grid). -/
def tvN (c : Dev nD) (n : ℕ) (j : Fin 6) : EReal := if h : n < cfg0.N then tv m c ⟨n, h⟩ j else 0

/-- The running sum: restarted at every multiple of 32, the tile's contributions added elsewhere. -/
def accN (c : Dev nD) : ℕ → Fin 6 → EReal
  | 0 => tvN m c 0
  | n + 1 => if (n + 1) % 32 = 0 then tvN m c (n + 1) else fun j => accN c n j + tvN m c (n + 1) j

theorem accN_restart (c : Dev nD) (n : ℕ) (h : n % 32 = 0) : accN m c n = tvN m c n := by
  cases n with
  | zero => rfl
  | succ n => exact if_pos h

theorem accN_step (c : Dev nD) (n : ℕ) (h : ¬(n + 1) % 32 = 0) (j : Fin 6) :
    accN m c (n + 1) j = accN m c n j + tvN m c (n + 1) j := by
  show (if (n + 1) % 32 = 0 then tvN m c (n + 1) else fun j => accN m c n j + tvN m c (n + 1) j) j = _
  rw [if_neg h]

/-- Inside a stretch the running sum is the sum of the stretch's tiles so far. -/
theorem accN_stretch (c : Dev nD) (k : ℕ) : ∀ (r : ℕ), r < 32 → ∀ j : Fin 6,
    accN m c (32 * k + r) j = ∑ s ∈ Finset.range (r + 1), tvN m c (32 * k + s) j := by
  intro r
  induction r with
  | zero =>
    intro _ j
    rw [accN_restart m c (32 * k + 0) (by omega), Finset.sum_range_succ, Finset.sum_range_zero, zero_add]
  | succ r ih =>
    intro hr j
    show accN m c ((32 * k + r) + 1) j = _
    rw [accN_step m c (32 * k + r) (by omega) j, ih (by omega) j, Finset.sum_range_succ (fun s => tvN m c (32 * k + s) j) (r + 1)] <;> rfl

/-- At the end of a stretch: the sum of its 32 tiles. -/
theorem accN_last (c : Dev nD) (k : ℕ) (j : Fin 6) :
    accN m c (32 * k + 31) j = ∑ s : Fin 32, tvN m c (32 * k + s.val) j :=
  (accN_stretch m c k 31 (by omega) j).trans (Finset.sum_range (fun s => tvN m c (32 * k + s) j))

section Invariant

variable (T : TileLaws) (c : Dev nD)
  (hlab : ∀ (t : Fin cfg0.N) (r : Fin 4096), (lblk m c t (ix2 r 0)).toNat ≤ 80)
include T hlab

/-- THE SCRATCH after position `n` holds the running sum. -/
theorem scratch_eq : ∀ (n : ℕ) (h : n < cfg0.N) (y : S1x6.Idx), (outsAt0 m c n h).2 y = accN m c n (y 1) := by
  intro n
  induction n with
  | zero =>
    intro h y
    have h0 : (⟨0, h⟩ : Fin cfg0.N).val % 32 = 0 := rfl
    have h1 : ¬(⟨0, h⟩ : Fin cfg0.N).val % 32 = 31 := by show ¬(0 % 32 = 31); decide
    rw [outsAt0_A m c ⟨0, h⟩ h0 h1]
    dsimp only
    refine (T.scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr h0) (fun h' => h1 ((hcond0_1 ⟨0, h⟩).mp h')) (xblk m c ⟨0, h⟩) (lblk m c ⟨0, h⟩) (wblk m c ⟨0, h⟩) (eblk m c ⟨0, h⟩) (hlab ⟨0, h⟩) y).trans ?_
    show tv m c ⟨0, h⟩ (y 1) = tvN m c 0 (y 1)
    unfold tvN
    rw [dif_pos h]
  | succ n ih =>
    intro h y
    have hN : cfg0.N = 64 := N_0
    by_cases h0 : (n + 1) % 32 = 0
    · have h1 : ¬(n + 1) % 32 = 31 := by omega
      rw [outsAt0_A m c ⟨n + 1, h⟩ h0 h1]
      dsimp only
      refine (T.scratch_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (fun h' => h1 ((hcond0_1 ⟨n + 1, h⟩).mp h')) (xblk m c ⟨n + 1, h⟩) (lblk m c ⟨n + 1, h⟩) (wblk m c ⟨n + 1, h⟩) (eblk m c ⟨n + 1, h⟩) (hlab ⟨n + 1, h⟩) y).trans ?_
      rw [accN_restart m c (n + 1) h0]
      show tv m c ⟨n + 1, h⟩ (y 1) = tvN m c (n + 1) (y 1)
      unfold tvN
      rw [dif_pos h]
    · by_cases h1 : (n + 1) % 32 = 31
      · rw [outsAt0_C m c ⟨n + 1, h⟩ h0 h1]
        dsimp only
        refine (T.scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => h0 ((hcond0_0 ⟨n + 1, h⟩).mp h')) ((hcond0_1 ⟨n + 1, h⟩).mpr h1) (xblk m c ⟨n + 1, h⟩) (lblk m c ⟨n + 1, h⟩) (wblk m c ⟨n + 1, h⟩) (eblk m c ⟨n + 1, h⟩) (outsAt0 m c n (Nat.lt_of_succ_lt h)).2 (hlab ⟨n + 1, h⟩) y).trans ?_
        rw [ih (Nat.lt_of_succ_lt h) y, accN_step m c n h0 (y 1)]
        show _ + tv m c ⟨n + 1, h⟩ (y 1) = _ + tvN m c (n + 1) (y 1)
        unfold tvN
        rw [dif_pos h]
      · rw [outsAt0_B m c ⟨n + 1, h⟩ h0 h1]
        dsimp only
        refine (T.scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => h0 ((hcond0_0 ⟨n + 1, h⟩).mp h')) (fun h' => h1 ((hcond0_1 ⟨n + 1, h⟩).mp h')) (xblk m c ⟨n + 1, h⟩) (lblk m c ⟨n + 1, h⟩) (wblk m c ⟨n + 1, h⟩) (eblk m c ⟨n + 1, h⟩) (outsAt0 m c n (Nat.lt_of_succ_lt h)).2 (hlab ⟨n + 1, h⟩) y).trans ?_
        rw [ih (Nat.lt_of_succ_lt h) y, accN_step m c n h0 (y 1)]
        show _ + tv m c ⟨n + 1, h⟩ (y 1) = _ + tvN m c (n + 1) (y 1)
        unfold tvN
        rw [dif_pos h]

/-- THE OUTPUT BLOCK at the last point of a stretch holds the running sum there. -/
theorem block_eq (t : Fin cfg0.N) (h0 : ¬t.val % 32 = 0) (h1 : t.val % 32 = 31) (y : S1x1x6.Idx) :
    (outsAt0 m c t.val t.isLt).1 y = accN m c t.val (y 2) := by
  obtain ⟨n, h⟩ := t
  cases n with
  | zero => exact absurd (Nat.zero_mod 32) h0
  | succ n =>
    rw [outsAt0_C m c ⟨n + 1, h⟩ h0 h1]
    dsimp only
    refine (T.block_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => h0 ((hcond0_0 ⟨n + 1, h⟩).mp h')) ((hcond0_1 ⟨n + 1, h⟩).mpr h1) (xblk m c ⟨n + 1, h⟩) (lblk m c ⟨n + 1, h⟩) (wblk m c ⟨n + 1, h⟩) (eblk m c ⟨n + 1, h⟩) (outsAt0 m c n (Nat.lt_of_succ_lt h)).2 (hlab ⟨n + 1, h⟩) y).trans ?_
    rw [scratch_eq m T c hlab n (Nat.lt_of_succ_lt h) (ix2 0 (y 2)), accN_step m c n h0 (y 2)]
    show accN m c n (y 2) + tv m c ⟨n + 1, h⟩ (y 2) = accN m c n (y 2) + tvN m c (n + 1) (y 2)
    unfold tvN
    rw [dif_pos h]

end Invariant

end Cert.Loss.Ker

end
-- ==== Proof.KArr.lean ====
/-
  The grid's output array.  Its block (k, 0, ·) is written back once, after the last point of core k's stretch
  (position 32·k + 31), and then holds core k's running sum over its 32 tiles; the other points leave the array alone.
  So after the grid the array at (k, 0, j) is the sum over core k's tiles of their j-th contribution, and, the blocks
  being tiles of the whole arrays, that is `coreAcc` of the arrays.
-/
import proofs.«415084_j9577777070150_2_alg».proof.Proof.KAcc
import Idealize.ShloMosaic.Lib.Pipeline.Value

set_option maxRecDepth 16384

noncomputable section

namespace Cert.Loss.Ker

open Idealize.ShloMosaic Idealize.ShloMosaic.TcCoe Idealize.SL.Sem Idealize.ShloMosaic.ValueIdx
open Cert.KernelIdeal Cert.KernelIdeal.Gen Cert.KernelIdeal.GenP
open Idealize.ShloMosaic.Pipeline (Dat)

variable (m : (ℓ : Loc nD τ sig) → Buf (Elt Ideal) ℓ)

/-- What the output array ends holding: at (k, 0, j) the running sum at the end of core k's stretch. -/
def coreSums (c : Dev nD) : S2x1x6.Idx → EReal := fun i => accN m c (32 * (i 0).val + 31) (i 2)

/-- The output window's block indices, over the grid: the core's number, then zeros. -/
theorem out_index : ∀ t : Fin cfg0.N,
    win0_4.index t (0 : Fin 3) = t.val / 32 ∧ win0_4.index t (1 : Fin 3) = 0 ∧ win0_4.index t (2 : Fin 3) = 0 :=
  (by decide +kernel : ∀ t : Fin grid0.N, _)

/-- An index of the output array is in point `t`'s block iff each coordinate is in the block's range on its axis. -/
theorem mem_out_blk (t : Fin cfg0.N) (i : S2x1x6.Idx) :
    i ∈ ((cfg0.win 4).blk t).view.set ↔ ∀ a : Fin 3, win0_4.index t a * S1x1x6.size a ≤ (i a).val ∧ (i a).val < win0_4.index t a * S1x1x6.size a + S1x1x6.size a := by
  show i ∈ ((View.whole main_v21).slice (win0_4.rect t)).set ↔ _
  rw [View.set_slice_whole, Rect.mem_set_unit]
  exact Iff.rfl

/-- Every index of the output array is in the block written back at the end of its core's stretch. -/
theorem covered (i : S2x1x6.Idx) :
    ∃ t : Fin cfg0.N, (cfg0.win 4).flush t = true ∧ i ∈ ((cfg0.win 4).blk t).view.set := by
  have hN : cfg0.N = 64 := N_0
  have hi0 : (i 0).val < 2 := (i 0).isLt
  have hi1 : (i 1).val < 1 := (i 1).isLt
  have hi2 : (i 2).val < 6 := (i 2).isLt
  have hlt : 32 * (i 0).val + 31 < cfg0.N := by omega
  obtain ⟨e0, e1, e2⟩ := out_index ⟨32 * (i 0).val + 31, hlt⟩
  have e0' : win0_4.index ⟨32 * (i 0).val + 31, hlt⟩ (0 : Fin 3) = (i 0).val := by rw [e0]; show (32 * (i 0).val + 31) / 32 = _; omega
  refine ⟨⟨32 * (i 0).val + 31, hlt⟩, (flush0_4 _).mpr (by show (32 * (i 0).val + 31) % 32 = 31; omega), ?_⟩
  rw [mem_out_blk]
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 1 ≤ (i 1).val ∧ (i 1).val < win0_4.index _ (1 : Fin 3) * 1 + 1; rw [e1]; omega
  | ⟨2, _⟩ => show win0_4.index _ (2 : Fin 3) * 6 ≤ (i 2).val ∧ (i 2).val < win0_4.index _ (2 : Fin 3) * 6 + 6; rw [e2]; omega

section Array

variable (T : TileLaws) (c : Dev nD)
  (hlab : ∀ (t : Fin cfg0.N) (r : Fin 4096), (lblk m c t (ix2 r 0)).toNat ≤ 80)
include T hlab

/-- What a write-back writes is its block of `coreSums`. -/
theorem flushed_eq (t : Fin cfg0.N) (hf : (cfg0.win 4).flush t = true) :
    (dats m 0 c).flushed 4 t = ((cfg0.win 4).blk t).view.read (Elt Ideal) (coreSums m c) := by
  have h1 : t.val % 32 = 31 := (flush0_4 t).mp hf
  have h0 : ¬t.val % 32 = 0 := by omega
  obtain ⟨e0, e1, e2⟩ := out_index t
  show (cfg0.win 4).cut (grid0.coords t) ((dats m 0 c).after 4 t) = _
  rw [after0_4]
  funext y
  show (outsAt0 m c t.val t.isLt).1 y = coreSums m c (((cfg0.win 4).blk t).view.emb y)
  rw [block_eq m T c hlab t h0 h1 y]
  unfold coreSums
  have ea : ((((cfg0.win 4).blk t).view.emb y) 0).val = t.val / 32 := by
    show win0_4.index t (0 : Fin 3) * 1 + 1 * (y 0).val = _
    rw [e0]; have hy : (y 0).val < 1 := (y 0).isLt; omega
  have eb : (((cfg0.win 4).blk t).view.emb y) 2 = y 2 := Fin.ext (by
    show win0_4.index t (2 : Fin 3) * 6 + 1 * (y 2).val = (y 2).val
    rw [e2]; omega)
  rw [ea, eb]
  congr 1
  omega

/-- THE OUTPUT ARRAY after the grid. -/
theorem out_array : (dats m 0 c).arrAt 4 cfg0.N = coreSums m c :=
  (dats m 0 c).arrAt_eq_of_cover 4 (coreSums m c) (flushed_eq m T c hlab) covered

end Array

/-- With the blocks read as tiles of the whole arrays, `coreSums` is `coreAcc`. -/
theorem coreSums_eq (c : Dev nD) (X : Scores) (L : Labels) (Wt : Weights)
    (hX : xarr m c = X) (hL : larr m c = fun j => L (ix1 (j 0))) (hW : warr m c = fun j => Wt (ix1 (j 0)))
    (hE : earr m c = fun j => enoughFlag L Wt (ix1 (j 0))) (i : S2x1x6.Idx) :
    coreSums m c i = coreAcc X L Wt (i 0) (i 2) := by
  have hN : cfg0.N = 64 := N_0
  have hi0 : (i 0).val < 2 := (i 0).isLt
  unfold coreSums coreAcc
  rw [accN_last m c (i 0).val (i 2)]
  refine Finset.sum_congr rfl fun s _ => ?_
  have hs : s.val < 32 := s.isLt
  have hlt : 32 * (i 0).val + s.val < cfg0.N := by omega
  unfold tvN
  rw [dif_pos hlt]
  unfold tv
  rw [xblk_eq m c ⟨_, hlt⟩, hX, lblk_eq m c ⟨_, hlt⟩ L hL, wblk_eq m c ⟨_, hlt⟩ Wt hW, eblk_eq m c ⟨_, hlt⟩ (enoughFlag L Wt) hE]
  have et : tileNo (⟨32 * (i 0).val + s.val, hlt⟩ : Fin cfg0.N) = ⟨(i 0).val * 32 + s.val, by omega⟩ := Fin.ext (by show 32 * (i 0).val + s.val = (i 0).val * 32 + s.val; omega)
  rw [et]

/-- The labels of every block are class indices when the label array's are. -/
theorem labels_ok (c : Dev nD) (L : Labels) (hL : larr m c = fun j => L (ix1 (j 0))) (hr : LabelsInRange L)
    (t : Fin cfg0.N) (r : Fin 4096) : (lblk m c t (ix2 r 0)).toNat ≤ 80 := by
  rw [lblk_apply, hL]
  exact hr _

end Cert.Loss.Ker

end
-- ==== Proof.KTail.lean ====
/-
  The lines after the grid: the two cores' six sums are added (a reshape of the [2,1,6] array to [2,6] and a sum over
  the core axis from zero), each of the six components is cut out as a scalar, and each group's pair (sum, count) is
  finished as the specification's `finish`: the mean per class pair for a non-empty group, zero for an empty one, times
  the group's weight, capped at one.
-/
import proofs.«415084_j9577777070150_2_alg».proof.Proof.Gen.KernelIdeal.Launch
import proofs.«415084_j9577777070150_2_alg».proof.Proof.Spec
import Idealize.ShloMosaic.Lib.StableHlo.Run
import Idealize.ShloMosaic.Lib.IdealHost
import Idealize.ShloMosaic.Lib.Pipeline.Value
import Idealize.ShloMosaic.PureOps.Ideal.Laws

noncomputable section

namespace Cert.Loss.Ker

open Idealize.ShloMosaic Idealize.ShloMosaic.TcCoe Idealize.SL.Sem Idealize.ShloMosaic.ValueIdx
open Cert.KernelIdeal Cert.KernelIdeal.Gen Idealize.ShloMosaic.StableHlo

/-- Component `j` of the two cores' six sums added. -/
def addedCores (A : S2x1x6.Idx → EReal) (j : Fin 6) : EReal := ∑ k : Fin 2, A (ix3 k 0 j)

/-- Component `off` of the added sums as the lines after the grid cut it out: reshape to [2,6], sum over the core axis
    from zero, slice one entry, reshape to a scalar. -/
def comp (A : S2x1x6.Idx → EReal) (off : Fin 1 → ℕ) (hs : S6.Slices off S1) : S_.Idx → EReal :=
  shapeCast S_ (extractStridedSlice S1 off
    (Host.reduceAdd (shapeCast S2x6 A shapeCasts_S2x1x6_S2x6) (constant (F := Ideal) S_ .f32 0x00000000#32) reducesTo_S2x6_S6_d0 h_S_)
    hs) shapeCasts_S1_S_

theorem reduces_S2x6_S6 : S2x6.Reduces [0] S6 := by decide

/-- It is the sum over the two cores of that component. -/
theorem comp_apply (A : S2x1x6.Idx → EReal) (j : Fin 6) (off : Fin 1 → ℕ) (hoff : off = ![j.val]) (hs : S6.Slices off S1)
    (i : S_.Idx) : comp A off hs i = addedCores A j := by
  subst hoff
  unfold comp addedCores
  rw [shapeCast_apply _ shapeCasts_S1_S_ i (ix1 (0 : Fin 1)) (by rw [Shape.rowMajor_val_one]; rfl)]
  rw [extractStridedSlice_apply ![j.val] _ hs (ix1 (0 : Fin 1)) (ix1 j) (fun a => by
    match a with
    | ⟨0, _⟩ => show j.val = j.val + 0; omega)]
  rw [hostReduceAdd_apply, Ideal.hostReduceAdd_single reducesTo_S2x6_S6_d0 reduces_S2x6_S6]
  show Ideal.ofBits .f32 0x00000000#32 + _ = _
  rw [Ideal.ofBits_zero_f32, zero_add]
  refine Finset.sum_congr rfl fun k _ => ?_
  refine shapeCast_apply A shapeCasts_S2x1x6_S2x6 _ (ix3 k 0 j) ?_
  rw [Shape.rowMajor_val_three, Shape.rowMajor_val_two]
  show (k.val * 1 + 0) * 6 + j.val = k.val * 6 + j.val
  omega

/-- A group's last lines — compare the count with zero, divide the sum by `max(count, 1) · 80`, select, times the
    weight, cap at one — are the specification's `finish`. -/
theorem group_eq (s n : S_.Idx → EReal) (w : BitVec 32) :
    minimumf (mulf (select (cmpf .ogt n (constant (F := Ideal) S_ .f32 0x00000000#32))
        (Host.divf s (mulf (maximumf n (constant (F := Ideal) S_ .f32 0x3F800000#32)) (constant (F := Ideal) S_ .f32 0x42A00000#32)))
        (id (constant (F := Ideal) S_ .f32 0x00000000#32)))
      (constant (F := Ideal) S_ .f32 w)) (constant (F := Ideal) S_ .f32 0x3F800000#32)
      = fun _ => finish (s ix0) (n ix0) w := by
  funext i
  obtain rfl := eq_ix0 i
  rfl

/-! ## The three results, off any contents of the grid's output array -/

theorem tail_base (W : Valuation τ sig (Elt Ideal)) :
    StableHlo.after (List.flatten [hostOps1, hostOps1_1, hostOps1_2, hostOps1_3, hostOps1_4, hostOps1_5, hostOps1_6]) W (Proc.devRef .tc main_v42)
      = fun _ => finish (addedCores (W (Proc.devRef .tc main_v21)) 0) (addedCores (W (Proc.devRef .tc main_v21)) 1) 0x3D088889#32 := by
  simp only [hostOps1, hostOps1_1, hostOps1_2, hostOps1_3, hostOps1_4, hostOps1_5, hostOps1_6, List.flatten_cons, List.flatten_nil, List.append_nil, List.cons_append, List.nil_append]
  after_results_simp
  refine Eq.trans ?_ ((group_eq (comp (W (Proc.devRef .tc main_v21)) ![0] slices_S6_S1_0) (comp (W (Proc.devRef .tc main_v21)) ![1] slices_S6_S1_1) 0x3D088889#32).trans ?_)
  · rfl
  · funext _
    rw [comp_apply (W (Proc.devRef .tc main_v21)) 0 ![0] rfl, comp_apply (W (Proc.devRef .tc main_v21)) 1 ![1] rfl]

theorem tail_novel (W : Valuation τ sig (Elt Ideal)) :
    StableHlo.after (List.flatten [hostOps1, hostOps1_1, hostOps1_2, hostOps1_3, hostOps1_4, hostOps1_5, hostOps1_6]) W (Proc.devRef .tc main_v49)
      = fun _ => finish (addedCores (W (Proc.devRef .tc main_v21)) 2) (addedCores (W (Proc.devRef .tc main_v21)) 3) 0x3DCCCCCD#32 := by
  simp only [hostOps1, hostOps1_1, hostOps1_2, hostOps1_3, hostOps1_4, hostOps1_5, hostOps1_6, List.flatten_cons, List.flatten_nil, List.append_nil, List.cons_append, List.nil_append]
  after_results_simp
  refine Eq.trans ?_ ((group_eq (comp (W (Proc.devRef .tc main_v21)) ![2] slices_S6_S1_2) (comp (W (Proc.devRef .tc main_v21)) ![3] slices_S6_S1_3) 0x3DCCCCCD#32).trans ?_)
  · rfl
  · funext _
    rw [comp_apply (W (Proc.devRef .tc main_v21)) 2 ![2] rfl, comp_apply (W (Proc.devRef .tc main_v21)) 3 ![3] rfl]

theorem tail_neg (W : Valuation τ sig (Elt Ideal)) :
    StableHlo.after (List.flatten [hostOps1, hostOps1_1, hostOps1_2, hostOps1_3, hostOps1_4, hostOps1_5, hostOps1_6]) W (Proc.devRef .tc main_v56)
      = fun _ => finish (addedCores (W (Proc.devRef .tc main_v21)) 4) (addedCores (W (Proc.devRef .tc main_v21)) 5) 0x3A83126F#32 := by
  simp only [hostOps1, hostOps1_1, hostOps1_2, hostOps1_3, hostOps1_4, hostOps1_5, hostOps1_6, List.flatten_cons, List.flatten_nil, List.append_nil, List.cons_append, List.nil_append]
  after_results_simp
  refine Eq.trans ?_ ((group_eq (comp (W (Proc.devRef .tc main_v21)) ![4] slices_S6_S1_4) (comp (W (Proc.devRef .tc main_v21)) ![5] slices_S6_S1_5) 0x3A83126F#32).trans ?_)
  · rfl
  · funext _
    rw [comp_apply (W (Proc.devRef .tc main_v21)) 4 ![4] rfl, comp_apply (W (Proc.devRef .tc main_v21)) 5 ![5] rfl]

end Cert.Loss.Ker

end
-- ==== Proof.KOut.lean ====
/-
  The kernel program's run with its three results named.  After the grid the output array holds each core's six sums
  (`coreAcc`); the lines after the grid add the two cores' sums (`gridAcc`) and finish each group's pair as the
  specification's `finish`.  Stated here from the per-tile facts and the facts about the columns prepared before the
  grid, both as hypotheses.
-/
import proofs.«415084_j9577777070150_2_alg».proof.Proof.KArr
import proofs.«415084_j9577777070150_2_alg».proof.Proof.KTail

set_option maxRecDepth 16384

noncomputable section

namespace Cert.Loss.Ker

open Idealize.ShloMosaic Idealize.ShloMosaic.TcCoe Idealize.SL.Sem Idealize.ShloMosaic.ValueIdx
open Cert.KernelIdeal Cert.KernelIdeal.Gen Cert.KernelIdeal.GenP
open Idealize.ShloMosaic.Pipeline (Dat)

variable (m : (ℓ : Loc nD τ sig) → Buf (Elt Ideal) ℓ) (ρ : Dev nD → PrngReg)

/-- The three argument arrays on core `c`, as the program is launched. -/
abbrev Xa (c : Dev nD) : Scores := m ((c.tc : Thread nD τ).loc main_arg0)
abbrev La (c : Dev nD) : Labels := m ((c.tc : Thread nD τ).loc main_arg1)
abbrev Wa (c : Dev nD) : Weights := m ((c.tc : Thread nD τ).loc main_arg2)

section Results

variable (T : TileLaws) (c : Dev nD)
  (h17 : larr m c = fun j => La m c (ix1 (j 0)))
  (h18 : warr m c = fun j => Wa m c (ix1 (j 0)))
  (h20 : earr m c = fun j => enoughFlag (La m c) (Wa m c) (ix1 (j 0)))

include h17 h18 h20 in
/-- The two cores' sums added are `gridAcc` of the argument arrays. -/
theorem added_eq (j : Fin 6) : addedCores (coreSums m c) j = gridAcc (Xa m c) (La m c) (Wa m c) j := by
  unfold addedCores gridAcc
  refine Finset.sum_congr rfl fun k _ => ?_
  exact coreSums_eq m c (Xa m c) (La m c) (Wa m c) (V_main_arg0 m c) h17 h18 h20 (ix3 k 0 j)

variable (hlab : ∀ (t : Fin cfg0.N) (r : Fin 4096), (lblk m c t (ix2 r 0)).toNat ≤ 80)

include T hlab in
/-- What the lines after the grid find in the output array. -/
theorem out_read : Pipeline.withArrays (cfgs 0).spec c (V0 m c) (fun w => (dats m 0 c).arrAt w (cfgs 0).N) (Proc.devRef .tc main_v21)
    = coreSums m c :=
  (Pipeline.withArrays_arr spec0 launch0.win.arr_inj c _ _ 4).trans (out_array m T c hlab)

include T hlab h17 h18 h20

theorem result_base : Pipeline.afterTail₀ cfgs (dats m) 0 (V0 m) [hostOps1, hostOps1_1, hostOps1_2, hostOps1_3, hostOps1_4, hostOps1_5, hostOps1_6] c main_v42
    = fun _ => finish (gridAcc (Xa m c) (La m c) (Wa m c) 0) (gridAcc (Xa m c) (La m c) (Wa m c) 1) 0x3D088889#32 := by
  unfold Pipeline.afterTail₀
  refine (tail_base _).trans ?_
  rw [out_read m T c hlab, added_eq m c h17 h18 h20 0, added_eq m c h17 h18 h20 1]

theorem result_novel : Pipeline.afterTail₀ cfgs (dats m) 0 (V0 m) [hostOps1, hostOps1_1, hostOps1_2, hostOps1_3, hostOps1_4, hostOps1_5, hostOps1_6] c main_v49
    = fun _ => finish (gridAcc (Xa m c) (La m c) (Wa m c) 2) (gridAcc (Xa m c) (La m c) (Wa m c) 3) 0x3DCCCCCD#32 := by
  unfold Pipeline.afterTail₀
  refine (tail_novel _).trans ?_
  rw [out_read m T c hlab, added_eq m c h17 h18 h20 2, added_eq m c h17 h18 h20 3]

theorem result_neg : Pipeline.afterTail₀ cfgs (dats m) 0 (V0 m) [hostOps1, hostOps1_1, hostOps1_2, hostOps1_3, hostOps1_4, hostOps1_5, hostOps1_6] c main_v56
    = fun _ => finish (gridAcc (Xa m c) (La m c) (Wa m c) 4) (gridAcc (Xa m c) (La m c) (Wa m c) 5) 0x3A83126F#32 := by
  unfold Pipeline.afterTail₀
  refine (tail_neg _).trans ?_
  rw [out_read m T c hlab, added_eq m c h17 h18 h20 4, added_eq m c h17 h18 h20 5]

end Results

/-- THE RUN from the per-tile facts and the prepared columns. -/
theorem kernel_run_of (T : TileLaws)
    (hL : ∀ c : Dev nD, LabelsInRange (La m c))
    (h17 : ∀ c : Dev nD, larr m c = fun j => La m c (ix1 (j 0)))
    (h18 : ∀ c : Dev nD, warr m c = fun j => Wa m c (ix1 (j 0)))
    (h20 : ∀ c : Dev nD, earr m c = fun j => enoughFlag (La m c) (Wa m c) (ix1 (j 0))) :
    θ_run (defs (F := Ideal)) (onTc (τ := τ) (main (F := Ideal))) ⟨m, fun _ => 0, ρ⟩ (fun r => ∀ c : Dev nD,
      r.2.mem ((c.tc : Thread nD τ).loc main_v42) = (fun _ => finish (gridAcc (Xa m c) (La m c) (Wa m c) 0) (gridAcc (Xa m c) (La m c) (Wa m c) 1) 0x3D088889#32)
      ∧ r.2.mem ((c.tc : Thread nD τ).loc main_v49) = (fun _ => finish (gridAcc (Xa m c) (La m c) (Wa m c) 2) (gridAcc (Xa m c) (La m c) (Wa m c) 3) 0x3DCCCCCD#32)
      ∧ r.2.mem ((c.tc : Thread nD τ).loc main_v56) = (fun _ => finish (gridAcc (Xa m c) (La m c) (Wa m c) 4) (gridAcc (Xa m c) (La m c) (Wa m c) 5) 0x3A83126F#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    have hlab := labels_ok m c (La m c) (h17 c) (hL c)
    ⟨((h c).2 main_v42 (Pipeline.mem_restRefs_of main_v42 (by decide) (by decide))).trans (result_base m T c (h17 c) (h18 c) (h20 c) hlab),
     ((h c).2 main_v49 (Pipeline.mem_restRefs_of main_v49 (by decide) (by decide))).trans (result_novel m T c (h17 c) (h18 c) (h20 c) hlab),
     ((h c).2 main_v56 (Pipeline.mem_restRefs_of main_v56 (by decide) (by decide))).trans (result_neg m T c (h17 c) (h18 c) (h20 c) hlab),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Loss.Ker

end
-- ==== Proof.KPieces.lean ====
/-
  What one grid point's stores leave in the kernel's 1×6 accumulator, as a list of stores over the point's four input
  blocks — at any float instance.

  The body makes six stores of one cell each: column `j` of the accumulator receives the cell it held before plus the
  tile's `j`-th sum (base sum, base count, novel sum, novel count, background sum, background count), each sum a
  function of the point's blocks of scores, labels, weights and "enough samples" flags.  `cells` names that list once,
  over the contents `a` the accumulator held before the six stores.  In the first point of a core's 32 the body first
  stores zeros over the whole accumulator, so the six cells are read back from that store (`pieces_A`: `a` is the zero
  store's payload, and the zero store stays last in the list); in the other points `a` is what the point before left
  (`pieces_B`, `pieces_C`); in the last point of a core's 32 the body also copies the whole accumulator, read back
  after the six stores, into the output block (`pieces_C_out`).
-/
import proofs.«415084_j9577777070150_2_alg».proof.Proof.KIRunC
import Idealize.ShloMosaic.Lib.Pipeline.Value
import Idealize.ShloMosaic.Lib.Pipeline.CanonAppend
import Idealize.ShloMosaic.Lib.Tactic

set_option maxRecDepth 16384

noncomputable section

namespace Cert.Loss.Ker

open Idealize.ShloMosaic Idealize.ShloMosaic.TcCoe Idealize.ShloMosaic.Tactic Idealize.SL.Sem
open Cert.KernelIdeal Cert.KernelIdeal.Gen Cert.KernelIdeal.GenP

variable {F : FTy → Type} [FloatOps F]

/-- `![0, 0]` is the zero offset. -/
theorem hz2 : (![0, 0] : Fin 2 → Nat) = fun _ => 0 := funext fun a => by fin_cases a <;> rfl

/-- `![0, 0, 0]` is the zero offset. -/
theorem hz3 : (![0, 0, 0] : Fin 3 → Nat) = fun _ => 0 := funext fun a => by fin_cases a <;> rfl

/-- The column of the tile's 4096 row sums, as the body forms it from the blocks of scores and labels: out of the
    one-hot of each row's label, the labelled class's probability, minus the logarithm of the clipped margins, and
    the cap 5. -/
abbrev rowSums (x0 : Vec F S4096x81 .f32) (x1 : Vec F S4096x1 .i32) : FVec F S4096x1 .f32 :=
  k0_pay12 (k0_pay8 x1) (k0_pay9 x0 x1) (k0_pay10 x0 x1) (k0_pay11 (F := F))

/-- The six stores of one grid point into the 1×6 accumulator that held `a` before them, last store first: column `j`
    receives the loaded cell `a[0, j]` plus the tile's `j`-th sum (base sum, base count, novel sum, novel count,
    background sum, background count). -/
def cells (x0 : Vec F S4096x81 .f32) (x1 : Vec F S4096x1 .i32) (x2 x3 : Vec F S4096x1 .f32) (a : Vec F S1x6 .f32) :
    List (View.Piece (Elt F) S1x6 .f32) :=
  [⟨Rect.unit ![0, 5] ![1, 1] inb_S1x6_S1x1_0_5,
      k0_pay1 (k0_pay22 (k0_pay16 (k0_pay4 x1) (k0_pay5 x2))) (View.ld a (Rect.unit ![0, 5] ![1, 1] inb_S1x6_S1x1_0_5))⟩,
   ⟨Rect.unit ![0, 4] ![1, 1] inb_S1x6_S1x1_0_4,
      k0_pay27 (rowSums x0 x1) (k0_pay16 (k0_pay4 x1) (k0_pay5 x2)) (k0_pay17 (F := F))
        (View.ld a (Rect.unit ![0, 4] ![1, 1] inb_S1x6_S1x1_0_4))⟩,
   ⟨Rect.unit ![0, 3] ![1, 1] inb_S1x6_S1x1_0_3,
      k0_pay26 (k0_pay21 (k0_pay4 x1) (k0_pay5 x2) (k0_pay6 x3)) (View.ld a (Rect.unit ![0, 3] ![1, 1] inb_S1x6_S1x1_0_3))⟩,
   ⟨Rect.unit ![0, 2] ![1, 1] inb_S1x6_S1x1_0_2,
      k0_pay25 (k0_pay20 (k0_pay4 x1) (k0_pay5 x2) (k0_pay6 x3) (k0_pay8 x1) (k0_pay9 x0 x1) (k0_pay10 x0 x1) (k0_pay11 (F := F)))
        (View.ld a (Rect.unit ![0, 2] ![1, 1] inb_S1x6_S1x1_0_2))⟩,
   ⟨Rect.unit ![0, 1] ![1, 1] inb_S1x6_S1x1_0_1,
      k0_pay24 (k0_pay19 (k0_pay4 x1) (k0_pay5 x2) (k0_pay6 x3)) (View.ld a (Rect.unit ![0, 1] ![1, 1] inb_S1x6_S1x1_0_1))⟩,
   ⟨Rect.unit ![0, 0] ![1, 1] inb_S1x6_S1x1_0_0,
      k0_pay23 (k0_pay18 (k0_pay4 x1) (k0_pay5 x2) (k0_pay6 x3) (k0_pay8 x1) (k0_pay9 x0 x1) (k0_pay10 x0 x1) (k0_pay11 (F := F)))
        (View.ld a (Rect.unit ![0, 0] ![1, 1] inb_S1x6_S1x1_0_0))⟩]

/-- A load of column `j` of the accumulator after a store into another column `i` reads what the earlier stores left. -/
theorem readCov_skip {sig : RefSig} {κ : Kind} {sp : Space} (v : View sig κ sp S1x6 .f32) (i j : ℕ)
    (hi : ∀ a, (![0, i] : Fin 2 → ℕ) a + (![1, 1] : Fin 2 → ℕ) a ≤ S1x6.size a)
    (hj : ∀ a, (![0, j] : Fin 2 → ℕ) a + (![1, 1] : Fin 2 → ℕ) a ≤ S1x6.size a)
    (w : (Rect.unit (s := S1x6) ![0, i] ![1, 1] hi).shape.Idx → Elt F .f32) (L : List (View.Piece (Elt F) S1x6 .f32)) (hij : i ≠ j) :
    v.readCov ((⟨Rect.unit ![0, i] ![1, 1] hi, w⟩ : View.Piece (Elt F) S1x6 .f32) :: L) (Rect.unit (s := S1x6) ![0, j] ![1, 1] hj).toLoadRect
      = v.readCov L (Rect.unit (s := S1x6) ![0, j] ![1, 1] hj).toLoadRect :=
  View.readCov_cons_of_disjoint v _ L _ (Rect.unit_disjoint (inb := hi) (inb' := hj) 1 (by show i + 1 ≤ j ∨ j + 1 ≤ i; omega))

/-- A load after one store of the whole accumulator reads that store's payload through the load's rectangle. -/
theorem readCov_whole {sig : RefSig} {κ : Kind} {sp : Space} (v : View sig κ sp S1x6 .f32) (w : S1x6.Idx → Elt F .f32) (r : Rect S1x6) :
    v.readCov [(⟨Rect.unit ![0, 0] ![1, 6] inb_S1x6_S1x6_0_0, w⟩ : View.Piece (Elt F) S1x6 .f32)] r.toLoadRect = View.ld w r := by
  rw [View.readCov_eq_canon']
  funext x
  exact congrFun (View.canon_unit_zero (S := S1x6) hz2 inb_S1x6_S1x6_0_0 w) (r.idx x)

/-- CASE A (the first point of a core's 32): the body zeroes the accumulator, then its six stores add the tile's sums
    to the zeros it reads back. -/
theorem pieces_A (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : cond0_0 i) (hc1 : ¬cond0_1 i)
    (x0 : Vec F S4096x81 .f32) (x1 : Vec F S4096x1 .i32) (x2 : Vec F S4096x1 .f32) (x3 : Vec F S4096x1 .f32) :
    VS0_0.read (Elt F) (VS0_0.writes (Elt F) VS0_0.junk (kernelRun0_A c i arg2 harg2 arg3 harg3 arg4 harg4 arg5 harg5 arg6 harg6 arg7 harg7 hc0 hc1 x0 x1 x2 x3).2.1)
      = View.canon (cells x0 x1 x2 x3 (k0_pay3 (F := F)) ++ [(⟨Rect.unit ![0, 0] ![1, 6] inb_S1x6_S1x6_0_0, k0_pay3 (F := F)⟩ : View.Piece (Elt F) S1x6 .f32)]) := by
  rw [View.read_writes_junk_eq_canon]
  unfold kernelRun0_A
  dsimp only
  sl_unfold_words
  simp only [View.readAt_eq_ld, harg2.read_unread, harg3.read_unread, harg4.read_unread, harg5.read_unread, harg7.read_unread,
    View.ld_unit_zero (S := S4096x81) hz2, View.ld_unit_zero (S := S4096x1) hz2,
    readCov_skip _ 0 1 _ _ _ _ (by decide), readCov_skip _ 0 2 _ _ _ _ (by decide), readCov_skip _ 1 2 _ _ _ _ (by decide), readCov_skip _ 0 3 _ _ _ _ (by decide), readCov_skip _ 1 3 _ _ _ _ (by decide), readCov_skip _ 2 3 _ _ _ _ (by decide), readCov_skip _ 0 4 _ _ _ _ (by decide), readCov_skip _ 1 4 _ _ _ _ (by decide), readCov_skip _ 2 4 _ _ _ _ (by decide), readCov_skip _ 3 4 _ _ _ _ (by decide), readCov_skip _ 0 5 _ _ _ _ (by decide), readCov_skip _ 1 5 _ _ _ _ (by decide), readCov_skip _ 2 5 _ _ _ _ (by decide), readCov_skip _ 3 5 _ _ _ _ (by decide), readCov_skip _ 4 5 _ _ _ _ (by decide), readCov_whole]
  rfl

/-- CASE B (a point that is neither first nor last of its core's 32): the six stores add the tile's sums to the
    accumulator the point before left. -/
theorem pieces_B (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : ¬cond0_0 i) (hc1 : ¬cond0_1 i)
    (x0 : Vec F S4096x81 .f32) (x1 : Vec F S4096x1 .i32) (x2 : Vec F S4096x1 .f32) (x3 : Vec F S4096x1 .f32) (xs0 : Vec F S1x6 .f32) :
    VS0_0.read (Elt F) (VS0_0.writes (Elt F) VS0_0.junk (kernelRun0_B c i arg2 harg2 arg3 harg3 arg4 harg4 arg5 harg5 arg6 harg6 arg7 harg7 hc0 hc1 x0 x1 x2 x3 xs0).2.1) = View.canon (cells x0 x1 x2 x3 xs0) := by
  rw [View.read_writes_junk_eq_canon]
  unfold kernelRun0_B
  dsimp only
  sl_unfold_words
  simp only [View.readAt_eq_ld, harg2.read_unread, harg3.read_unread, harg4.read_unread, harg5.read_unread, harg7.read_unread,
    View.ld_unit_zero (S := S4096x81) hz2, View.ld_unit_zero (S := S4096x1) hz2]
  rfl

/-- CASE C (the last point of a core's 32), the accumulator: as in case B. -/
theorem pieces_C (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : ¬cond0_0 i) (hc1 : cond0_1 i)
    (x0 : Vec F S4096x81 .f32) (x1 : Vec F S4096x1 .i32) (x2 : Vec F S4096x1 .f32) (x3 : Vec F S4096x1 .f32) (xs0 : Vec F S1x6 .f32) :
    VS0_0.read (Elt F) (VS0_0.writes (Elt F) VS0_0.junk (kernelRun0_C c i arg2 harg2 arg3 harg3 arg4 harg4 arg5 harg5 arg6 harg6 arg7 harg7 hc0 hc1 x0 x1 x2 x3 xs0).2.1) = View.canon (cells x0 x1 x2 x3 xs0) := by
  rw [View.read_writes_junk_eq_canon]
  unfold kernelRun0_C
  dsimp only
  sl_unfold_words
  simp only [View.readAt_eq_ld, harg2.read_unread, harg3.read_unread, harg4.read_unread, harg5.read_unread, harg7.read_unread,
    View.ld_unit_zero (S := S4096x81) hz2, View.ld_unit_zero (S := S4096x1) hz2]
  rfl

/-- CASE C, the output block: the whole accumulator, read back after the six stores, reshaped to 1×1×6. -/
theorem pieces_C_out (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : ¬cond0_0 i) (hc1 : cond0_1 i)
    (x0 : Vec F S4096x81 .f32) (x1 : Vec F S4096x1 .i32) (x2 : Vec F S4096x1 .f32) (x3 : Vec F S4096x1 .f32) (xs0 : Vec F S1x6 .f32) :
    VO0_4.read (Elt F) (VO0_4.writes (Elt F) VO0_4.junk (kernelRun0_C c i arg2 harg2 arg3 harg3 arg4 harg4 arg5 harg5 arg6 harg6 arg7 harg7 hc0 hc1 x0 x1 x2 x3 xs0).1) = k0_pay2 (View.canon (cells x0 x1 x2 x3 xs0)) := by
  rw [View.read_writes_junk_eq_canon]
  unfold kernelRun0_C
  dsimp only
  sl_unfold_words
  simp only [View.readAt_eq_ld, harg2.read_unread, harg3.read_unread, harg4.read_unread, harg5.read_unread, harg7.read_unread,
    View.ld_unit_zero (S := S4096x81) hz2, View.ld_unit_zero (S := S4096x1) hz2]
  refine (View.canon_unit_zero (S := S1x1x6) hz3 inb_S1x1x6_S1x1x6_0_0_0 _).trans ?_
  refine congrArg k0_pay2 ?_
  rw [View.readCov_eq_canon']
  exact View.ld_unit_zero (S := S1x6) hz2 inb_S1x6_S1x6_0_0 _

end Cert.Loss.Ker

end
-- ==== Proof.KRow.lean ====
/-
  The kernel body's row arithmetic at the extended reals, read at one row of a tile: the softmax probabilities (row
  maximum, exponentials, their sum), the label's one-hot along the classes, the labelled probability as a one-hot sum,
  minus the logarithm of the clipped margin (written `0 - log`), the squared clipped slack, the weighted terms, the
  label's own term as a one-hot sum, and the row sum less that term.
-/
import proofs.«415084_j9577777070150_2_alg».proof.Proof.Gen.KernelIdeal.Skeleton
import proofs.«415084_j9577777070150_2_alg».proof.Proof.KSpec
import proofs.«415084_j9577777070150_2_alg».proof.Proof.RowLaws
import Idealize.ShloMosaic.PureOps.Ideal.Laws
import Idealize.ShloMosaic.Lib.ValueIdx
import Idealize.ShloMosaic.Lib.Pipeline.Value

noncomputable section

namespace Cert.Loss.Ker

open Idealize.ShloMosaic Idealize.ShloMosaic.ValueIdx
open Cert.KernelIdeal Cert.KernelIdeal.Gen

/-! ## Layout operations of the tile read at explicit coordinates -/

/-- A vector of 4096 entries reshaped to a column reads entry `r` at `(r, 0)`. -/
private theorem col_apply {α : Type} (v : S4096.Idx → α) (h : S4096.ShapeCasts S4096x1) (r : Fin 4096) :
    shapeCast S4096x1 v h (ix2 r 0) = v (ix1 r) :=
  shapeCast_apply v h (ix2 r 0) (ix1 r) (by
    rw [Shape.rowMajor_val_one, Shape.rowMajor_val_two]
    show r.val = r.val * 1 + 0
    omega)

/-- A column broadcast along the 81 classes reads its row's entry. -/
private theorem bcast_apply {α : Type} (v : S4096x1.Idx → α) (h : S4096x1.Broadcasts S4096x81) (r : Fin 4096) (c : Fin 81) :
    broadcastTo S4096x81 v h (ix2 r c) = v (ix2 r 0) :=
  broadcastTo_apply v h (ix2 r c) (ix2 r 0) (fun a => match a with
    | ⟨0, _⟩ => rfl
    | ⟨1, _⟩ => rfl)

/-- Inserting class `c` on axis 1 into row index `r` gives `(r, c)`. -/
private theorem lift_row (h : S4096x81.Reduces [1] S4096) (r : Fin 4096) (c : Fin 81) :
    h.lift (ix1 r) c = ix2 r c := by
  funext a; match a with
  | ⟨0, _⟩ => rfl
  | ⟨1, _⟩ => rfl

/-- A row's sum over the 81 classes. -/
private theorem rowAdd_apply (v : FVec Ideal S4096x81 .f32) (h : S4096x81.Reduces [1] S4096) (hφ : FKind.Formats .f32)
    (hacc : (0x00000000#32 : BitVec 32) = FKind.add.neutral .f32 hφ) (r : Fin 4096) :
    multiReduction .add [1] S4096 v 0x00000000#32 h hφ hacc (ix1 r) = ∑ c : Fin 81, v (ix2 r c) := by
  refine (Ideal.multiReduction_add_single v _ h hφ hacc (ix1 r)).trans ?_
  exact Finset.sum_congr rfl fun c _ => congrArg v (lift_row h r c)

/-- A row's maximum over the 81 classes, folded from −∞. -/
private theorem rowMax_apply (v : FVec Ideal S4096x81 .f32) (h : S4096x81.Reduces [1] S4096) (hφ : FKind.Formats .f32)
    (hacc : (0xFF800000#32 : BitVec 32) = FKind.maximumf.neutral .f32 hφ) (r : Fin 4096) :
    multiReduction .maximumf [1] S4096 v 0xFF800000#32 h hφ hacc (ix1 r) = rowMax (fun c => v (ix2 r c)) := by
  refine (Ideal.multiReduction_maximumf_single v _ h hφ hacc (ix1 r)).trans ?_
  unfold rowMax
  show (Finset.univ : Finset (Fin 81)).fold max (Ideal.ofBits .f32 0xFF800000#32) (fun c => v (h.lift (ix1 r) c)) = _
  exact congrArg (fun g : Fin 81 → EReal => (Finset.univ : Finset (Fin 81)).fold max (Ideal.ofBits .f32 0xFF800000#32) g)
    (funext fun c => congrArg v (lift_row h r c))

/-! ## The probabilities -/

/-- The softmax of a row: `exp` of the score less the row's maximum, over the row's sum of those. -/
theorem pay7_apply (v3 : FVec Ideal S4096x81 .f32) (r : Fin 4096) (c : Fin 81) :
    k0_pay7 (F := Ideal) v3 (ix2 r c) = prob (tileRow v3 r) c := by
  have hφ : FKind.Formats .f32 := .inl rfl
  have hmax : (0xFF800000#32 : BitVec 32) = FKind.maximumf.neutral .f32 hφ := rfl
  have hadd : (0x00000000#32 : BitVec 32) = FKind.add.neutral .f32 hφ := rfl
  have hE : ∀ c' : Fin 81, (exp (subf v3 (broadcastTo S4096x81 (shapeCast S4096x1 (multiReduction .maximumf [1] S4096 v3 0xFF800000#32 reduces_S4096x81_S4096 hφ hmax) shapeCasts_S4096_S4096x1) broadcasts_S4096x1_S4096x81))) (ix2 r c') = expo (tileRow v3 r) c' := by
    intro c'
    show Ideal.exp (v3 (ix2 r c') - (broadcastTo S4096x81 (shapeCast S4096x1 (multiReduction .maximumf [1] S4096 v3 0xFF800000#32 reduces_S4096x81_S4096 hφ hmax) shapeCasts_S4096_S4096x1) broadcasts_S4096x1_S4096x81) (ix2 r c')) = _
    rw [bcast_apply, col_apply, rowMax_apply]
    rfl
  show Ideal.div ((exp (subf v3 (broadcastTo S4096x81 (shapeCast S4096x1 (multiReduction .maximumf [1] S4096 v3 0xFF800000#32 reduces_S4096x81_S4096 hφ hmax) shapeCasts_S4096_S4096x1) broadcasts_S4096x1_S4096x81))) (ix2 r c)) ((broadcastTo S4096x81 (shapeCast S4096x1 (multiReduction .add [1] S4096 (exp (subf v3 (broadcastTo S4096x81 (shapeCast S4096x1 (multiReduction .maximumf [1] S4096 v3 0xFF800000#32 reduces_S4096x81_S4096 hφ hmax) shapeCasts_S4096_S4096x1) broadcasts_S4096x1_S4096x81))) 0x00000000#32 reduces_S4096x81_S4096 hφ hadd) shapeCasts_S4096_S4096x1) broadcasts_S4096x1_S4096x81) (ix2 r c)) = _
  rw [bcast_apply, col_apply, rowAdd_apply]
  simp only [hE]
  rfl

/-! ## The one-hot of the label -/

/-- The one-hot of the row's label along the classes, as floats. -/
theorem pay8_apply (v4 : IVec S4096x1 32) (r : Fin 4096) (c : Fin 81) :
    k0_pay8 (F := Ideal) v4 (ix2 r c)
      = if IntOp.cmpi .eq (v4 (ix2 r 0)) (BitVec.ofNat 32 c.val) = 1#1 then (1 : EReal) else 0 := by
  show sitofp (F := Ideal) .f32 (extui 32 (cmpi .eq (broadcastTo S4096x81 (shapeCast S4096x1 v4 shapeCasts_S4096x1_S4096x1) broadcasts_S4096x1_S4096x81)
    (iota .tc S4096x81 32 [1] iota_S4096x81_d1_w32)) natLt_1_32) (ix2 r c) = _
  rw [sitofp_extui_apply]
  show (if IntOp.cmpi .eq (broadcastTo S4096x81 (shapeCast S4096x1 v4 shapeCasts_S4096x1_S4096x1) broadcasts_S4096x1_S4096x81 (ix2 r c))
    (iota .tc S4096x81 32 [1] iota_S4096x81_d1_w32 (ix2 r c)) = 1#1 then (1 : EReal) else 0) = _
  rw [bcast_apply, shapeCast_self, iota_single_apply .tc S4096x81 32 1 iota_S4096x81_d1_w32 (ix2 r c)]

/-! ## The labelled probability -/

theorem pay9_apply (v3 : FVec Ideal S4096x81 .f32) (v4 : IVec S4096x1 32) (r : Fin 4096) (hl : (v4 (ix2 r 0)).toNat ≤ 80) :
    k0_pay9 (F := Ideal) v3 v4 (ix2 r 0) = prob (tileRow v3 r) (cls (v4 (ix2 r 0))) := by
  have hφ : FKind.Formats .f32 := .inl rfl
  have hmax : (0xFF800000#32 : BitVec 32) = FKind.maximumf.neutral .f32 hφ := rfl
  have hadd : (0x00000000#32 : BitVec 32) = FKind.add.neutral .f32 hφ := rfl
  show (shapeCast S4096x1 (multiReduction .add [1] S4096 (mulf (k0_pay7 (F := Ideal) v3) (k0_pay8 (F := Ideal) v4)) 0x00000000#32 reduces_S4096x81_S4096 hφ hadd) shapeCasts_S4096_S4096x1) (ix2 r 0) = _
  rw [col_apply, rowAdd_apply]
  show (∑ c : Fin 81, k0_pay7 (F := Ideal) v3 (ix2 r c) * k0_pay8 (F := Ideal) v4 (ix2 r c)) = _
  simp only [pay7_apply, pay8_apply]
  exact oneHot_sum (prob (tileRow v3 r)) (v4 (ix2 r 0)) hl

/-! ## Minus the logarithm of the clipped margin -/

theorem pay10_apply (v3 : FVec Ideal S4096x81 .f32) (v4 : IVec S4096x1 32) (r : Fin 4096) (hl : (v4 (ix2 r 0)).toNat ≤ 80)
    (c : Fin 81) :
    k0_pay10 (F := Ideal) v3 v4 (ix2 r c)
      = -(Ideal.log (clipMargin (prob (tileRow v3 r) (cls (v4 (ix2 r 0))) - prob (tileRow v3 r) c))) := by
  show Ideal.ofBits .f32 0x00000000#32 - Ideal.log (min (Ideal.ofBits .f32 0x3F800000#32) (max (Ideal.ofBits .f32 0x3A83126F#32)
    ((broadcastTo S4096x81 (k0_pay9 (F := Ideal) v3 v4) broadcasts_S4096x1_S4096x81) (ix2 r c) - k0_pay7 (F := Ideal) v3 (ix2 r c)))) = _
  rw [bcast_apply, pay9_apply v3 v4 r hl, pay7_apply, zero_sub_eq_neg]
  rfl

/-! ## The row sum -/

/-- The last payload over any one-hot `h`, labelled probability `p`, term `t` and cap `m`: with `s` the clipped
    `1 - p`, the sum over the classes of `s·s·min(t, m)` less the sum of `s·s·min(t, m)·h`. -/
theorem pay12_apply (v25 : FVec Ideal S4096x81 .f32) (v28 : FVec Ideal S4096x1 .f32) (v37 v38 : FVec Ideal S4096x81 .f32)
    (r : Fin 4096) :
    k0_pay12 (F := Ideal) v25 v28 v37 v38 (ix2 r 0)
      = (∑ c : Fin 81,
          (min (Ideal.ofBits .f32 0x3F800000#32) (max (Ideal.ofBits .f32 0x38D1B717#32) (Ideal.ofBits .f32 0x3F800000#32 - v28 (ix2 r 0)))
            * min (Ideal.ofBits .f32 0x3F800000#32) (max (Ideal.ofBits .f32 0x38D1B717#32) (Ideal.ofBits .f32 0x3F800000#32 - v28 (ix2 r 0))))
          * min (v37 (ix2 r c)) (v38 (ix2 r c)))
        - ∑ c : Fin 81,
          ((min (Ideal.ofBits .f32 0x3F800000#32) (max (Ideal.ofBits .f32 0x38D1B717#32) (Ideal.ofBits .f32 0x3F800000#32 - v28 (ix2 r 0)))
            * min (Ideal.ofBits .f32 0x3F800000#32) (max (Ideal.ofBits .f32 0x38D1B717#32) (Ideal.ofBits .f32 0x3F800000#32 - v28 (ix2 r 0))))
          * min (v37 (ix2 r c)) (v38 (ix2 r c))) * v25 (ix2 r c) := by
  have hφ : FKind.Formats .f32 := .inl rfl
  have hmax : (0xFF800000#32 : BitVec 32) = FKind.maximumf.neutral .f32 hφ := rfl
  have hadd : (0x00000000#32 : BitVec 32) = FKind.add.neutral .f32 hφ := rfl
  have hS : ∀ c : Fin 81, (broadcastTo S4096x81 (mulf (minimumf (broadcast S4096x1 (Ideal.ofBits .f32 0x3F800000#32)) (maximumf (broadcast S4096x1 (Ideal.ofBits .f32 0x38D1B717#32)) (subf (broadcast S4096x1 (Ideal.ofBits .f32 0x3F800000#32)) v28))) (minimumf (broadcast S4096x1 (Ideal.ofBits .f32 0x3F800000#32)) (maximumf (broadcast S4096x1 (Ideal.ofBits .f32 0x38D1B717#32)) (subf (broadcast S4096x1 (Ideal.ofBits .f32 0x3F800000#32)) v28)))) broadcasts_S4096x1_S4096x81) (ix2 r c)
      = min (Ideal.ofBits .f32 0x3F800000#32) (max (Ideal.ofBits .f32 0x38D1B717#32) (Ideal.ofBits .f32 0x3F800000#32 - v28 (ix2 r 0)))
        * min (Ideal.ofBits .f32 0x3F800000#32) (max (Ideal.ofBits .f32 0x38D1B717#32) (Ideal.ofBits .f32 0x3F800000#32 - v28 (ix2 r 0))) := by
    intro c
    rw [bcast_apply]
    rfl
  show (shapeCast S4096x1 (multiReduction .add [1] S4096 (mulf (broadcastTo S4096x81 (mulf (minimumf (broadcast S4096x1 (Ideal.ofBits .f32 0x3F800000#32)) (maximumf (broadcast S4096x1 (Ideal.ofBits .f32 0x38D1B717#32)) (subf (broadcast S4096x1 (Ideal.ofBits .f32 0x3F800000#32)) v28))) (minimumf (broadcast S4096x1 (Ideal.ofBits .f32 0x3F800000#32)) (maximumf (broadcast S4096x1 (Ideal.ofBits .f32 0x38D1B717#32)) (subf (broadcast S4096x1 (Ideal.ofBits .f32 0x3F800000#32)) v28)))) broadcasts_S4096x1_S4096x81) (minimumf v37 v38)) 0x00000000#32 reduces_S4096x81_S4096 hφ hadd) shapeCasts_S4096_S4096x1) (ix2 r 0)
    - (shapeCast S4096x1 (multiReduction .add [1] S4096 (mulf (mulf (broadcastTo S4096x81 (mulf (minimumf (broadcast S4096x1 (Ideal.ofBits .f32 0x3F800000#32)) (maximumf (broadcast S4096x1 (Ideal.ofBits .f32 0x38D1B717#32)) (subf (broadcast S4096x1 (Ideal.ofBits .f32 0x3F800000#32)) v28))) (minimumf (broadcast S4096x1 (Ideal.ofBits .f32 0x3F800000#32)) (maximumf (broadcast S4096x1 (Ideal.ofBits .f32 0x38D1B717#32)) (subf (broadcast S4096x1 (Ideal.ofBits .f32 0x3F800000#32)) v28)))) broadcasts_S4096x1_S4096x81) (minimumf v37 v38)) v25) 0x00000000#32 reduces_S4096x81_S4096 hφ hadd) shapeCasts_S4096_S4096x1) (ix2 r 0) = _
  rw [col_apply, col_apply, rowAdd_apply, rowAdd_apply]
  refine congrArg₂ (· - ·) (Finset.sum_congr rfl fun c _ => ?_) (Finset.sum_congr rfl fun c _ => ?_)
  · exact congrArg (· * min (v37 (ix2 r c)) (v38 (ix2 r c))) (hS c)
  · exact congrArg (fun z => z * min (v37 (ix2 r c)) (v38 (ix2 r c)) * v25 (ix2 r c)) (hS c)

/-- Row `r` of a tile: the body's row sum is the specification's, for a label in range. -/
theorem row_sum (x0 : Vec Ideal S4096x81 .f32) (x1 : Vec Ideal S4096x1 .i32)
    (hl : ∀ r : Fin 4096, (x1 (ValueIdx.ix2 r 0)).toNat ≤ 80) (r : Fin 4096) :
    k0_pay12 (F := Ideal) (k0_pay8 x1) (k0_pay9 x0 x1) (k0_pay10 x0 x1) k0_pay11 (ValueIdx.ix2 r 0)
      = rowSum (tileRow x0 r) (cls (x1 (ValueIdx.ix2 r 0))) := by
  rw [pay12_apply, pay9_apply x0 x1 r (hl r)]
  have h11 : ∀ c : Fin 81, k0_pay11 (F := Ideal) (ix2 r c) = Ideal.ofBits .f32 0x40A00000#32 := fun _ => rfl
  simp only [pay10_apply x0 x1 r (hl r), h11, pay8_apply]
  show (∑ c : Fin 81, per (tileRow x0 r) (cls (x1 (ix2 r 0))) c)
      - (∑ c : Fin 81, per (tileRow x0 r) (cls (x1 (ix2 r 0))) c
          * (if IntOp.cmpi .eq (x1 (ix2 r 0)) (BitVec.ofNat 32 c.val) = 1#1 then (1 : EReal) else 0)) = _
  rw [oneHot_sum (per (tileRow x0 r) (cls (x1 (ix2 r 0)))) (x1 (ix2 r 0)) (hl r)]
  rfl

end Cert.Loss.Ker

end
-- ==== Proof.KArith.lean ====
/-
  One tile's arithmetic, read off the kernel body's pure terms at the extended reals: the three selections of a row are the
  specification's, the six per-tile numbers are the sums over the tile's 4096 rows of the selected row sums and of the
  selected ones, and each accumulator update adds its number to the running value.
-/
import proofs.«415084_j9577777070150_2_alg».proof.Proof.Gen.KernelIdeal.Skeleton
import proofs.«415084_j9577777070150_2_alg».proof.Proof.KSpec
import proofs.«415084_j9577777070150_2_alg».proof.Proof.RowLaws
import proofs.«415084_j9577777070150_2_alg».proof.Proof.KRow
import Idealize.ShloMosaic.PureOps.Ideal.Laws
import Idealize.ShloMosaic.Lib.ValueIdx
import Idealize.ShloMosaic.Lib.Pipeline.Value

set_option maxRecDepth 16384

noncomputable section

namespace Cert.Loss.Ker

open Idealize.ShloMosaic Idealize.ShloMosaic.ValueIdx
open Cert.KernelIdeal Cert.KernelIdeal.Gen

/-! ## Layout operations of the tile read at explicit coordinates -/

/-- A vector of 4096 entries reshaped to a column reads entry `r` at `(r, 0)`. -/
theorem col_apply {α : Type} (v : S4096.Idx → α) (h : S4096.ShapeCasts S4096x1) (r : Fin 4096) :
    shapeCast S4096x1 v h (ix2 r 0) = v (ix1 r) :=
  shapeCast_apply v h (ix2 r 0) (ix1 r) (by
    rw [Shape.rowMajor_val_one, Shape.rowMajor_val_two]
    show r.val = r.val * 1 + 0
    omega)

/-- A column broadcast along the 81 classes reads its row's entry. -/
theorem bcast_apply {α : Type} (v : S4096x1.Idx → α) (h : S4096x1.Broadcasts S4096x81) (r : Fin 4096) (c : Fin 81) :
    broadcastTo S4096x81 v h (ix2 r c) = v (ix2 r 0) :=
  broadcastTo_apply v h (ix2 r c) (ix2 r 0) (fun a => match a with
    | ⟨0, _⟩ => rfl
    | ⟨1, _⟩ => rfl)

/-- The one entry of a length-1 vector reshaped to a 1×1 matrix. -/
theorem unit_apply {α : Type} (v : S1.Idx → α) (h : S1.ShapeCasts S1x1) :
    shapeCast S1x1 v h (ix2 0 0) = v (ix1 0) :=
  shapeCast_apply v h (ix2 0 0) (ix1 0) (by
    rw [Shape.rowMajor_val_one, Shape.rowMajor_val_two]; rfl)

/-- Inserting class `c` on axis 1 into row index `r` gives `(r, c)`. -/
theorem lift_row (h : S4096x81.Reduces [1] S4096) (r : Fin 4096) (c : Fin 81) :
    h.lift (ix1 r) c = ix2 r c := by
  funext a; match a with
  | ⟨0, _⟩ => rfl
  | ⟨1, _⟩ => rfl

/-- Inserting row `r` on axis 0 into the one index of a length-1 vector gives `(r, 0)`. -/
theorem lift_col (h : S4096x1.Reduces [0] S1) (r : Fin 4096) :
    h.lift (ix1 0) r = ix2 r 0 := by
  funext a; match a with
  | ⟨0, _⟩ => rfl
  | ⟨1, _⟩ => rfl

/-- A row's sum over the 81 classes. -/
theorem rowAdd_apply (v : FVec Ideal S4096x81 .f32) (h : S4096x81.Reduces [1] S4096) (hφ) (hacc) (r : Fin 4096) :
    multiReduction .add [1] S4096 v 0x00000000#32 h hφ hacc (ix1 r) = ∑ c : Fin 81, v (ix2 r c) := by
  refine (Ideal.multiReduction_add_single v _ h hφ hacc (ix1 r)).trans ?_
  exact Finset.sum_congr rfl fun c _ => congrArg v (lift_row h r c)

/-- A row's maximum over the 81 classes, folded from −∞. -/
theorem rowMax_apply (v : FVec Ideal S4096x81 .f32) (h : S4096x81.Reduces [1] S4096) (hφ) (hacc) (r : Fin 4096) :
    multiReduction .maximumf [1] S4096 v 0xFF800000#32 h hφ hacc (ix1 r)
      = (Finset.univ : Finset (Fin 81)).fold max (Ideal.ofBits .f32 0xFF800000#32) (fun c => v (ix2 r c)) := by
  refine (Ideal.multiReduction_maximumf_single v _ h hφ hacc (ix1 r)).trans ?_
  show (Finset.univ : Finset (Fin 81)).fold max (Ideal.ofBits .f32 0xFF800000#32) (fun c => v (h.lift (ix1 r) c)) = _
  exact congrArg (fun g : Fin 81 → EReal => (Finset.univ : Finset (Fin 81)).fold max (Ideal.ofBits .f32 0xFF800000#32) g)
    (funext fun c => congrArg v (lift_row h r c))

/-- A column's sum over the 4096 rows. -/
theorem colAdd_apply (v : FVec Ideal S4096x1 .f32) (h : S4096x1.Reduces [0] S1) (hφ) (hacc) :
    multiReduction .add [0] S1 v 0x00000000#32 h hφ hacc (ix1 0) = ∑ r : Fin 4096, v (ix2 r 0) := by
  refine (Ideal.multiReduction_add_single v _ h hφ hacc (ix1 0)).trans ?_
  exact Finset.sum_congr rfl fun r _ => congrArg v (lift_col h r)

/-- A 1×1 matrix has the one index `(0, 0)`. -/
theorem unit_idx (y : S1x1.Idx) : y = ix2 0 0 := by
  funext a; match a with
  | ⟨0, _⟩ => exact Fin.ext (by have h := idx2_lt0 y; show (y 0).val = 0; omega)
  | ⟨1, _⟩ => exact Fin.ext (by have h := idx2_lt1 y; show (y 1).val = 0; omega)

/-- A column summed over the 4096 rows and kept as a 1×1 matrix: the sum of the column's entries, at its one index. -/
theorem colSum_apply (v : FVec Ideal S4096x1 .f32) (h : S4096x1.Reduces [0] S1) (hφ) (hacc) (hc : S1.ShapeCasts S1x1)
    (y : S1x1.Idx) :
    shapeCast S1x1 (multiReduction .add [0] S1 v 0x00000000#32 h hφ hacc) hc y = ∑ r : Fin 4096, v (ix2 r 0) := by
  rw [unit_idx y]
  exact (unit_apply _ hc).trans (colAdd_apply v h hφ hacc)

/-! ## The three selections of a row -/

/-- The labels and the weights reach the selections unchanged, and the "enough" flag re-read by `> 0`. -/
theorem pay4_eq (x1 : Vec Ideal S4096x1 .i32) : k0_pay4 (F := Ideal) x1 = x1 := shapeCast_self _ _
theorem pay5_eq (x2 : Vec Ideal S4096x1 .f32) : k0_pay5 x2 = x2 := shapeCast_self _ _
theorem pay6_apply (x3 : Vec Ideal S4096x1 .f32) (i : S4096x1.Idx) : k0_pay6 x3 i = flag (x3 i) := by
  unfold k0_pay6
  exact congrArg (fun v : FVec Ideal S4096x1 .f32 => flag (v i)) (shapeCast_self x3 _)

/-- The base selection of a row: valid, label below 60, enough samples. -/
theorem pay14_apply (v5 : IVec S4096x1 32) (v7 : FVec Ideal S4096x1 .f32) (v11 : IVec S4096x1 1) (i : S4096x1.Idx) :
    k0_pay14 v5 v7 v11 i = IntOp.andi (IntOp.andi (valid (v7 i)) (IntOp.cmpi .slt (v5 i) 60#32)) (v11 i) := rfl

/-- The novel selection of a row: valid, label from 60 to 79, enough samples. -/
theorem pay15_apply (v5 : IVec S4096x1 32) (v7 : FVec Ideal S4096x1 .f32) (v11 : IVec S4096x1 1) (i : S4096x1.Idx) :
    k0_pay15 v5 v7 v11 i
      = IntOp.andi (IntOp.andi (IntOp.andi (valid (v7 i)) (IntOp.cmpi .sge (v5 i) 60#32)) (IntOp.cmpi .slt (v5 i) 80#32)) (v11 i) :=
  rfl

/-- The background selection of a row: valid, label 80. -/
theorem pay16_apply (v5 : IVec S4096x1 32) (v7 : FVec Ideal S4096x1 .f32) (i : S4096x1.Idx) :
    k0_pay16 v5 v7 i = IntOp.andi (valid (v7 i)) (IntOp.cmpi .eq (v5 i) 80#32) := rfl

/-- At row `r` of a tile the body's base selection is the specification's. -/
theorem sel_base (x1 : Vec Ideal S4096x1 .i32) (x2 x3 : Vec Ideal S4096x1 .f32) (r : Fin 4096) :
    k0_pay14 (k0_pay4 x1) (k0_pay5 x2) (k0_pay6 x3) (ix2 r 0)
      = tileBase (x1 (ix2 r 0)) (x2 (ix2 r 0)) (x3 (ix2 r 0)) := by
  rw [pay4_eq, pay5_eq, pay14_apply, pay6_apply]; rfl

/-- At row `r` of a tile the body's novel selection is the specification's. -/
theorem sel_novel (x1 : Vec Ideal S4096x1 .i32) (x2 x3 : Vec Ideal S4096x1 .f32) (r : Fin 4096) :
    k0_pay15 (k0_pay4 x1) (k0_pay5 x2) (k0_pay6 x3) (ix2 r 0)
      = tileNovel (x1 (ix2 r 0)) (x2 (ix2 r 0)) (x3 (ix2 r 0)) := by
  rw [pay4_eq, pay5_eq, pay15_apply, pay6_apply]; rfl

/-- At row `r` of a tile the body's background selection is the specification's. -/
theorem sel_neg (x1 : Vec Ideal S4096x1 .i32) (x2 : Vec Ideal S4096x1 .f32) (r : Fin 4096) :
    k0_pay16 (k0_pay4 x1) (k0_pay5 x2) (ix2 r 0) = tileNeg (x1 (ix2 r 0)) (x2 (ix2 r 0)) := by
  rw [pay4_eq, pay5_eq, pay16_apply]; rfl

/-! ## The per-tile numbers -/

/-- The zero column the selected sums fall back to. -/
theorem pay17_apply (i : S4096x1.Idx) : k0_pay17 (F := Ideal) i = 0 := Ideal.ofBits_zero_f32

/-- The number of selected rows: the selection's bits as floats, summed over the rows. -/
theorem count_apply (sel : IVec S4096x1 1) (hw : 1 < 32) (h : S4096x1.Reduces [0] S1) (hφ) (hacc) (hc : S1.ShapeCasts S1x1)
    (y : S1x1.Idx) :
    shapeCast S1x1 (multiReduction .add [0] S1 (sitofp (F := Ideal) .f32 (extui 32 sel hw)) 0x00000000#32 h hφ hacc) hc y
      = ∑ r : Fin 4096, if sel (ix2 r 0) = 1#1 then (1 : EReal) else 0 :=
  (colSum_apply _ h hφ hacc hc y).trans (Finset.sum_congr rfl fun r _ => sitofp_extui_apply sel hw (ix2 r 0))

/-- The sum of a column over the selected rows: the column where selected and the other column elsewhere, summed over the rows. -/
theorem selSum_apply (sel : IVec S4096x1 1) (v z : FVec Ideal S4096x1 .f32) (h : S4096x1.Reduces [0] S1) (hφ) (hacc)
    (hc : S1.ShapeCasts S1x1) (y : S1x1.Idx) :
    shapeCast S1x1 (multiReduction .add [0] S1 (select sel v z) 0x00000000#32 h hφ hacc) hc y
      = ∑ r : Fin 4096, if sel (ix2 r 0) = 1#1 then v (ix2 r 0) else z (ix2 r 0) :=
  colSum_apply _ h hφ hacc hc y

theorem pay18_apply (v5 : IVec S4096x1 32) (v7 : FVec Ideal S4096x1 .f32) (v11 : IVec S4096x1 1) (v25 : FVec Ideal S4096x81 .f32)
    (v28 : FVec Ideal S4096x1 .f32) (v37 v38 : FVec Ideal S4096x81 .f32) (y : S1x1.Idx) :
    k0_pay18 v5 v7 v11 v25 v28 v37 v38 y
      = ∑ r : Fin 4096, if k0_pay14 v5 v7 v11 (ix2 r 0) = 1#1 then k0_pay12 v25 v28 v37 v38 (ix2 r 0) else k0_pay17 (ix2 r 0) :=
  selSum_apply _ _ _ _ _ _ _ y

theorem pay19_apply (v5 : IVec S4096x1 32) (v7 : FVec Ideal S4096x1 .f32) (v11 : IVec S4096x1 1) (y : S1x1.Idx) :
    k0_pay19 v5 v7 v11 y = ∑ r : Fin 4096, if k0_pay14 v5 v7 v11 (ix2 r 0) = 1#1 then (1 : EReal) else 0 :=
  count_apply _ _ _ _ _ _ y

theorem pay20_apply (v5 : IVec S4096x1 32) (v7 : FVec Ideal S4096x1 .f32) (v11 : IVec S4096x1 1) (v25 : FVec Ideal S4096x81 .f32)
    (v28 : FVec Ideal S4096x1 .f32) (v37 v38 : FVec Ideal S4096x81 .f32) (y : S1x1.Idx) :
    k0_pay20 v5 v7 v11 v25 v28 v37 v38 y
      = ∑ r : Fin 4096, if k0_pay15 v5 v7 v11 (ix2 r 0) = 1#1 then k0_pay12 v25 v28 v37 v38 (ix2 r 0) else k0_pay17 (ix2 r 0) :=
  selSum_apply _ _ _ _ _ _ _ y

theorem pay21_apply (v5 : IVec S4096x1 32) (v7 : FVec Ideal S4096x1 .f32) (v11 : IVec S4096x1 1) (i : S4096x1.Idx) :
    k0_pay21 v5 v7 v11 i = if k0_pay15 v5 v7 v11 i = 1#1 then (1 : EReal) else 0 :=
  sitofp_extui_apply _ _ i

theorem pay22_apply (v70 : IVec S4096x1 1) (y : S1x1.Idx) :
    k0_pay22 (F := Ideal) v70 y = ∑ r : Fin 4096, if v70 (ix2 r 0) = 1#1 then (1 : EReal) else 0 :=
  count_apply _ _ _ _ _ _ y

theorem pay26_apply (v83 : FVec Ideal S4096x1 .f32) (v108 : Vec Ideal S1x1 .f32) (y : S1x1.Idx) :
    k0_pay26 v83 v108 y = v108 y + ∑ r : Fin 4096, v83 (ix2 r 0) := by
  unfold k0_pay26
  refine (congrFun (shapeCast_self _ _) y).trans ?_
  exact congrArg (v108 y + ·) (colSum_apply v83 _ _ _ _ y)

theorem pay27_apply (v54 : FVec Ideal S4096x1 .f32) (v70 : IVec S4096x1 1) (v71 : FVec Ideal S4096x1 .f32) (v113 : Vec Ideal S1x1 .f32)
    (y : S1x1.Idx) :
    k0_pay27 v54 v70 v71 v113 y = v113 y + ∑ r : Fin 4096, if v70 (ix2 r 0) = 1#1 then v54 (ix2 r 0) else v71 (ix2 r 0) := by
  unfold k0_pay27
  refine (congrFun (shapeCast_self _ _) y).trans ?_
  exact congrArg (v113 y + ·) (selSum_apply v70 v54 v71 _ _ _ _ y)

/-! ## The accumulator updates -/

/-- Each update adds its number to the running value. -/
theorem acc23 (a : FVec Ideal S1x1 .f32) (v : Vec Ideal S1x1 .f32) : k0_pay23 a v = fun y => v y + a y := shapeCast_self _ _
theorem acc24 (a : FVec Ideal S1x1 .f32) (v : Vec Ideal S1x1 .f32) : k0_pay24 a v = fun y => v y + a y := shapeCast_self _ _
theorem acc25 (a : FVec Ideal S1x1 .f32) (v : Vec Ideal S1x1 .f32) : k0_pay25 a v = fun y => v y + a y := shapeCast_self _ _
theorem pay1_eq (a : FVec Ideal S1x1 .f32) (v : Vec Ideal S1x1 .f32) : k0_pay1 a v = fun y => v y + a y := shapeCast_self _ _

/-- The accumulator starts from zeros. -/
theorem zero3 : k0_pay3 (F := Ideal) = fun _ => 0 := by
  unfold k0_pay3
  refine (shapeCast_self _ _).trans ?_
  funext _
  exact Ideal.ofBits_zero_f32

/-! ## The counts of a tile -/

/-- The number of a tile's base rows. -/
theorem tile1 (x0 : Vec Ideal S4096x81 .f32) (x1 : Vec Ideal S4096x1 .i32) (x2 x3 : Vec Ideal S4096x1 .f32) :
    k0_pay19 (k0_pay4 x1) (k0_pay5 x2) (k0_pay6 x3) = fun _ => tileVec x0 x1 x2 x3 1 := by
  funext y
  refine (pay19_apply _ _ _ y).trans ?_
  show _ = ∑ r : Fin 4096, if tileBase (x1 (ix2 r 0)) (x2 (ix2 r 0)) (x3 (ix2 r 0)) = 1#1 then (1 : EReal) else 0
  exact Finset.sum_congr rfl fun r _ => by rw [sel_base]

/-- The running count of novel rows after a tile. -/
theorem tile3 (x0 : Vec Ideal S4096x81 .f32) (x1 : Vec Ideal S4096x1 .i32) (x2 x3 : Vec Ideal S4096x1 .f32) (v : Vec Ideal S1x1 .f32) :
    k0_pay26 (k0_pay21 (k0_pay4 x1) (k0_pay5 x2) (k0_pay6 x3)) v = fun y => v y + tileVec x0 x1 x2 x3 3 := by
  funext y
  refine (pay26_apply _ _ y).trans ?_
  show _ = v y + ∑ r : Fin 4096, if tileNovel (x1 (ix2 r 0)) (x2 (ix2 r 0)) (x3 (ix2 r 0)) = 1#1 then (1 : EReal) else 0
  exact congrArg (v y + ·) (Finset.sum_congr rfl fun r _ => by rw [pay21_apply, sel_novel])

/-- The running count of background rows after a tile. -/
theorem tile5 (x0 : Vec Ideal S4096x81 .f32) (x1 : Vec Ideal S4096x1 .i32) (x2 x3 : Vec Ideal S4096x1 .f32) (v : Vec Ideal S1x1 .f32) :
    k0_pay1 (k0_pay22 (k0_pay16 (k0_pay4 x1) (k0_pay5 x2))) v = fun y => v y + tileVec x0 x1 x2 x3 5 := by
  funext y
  refine (congrFun (pay1_eq _ _) y).trans ?_
  show v y + k0_pay22 (F := Ideal) (k0_pay16 (k0_pay4 x1) (k0_pay5 x2)) y
    = v y + ∑ r : Fin 4096, if tileNeg (x1 (ix2 r 0)) (x2 (ix2 r 0)) = 1#1 then (1 : EReal) else 0
  exact congrArg (v y + ·) ((pay22_apply _ y).trans (Finset.sum_congr rfl fun r _ => by rw [sel_neg]))

/-! ## The sums of a tile, given the row sums -/

/-- The sum of a tile's base rows' row sums, from the body's row sum being the specification's at every row. -/
theorem tile0_of (x0 : Vec Ideal S4096x81 .f32) (x1 : Vec Ideal S4096x1 .i32) (x2 x3 : Vec Ideal S4096x1 .f32)
    (hrow : ∀ r : Fin 4096, k0_pay12 (F := Ideal) (k0_pay8 x1) (k0_pay9 x0 x1) (k0_pay10 x0 x1) k0_pay11 (ix2 r 0)
      = rowSum (tileRow x0 r) (cls (x1 (ix2 r 0)))) :
    k0_pay18 (k0_pay4 x1) (k0_pay5 x2) (k0_pay6 x3) (k0_pay8 x1) (k0_pay9 x0 x1) (k0_pay10 x0 x1) k0_pay11
      = fun _ => tileVec x0 x1 x2 x3 0 := by
  funext y
  refine (pay18_apply _ _ _ _ _ _ _ y).trans ?_
  show _ = ∑ r : Fin 4096, if tileBase (x1 (ix2 r 0)) (x2 (ix2 r 0)) (x3 (ix2 r 0)) = 1#1
    then rowSum (tileRow x0 r) (cls (x1 (ix2 r 0))) else 0
  exact Finset.sum_congr rfl fun r _ => by rw [sel_base, hrow r, pay17_apply]

/-- The sum of a tile's novel rows' row sums, likewise. -/
theorem tile2_of (x0 : Vec Ideal S4096x81 .f32) (x1 : Vec Ideal S4096x1 .i32) (x2 x3 : Vec Ideal S4096x1 .f32)
    (hrow : ∀ r : Fin 4096, k0_pay12 (F := Ideal) (k0_pay8 x1) (k0_pay9 x0 x1) (k0_pay10 x0 x1) k0_pay11 (ix2 r 0)
      = rowSum (tileRow x0 r) (cls (x1 (ix2 r 0)))) :
    k0_pay20 (k0_pay4 x1) (k0_pay5 x2) (k0_pay6 x3) (k0_pay8 x1) (k0_pay9 x0 x1) (k0_pay10 x0 x1) k0_pay11
      = fun _ => tileVec x0 x1 x2 x3 2 := by
  funext y
  refine (pay20_apply _ _ _ _ _ _ _ y).trans ?_
  show _ = ∑ r : Fin 4096, if tileNovel (x1 (ix2 r 0)) (x2 (ix2 r 0)) (x3 (ix2 r 0)) = 1#1
    then rowSum (tileRow x0 r) (cls (x1 (ix2 r 0))) else 0
  exact Finset.sum_congr rfl fun r _ => by rw [sel_novel, hrow r, pay17_apply]

/-- The running sum of background rows' row sums after a tile, likewise. -/
theorem tile4_of (x0 : Vec Ideal S4096x81 .f32) (x1 : Vec Ideal S4096x1 .i32) (x2 x3 : Vec Ideal S4096x1 .f32) (v : Vec Ideal S1x1 .f32)
    (hrow : ∀ r : Fin 4096, k0_pay12 (F := Ideal) (k0_pay8 x1) (k0_pay9 x0 x1) (k0_pay10 x0 x1) k0_pay11 (ix2 r 0)
      = rowSum (tileRow x0 r) (cls (x1 (ix2 r 0)))) :
    k0_pay27 (k0_pay12 (k0_pay8 x1) (k0_pay9 x0 x1) (k0_pay10 x0 x1) k0_pay11) (k0_pay16 (k0_pay4 x1) (k0_pay5 x2)) k0_pay17 v
      = fun y => v y + tileVec x0 x1 x2 x3 4 := by
  funext y
  refine (pay27_apply _ _ _ _ y).trans ?_
  show _ = v y + ∑ r : Fin 4096, if tileNeg (x1 (ix2 r 0)) (x2 (ix2 r 0)) = 1#1
    then rowSum (tileRow x0 r) (cls (x1 (ix2 r 0))) else 0
  exact congrArg (v y + ·) (Finset.sum_congr rfl fun r _ => by rw [sel_neg, hrow r, pay17_apply])

/-! ## The sums of a tile -/

/-- The sum of a tile's base rows' row sums (labels 0 … 80). -/
theorem tile0 (x0 : Vec Ideal S4096x81 .f32) (x1 : Vec Ideal S4096x1 .i32) (x2 x3 : Vec Ideal S4096x1 .f32)
    (hl : ∀ r : Fin 4096, (x1 (ix2 r 0)).toNat ≤ 80) :
    k0_pay18 (k0_pay4 x1) (k0_pay5 x2) (k0_pay6 x3) (k0_pay8 x1) (k0_pay9 x0 x1) (k0_pay10 x0 x1) k0_pay11
      = fun _ => tileVec x0 x1 x2 x3 0 :=
  tile0_of x0 x1 x2 x3 (row_sum x0 x1 hl)

/-- The sum of a tile's novel rows' row sums (labels 0 … 80). -/
theorem tile2 (x0 : Vec Ideal S4096x81 .f32) (x1 : Vec Ideal S4096x1 .i32) (x2 x3 : Vec Ideal S4096x1 .f32)
    (hl : ∀ r : Fin 4096, (x1 (ix2 r 0)).toNat ≤ 80) :
    k0_pay20 (k0_pay4 x1) (k0_pay5 x2) (k0_pay6 x3) (k0_pay8 x1) (k0_pay9 x0 x1) (k0_pay10 x0 x1) k0_pay11
      = fun _ => tileVec x0 x1 x2 x3 2 :=
  tile2_of x0 x1 x2 x3 (row_sum x0 x1 hl)

/-- The running sum of background rows' row sums after a tile (labels 0 … 80). -/
theorem tile4 (x0 : Vec Ideal S4096x81 .f32) (x1 : Vec Ideal S4096x1 .i32) (x2 x3 : Vec Ideal S4096x1 .f32)
    (hl : ∀ r : Fin 4096, (x1 (ix2 r 0)).toNat ≤ 80) (v : Vec Ideal S1x1 .f32) :
    k0_pay27 (k0_pay12 (k0_pay8 x1) (k0_pay9 x0 x1) (k0_pay10 x0 x1) k0_pay11) (k0_pay16 (k0_pay4 x1) (k0_pay5 x2)) k0_pay17 v
      = fun y => v y + tileVec x0 x1 x2 x3 4 :=
  tile4_of x0 x1 x2 x3 v (row_sum x0 x1 hl)

end Cert.Loss.Ker

end
-- ==== Proof.KTile.lean ====
/-
  What each control case of the kernel body leaves in the 1×6 accumulator (and, in the last point of a core's 32, in
  the output block), at the extended reals: the accumulator's earlier contents plus the tile's six sums `tileVec` of
  the point's four input blocks.

  The six stores of a point (`cells`) write one cell each; the cell of column `j` sits at index `(0, j)`
  (`col_emb`) and the six cells cover the accumulator (`cells_cover`), so at every index the stores leave the
  earlier contents plus the tile's sum for that column, whatever stores were made before them (`cells_apply`: the
  column sums are the arithmetic module's, the row sums the row module's).  In the first point of a core's 32 the
  earlier contents are the zeros the body has just stored, and `0 + s = s` (`scratch_A`); in the other points they
  are what the point before left (`scratch_B`, `scratch_C`); the output block of the last point is the accumulator
  after the six stores, entry `(0, 0, j)` being cell `(0, j)` (`block_C`: a reshape keeps the row-major position).
-/
import proofs.«415084_j9577777070150_2_alg».proof.Proof.KIFrame
import proofs.«415084_j9577777070150_2_alg».proof.Proof.KSpec
import proofs.«415084_j9577777070150_2_alg».proof.Proof.KPieces
import proofs.«415084_j9577777070150_2_alg».proof.Proof.KArith
import proofs.«415084_j9577777070150_2_alg».proof.Proof.KRow
import Idealize.ShloMosaic.Lib.ValueIdx
import Idealize.ShloMosaic.Lib.Pipeline.Value
import Idealize.ShloMosaic.Lib.Pipeline.CanonAppend

set_option maxRecDepth 16384

noncomputable section

namespace Cert.Loss.Ker

open Idealize.ShloMosaic Idealize.ShloMosaic.TcCoe Idealize.SL.Sem Idealize.ShloMosaic.ValueIdx
open Cert.KernelIdeal Cert.KernelIdeal.Gen Cert.KernelIdeal.GenP

/-! ## The accumulator after one point, column by column -/

/-- The one index of column `j`'s 1×1 rectangle sits at `(0, j)` of the accumulator. -/
theorem col_emb (j : ℕ) (hj : ∀ a, (![0, j] : Fin 2 → ℕ) a + (![1, 1] : Fin 2 → ℕ) a ≤ S1x6.size a) (hj6 : j < 6)
    (x : (Rect.unit (s := S1x6) ![0, j] ![1, 1] hj).shape.Idx) :
    (Rect.unit (s := S1x6) ![0, j] ![1, 1] hj).emb x = (ix2 (0 : Fin 1) (⟨j, hj6⟩ : Fin 6) : S1x6.Idx) := by
  funext a
  apply Fin.ext
  match a with
  | ⟨0, _⟩ =>
    have h : (x 0).val < 1 := (x 0).isLt
    show 0 + 1 * (x 0).val = 0
    omega
  | ⟨1, _⟩ =>
    have h : (x 1).val < 1 := (x 1).isLt
    show j + 1 * (x 1).val = j
    omega

/-- Every cell of the accumulator lies in one of the six stores' rectangles. -/
theorem cells_cover {F : FTy → Type} [FloatOps F] (x0 : Vec F S4096x81 .f32) (x1 : Vec F S4096x1 .i32) (x2 x3 : Vec F S4096x1 .f32)
    (a : Vec F S1x6 .f32) (y : S1x6.Idx) : ∃ p ∈ cells x0 x1 x2 x3 a, y ∈ p.1.set := by
  have h0 : (y 0).val < 1 := (y 0).isLt
  have h1 : (y 1).val < 6 := (y 1).isLt
  have hm : ∀ (j : ℕ) (hj : ∀ a, (![0, j] : Fin 2 → ℕ) a + (![1, 1] : Fin 2 → ℕ) a ≤ S1x6.size a), (y 1).val = j →
      y ∈ (Rect.unit (s := S1x6) ![0, j] ![1, 1] hj).set := fun j hj e =>
    Rect.mem_set_unit.mpr fun a => match a with
      | ⟨0, _⟩ => by show 0 ≤ (y 0).val ∧ (y 0).val < 0 + 1; omega
      | ⟨1, _⟩ => by show j ≤ (y 1).val ∧ (y 1).val < j + 1; omega
  obtain h | h | h | h | h | h : (y 1).val = 0 ∨ (y 1).val = 1 ∨ (y 1).val = 2 ∨ (y 1).val = 3 ∨ (y 1).val = 4 ∨ (y 1).val = 5 := by omega
  · exact ⟨_, List.Mem.tail _ (List.Mem.tail _ (List.Mem.tail _ (List.Mem.tail _ (List.Mem.tail _ (List.Mem.head _))))), hm 0 inb_S1x6_S1x1_0_0 h⟩
  · exact ⟨_, List.Mem.tail _ (List.Mem.tail _ (List.Mem.tail _ (List.Mem.tail _ (List.Mem.head _)))), hm 1 inb_S1x6_S1x1_0_1 h⟩
  · exact ⟨_, List.Mem.tail _ (List.Mem.tail _ (List.Mem.tail _ (List.Mem.head _))), hm 2 inb_S1x6_S1x1_0_2 h⟩
  · exact ⟨_, List.Mem.tail _ (List.Mem.tail _ (List.Mem.head _)), hm 3 inb_S1x6_S1x1_0_3 h⟩
  · exact ⟨_, List.Mem.tail _ (List.Mem.head _), hm 4 inb_S1x6_S1x1_0_4 h⟩
  · exact ⟨_, List.Mem.head _, hm 5 inb_S1x6_S1x1_0_5 h⟩

/-- The six stores of a point, made over any earlier stores, leave in every cell of the accumulator what it held
    (`a`) plus the tile's sum for that column. -/
theorem cells_apply (x0 : Vec Ideal S4096x81 .f32) (x1 : Vec Ideal S4096x1 .i32) (x2 x3 : Vec Ideal S4096x1 .f32)
    (hl : ∀ r : Fin 4096, (x1 (ix2 r 0)).toNat ≤ 80) (a : Vec Ideal S1x6 .f32) (L' : List (View.Piece (Elt Ideal) S1x6 .f32)) (y : S1x6.Idx) :
    View.canon (cells x0 x1 x2 x3 a ++ L') y = a y + tileVec x0 x1 x2 x3 (y 1) := by
  refine View.canon_append_of_pieces (fun y : S1x6.Idx => a y + tileVec x0 x1 x2 x3 (y 1)) L' (cells x0 x1 x2 x3 a) ?_ y
    (cells_cover x0 x1 x2 x3 a y)
  intro p hp x
  simp only [cells, List.mem_cons, List.not_mem_nil, or_false] at hp
  rcases hp with rfl | rfl | rfl | rfl | rfl | rfl
  · dsimp only
    have e := col_emb 5 inb_S1x6_S1x1_0_5 (by decide) x
    rw [e, tile5 x0 x1 x2 x3]
    exact congrArg (fun z : S1x6.Idx => a z + tileVec x0 x1 x2 x3 5) e
  · dsimp only
    have e := col_emb 4 inb_S1x6_S1x1_0_4 (by decide) x
    rw [e, tile4_of x0 x1 x2 x3 _ (row_sum x0 x1 hl)]
    exact congrArg (fun z : S1x6.Idx => a z + tileVec x0 x1 x2 x3 4) e
  · dsimp only
    have e := col_emb 3 inb_S1x6_S1x1_0_3 (by decide) x
    rw [e, tile3 x0 x1 x2 x3]
    exact congrArg (fun z : S1x6.Idx => a z + tileVec x0 x1 x2 x3 3) e
  · dsimp only
    have e := col_emb 2 inb_S1x6_S1x1_0_2 (by decide) x
    rw [e, acc25, tile2_of x0 x1 x2 x3 (row_sum x0 x1 hl)]
    exact congrArg (fun z : S1x6.Idx => a z + tileVec x0 x1 x2 x3 2) e
  · dsimp only
    have e := col_emb 1 inb_S1x6_S1x1_0_1 (by decide) x
    rw [e, acc24, tile1 x0 x1 x2 x3]
    exact congrArg (fun z : S1x6.Idx => a z + tileVec x0 x1 x2 x3 1) e
  · dsimp only
    have e := col_emb 0 inb_S1x6_S1x1_0_0 (by decide) x
    rw [e, acc23, tile0_of x0 x1 x2 x3 (row_sum x0 x1 hl)]
    exact congrArg (fun z : S1x6.Idx => a z + tileVec x0 x1 x2 x3 0) e

/-! ## The four interface statements -/

/-- Case A: the accumulator, zeroed first, ends at the tile's six sums. -/
theorem scratch_A (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : cond0_0 i) (hc1 : ¬cond0_1 i)
    (x0 : Vec Ideal S4096x81 .f32) (x1 : Vec Ideal S4096x1 .i32) (x2 : Vec Ideal S4096x1 .f32) (x3 : Vec Ideal S4096x1 .f32)
    (hl : ∀ r : Fin 4096, (x1 (ix2 r 0)).toNat ≤ 80) (y : S1x6.Idx) :
    sout0_A_0 (F := Ideal) c i arg2 harg2 arg3 harg3 arg4 harg4 arg5 harg5 arg6 harg6 arg7 harg7 hc0 hc1 x0 x1 x2 x3 y
      = tileVec x0 x1 x2 x3 (y 1) := by
  unfold sout0_A_0
  refine (congrFun (pieces_A (F := Ideal) c i arg2 harg2 arg3 harg3 arg4 harg4 arg5 harg5 arg6 harg6 arg7 harg7 hc0 hc1 x0 x1 x2 x3) y).trans ?_
  refine (cells_apply x0 x1 x2 x3 hl (k0_pay3 (F := Ideal)) _ y).trans ?_
  rw [zero3]
  exact zero_add _

/-- Case B: the accumulator the point before left, plus the tile's six sums. -/
theorem scratch_B (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : ¬cond0_0 i) (hc1 : ¬cond0_1 i)
    (x0 : Vec Ideal S4096x81 .f32) (x1 : Vec Ideal S4096x1 .i32) (x2 : Vec Ideal S4096x1 .f32) (x3 : Vec Ideal S4096x1 .f32) (xs0 : Vec Ideal S1x6 .f32)
    (hl : ∀ r : Fin 4096, (x1 (ix2 r 0)).toNat ≤ 80) (y : S1x6.Idx) :
    sout0_B_0 (F := Ideal) c i arg2 harg2 arg3 harg3 arg4 harg4 arg5 harg5 arg6 harg6 arg7 harg7 hc0 hc1 x0 x1 x2 x3 xs0 y
      = xs0 y + tileVec x0 x1 x2 x3 (y 1) := by
  unfold sout0_B_0
  refine (congrFun (pieces_B (F := Ideal) c i arg2 harg2 arg3 harg3 arg4 harg4 arg5 harg5 arg6 harg6 arg7 harg7 hc0 hc1 x0 x1 x2 x3 xs0) y).trans ?_
  have h := cells_apply x0 x1 x2 x3 hl xs0 [] y
  rwa [List.append_nil] at h

/-- Case C, the accumulator: as in case B. -/
theorem scratch_C (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : ¬cond0_0 i) (hc1 : cond0_1 i)
    (x0 : Vec Ideal S4096x81 .f32) (x1 : Vec Ideal S4096x1 .i32) (x2 : Vec Ideal S4096x1 .f32) (x3 : Vec Ideal S4096x1 .f32) (xs0 : Vec Ideal S1x6 .f32)
    (hl : ∀ r : Fin 4096, (x1 (ix2 r 0)).toNat ≤ 80) (y : S1x6.Idx) :
    sout0_C_0 (F := Ideal) c i arg2 harg2 arg3 harg3 arg4 harg4 arg5 harg5 arg6 harg6 arg7 harg7 hc0 hc1 x0 x1 x2 x3 xs0 y
      = xs0 y + tileVec x0 x1 x2 x3 (y 1) := by
  unfold sout0_C_0
  refine (congrFun (pieces_C (F := Ideal) c i arg2 harg2 arg3 harg3 arg4 harg4 arg5 harg5 arg6 harg6 arg7 harg7 hc0 hc1 x0 x1 x2 x3 xs0) y).trans ?_
  have h := cells_apply x0 x1 x2 x3 hl xs0 [] y
  rwa [List.append_nil] at h

/-- Case C, the output block: entry `(0, 0, j)` is the accumulator's cell `(0, j)` after the six stores. -/
theorem block_C (c : Dev nD) (i : grid0.Coords) (arg2 : Memref sig .tc .vmem S4096x81 .f32) (harg2 : arg2.IsWhole) (arg3 : Memref sig .tc .vmem S4096x1 .i32) (harg3 : arg3.IsWhole) (arg4 : Memref sig .tc .vmem S4096x1 .f32) (harg4 : arg4.IsWhole) (arg5 : Memref sig .tc .vmem S4096x1 .f32) (harg5 : arg5.IsWhole) (arg6 : Memref sig .tc .vmem S1x1x6 .f32) (harg6 : arg6.IsWhole) (arg7 : Memref sig .tc .vmem S1x6 .f32) (harg7 : arg7.IsWhole) (hc0 : ¬cond0_0 i) (hc1 : cond0_1 i)
    (x0 : Vec Ideal S4096x81 .f32) (x1 : Vec Ideal S4096x1 .i32) (x2 : Vec Ideal S4096x1 .f32) (x3 : Vec Ideal S4096x1 .f32) (xs0 : Vec Ideal S1x6 .f32)
    (hl : ∀ r : Fin 4096, (x1 (ix2 r 0)).toNat ≤ 80) (y : S1x1x6.Idx) :
    out0_C_4 (F := Ideal) c i arg2 harg2 arg3 harg3 arg4 harg4 arg5 harg5 arg6 harg6 arg7 harg7 hc0 hc1 x0 x1 x2 x3 xs0 y
      = xs0 (ix2 (0 : Fin 1) (y 2 : Fin 6)) + tileVec x0 x1 x2 x3 (y 2) := by
  unfold out0_C_4
  refine (congrFun (pieces_C_out (F := Ideal) c i arg2 harg2 arg3 harg3 arg4 harg4 arg5 harg5 arg6 harg6 arg7 harg7 hc0 hc1 x0 x1 x2 x3 xs0) y).trans ?_
  unfold k0_pay2
  have h0 : (y 0).val < 1 := (y 0).isLt
  have h1 : (y 1).val < 1 := (y 1).isLt
  refine (shapeCast_apply _ _ y (ix2 (0 : Fin 1) (y 2 : Fin 6) : S1x6.Idx) (by
    rw [Shape.rowMajor_val_two, Shape.rowMajor_val_three]
    show 0 * 6 + (y 2).val = ((y 0).val * 1 + (y 1).val) * 6 + (y 2).val
    omega)).trans ?_
  have h := cells_apply x0 x1 x2 x3 hl xs0 [] (ix2 (0 : Fin 1) (y 2 : Fin 6) : S1x6.Idx)
  rwa [List.append_nil] at h

end Cert.Loss.Ker

end
-- ==== Proof.LibScatterCount.lean ====
/-
  A SCATTER-ADD OF BITS IS A COUNT.

  `stablehlo.scatter` (PureOps' `Host.scatter`) is the left fold, over the update indices in row-major order, of
  "apply the body at the element the update lands on, drop the update when it lands outside". Three general facts:

  * `scatter_apply`: read at ONE operand index, the fold is a fold of scalars — the running value at that index
    changes only at the updates that land on it;
  * `resultIdx?_take`: for the dimension numbers of a segment sum (a rank-1 operand of `C` entries, an [N × 1] column of
    scatter indices, a rank-1 array of `N` scalar updates; the operand's one axis inserted and scattered, the index
    vector on axis 1), update `n` lands on entry `c` exactly when its index word, read signed, is `c`;
  * `toNat_scatter_count`: with word addition as the body, a zero operand entry and updates that are a widened
    one-bit mask, the entry's value is the NUMBER of updates whose index word is that entry and whose bit is set
    (`N` below 2³², so the count does not wrap).

  Nothing here names a program.
-/
import Idealize.ShloMosaic.PureOps.Reduce
import Idealize.ShloMosaic.Lib.StableHlo.Predicate
import Mathlib.Algebra.BigOperators.Fin

namespace Idealize.ShloMosaic.StableHlo.ScatterCount

open Idealize.ShloMosaic Idealize.ShloMosaic.StableHlo.Predicate

/-! ## The fold read at one index -/

section Fold

variable {α : Type} {s si u : Shape} {w : Nat}

/-- THE SCATTER AT ONE INDEX. The result's element at `i'` is the operand's element at `i'` folded, in row-major order of
    the update indices, with the updates that land on `i'`; every other update leaves it as it is. -/
theorem scatter_apply (d : ScatterDims s si u) (f : α → α → α) (x : s.Idx → α) (idx : IVec si w) (upd : u.Idx → α)
    (i' : s.Idx) :
    Host.scatter d f x idx upd i'
      = (List.finRange u.numel).foldl
          (fun a n => if d.resultIdx? (u.rowMajor.symm n) idx = some i' then f a (upd (u.rowMajor.symm n)) else a) (x i') := by
  unfold Host.scatter
  refine (List.foldl_hom (fun r : s.Idx → α => r i') ?_).symm
  intro r n
  cases hres : d.resultIdx? (u.rowMajor.symm n) idx with
  | none => simp
  | some i =>
    by_cases h : i = i'
    · subst h; simp
    · have h' : ¬ i' = i := fun e => h e.symm
      simp [h, h']

/-- A list fold of conditional word additions that does not wrap adds the values of the terms taken. -/
theorem toNat_foldl_addi_cond {ι : Type} (P : ι → Prop) [DecidablePred P] (v : ι → BitVec 32) (l : List ι) (a : BitVec 32)
    (h : a.toNat + (l.map fun j => if P j then (v j).toNat else 0).sum < 2 ^ 32) :
    (l.foldl (fun a j => if P j then IntOp.addi a (v j) else a) a).toNat
      = a.toNat + (l.map fun j => if P j then (v j).toNat else 0).sum := by
  induction l generalizing a with
  | nil => simp
  | cons j l ih =>
    rw [List.map_cons, List.sum_cons] at h ⊢
    rw [List.foldl_cons]
    by_cases hP : P j
    · rw [if_pos hP] at h ⊢
      have hadd : (IntOp.addi a (v j)).toNat = a.toNat + (v j).toNat := by
        rw [show IntOp.addi a (v j) = a + v j from rfl, BitVec.toNat_add]
        exact Nat.mod_eq_of_lt (by omega)
      rw [if_pos hP, ih _ (by rw [hadd]; omega), hadd]; omega
    · rw [if_neg hP] at h ⊢
      rw [if_neg hP, ih _ (by omega)]; omega

/-- A SCATTER-ADD OF WORDS AT ONE INDEX: when it does not wrap, the result's value at `i'` is the operand's plus the values
    of the updates that land on `i'`. -/
theorem toNat_scatter_addi (d : ScatterDims s si u) (x : IVec s 32) (idx : IVec si w) (upd : IVec u 32) (i' : s.Idx)
    (h : (x i').toNat + ∑ j : u.Idx, (if d.resultIdx? j idx = some i' then (upd j).toNat else 0) < 2 ^ 32) :
    (Host.scatter d IntOp.addi x idx upd i').toNat
      = (x i').toNat + ∑ j : u.Idx, if d.resultIdx? j idx = some i' then (upd j).toNat else 0 := by
  have hsum : ((List.finRange u.numel).map fun n =>
        if d.resultIdx? (u.rowMajor.symm n) idx = some i' then (upd (u.rowMajor.symm n)).toNat else 0).sum
      = ∑ j : u.Idx, if d.resultIdx? j idx = some i' then (upd j).toNat else 0 := by
    rw [← Fin.sum_univ_def]
    exact Equiv.sum_comp u.rowMajor.symm fun j => if d.resultIdx? j idx = some i' then (upd j).toNat else 0
  rw [scatter_apply]
  rw [toNat_foldl_addi_cond (fun n => d.resultIdx? (u.rowMajor.symm n) idx = some i') (fun n => upd (u.rowMajor.symm n)) _ _
    (by rw [hsum]; exact h), hsum]

end Fold

/-! ## The dimension numbers of a segment sum -/

section Take

variable {C N w : Nat} (d : ScatterDims ⟨1, ![C]⟩ ⟨2, ![N, 1]⟩ ⟨1, ![N]⟩)

/-- No window: the operand's one axis is inserted, so the window coordinate on it is 0. -/
theorem window_take (hi : d.insertedWindowDims = [0]) (j : (⟨1, ![N]⟩ : Shape).Idx) (a : Fin 1) : d.window j a = 0 := by
  have ha : a = 0 := Subsingleton.elim _ _
  subst ha
  have hk : (0 : Fin 1) ∉ d.sKept := by
    simp [ScatterDims.sKept, Shape.kept, List.mem_filter, hi]
  unfold ScatterDims.window
  rw [dif_neg hk]

/-- The start on the operand's one axis is update `n`'s index word — row `n` of the column — read signed. -/
theorem start_take (hs : d.scatterDimsToOperandDims = [0]) (hv : d.indexVectorDim = 1) (idx : IVec ⟨2, ![N, 1]⟩ w)
    (n : Fin N) (a : Fin 1) : d.start (Shape.Idx.ofFin n) idx a = (idx (ixP n)).toInt := by
  have ha : a = 0 := Subsingleton.elim _ _
  subst ha
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e : ∀ X : Fin 1, ((Shape.Idx.ofFin n : (⟨1, ![N]⟩ : Shape).Idx) X).val = n.val := fun X => by
      have hX : X = 0 := Subsingleton.elim _ _
      subst hX; rfl
    exact e _
  | ⟨1, _⟩ =>
    unfold ScatterDims.siIdx
    rw [dif_pos (by rw [hv])]
    apply Fin.ext
    show List.idxOf (0 : Fin 1) d.scatterDimsToOperandDims = 0
    rw [hs]; simp

/-- WHERE AN UPDATE LANDS. Update `n` lands on operand entry `c` exactly when its index word, read signed, is `c` (a word
    outside `[0, C)` lands nowhere: the update is dropped). The hypotheses are the printed dimension numbers, each by
    `rfl`. -/
theorem resultIdx?_take (hi : d.insertedWindowDims = [0]) (hs : d.scatterDimsToOperandDims = [0]) (hv : d.indexVectorDim = 1)
    (idx : IVec ⟨2, ![N, 1]⟩ w) (n : Fin N) (c : Fin C) :
    d.resultIdx? (Shape.Idx.ofFin n) idx = some (Shape.Idx.ofFin c) ↔ (idx (ixP n)).toInt = (c.val : Int) := by
  have hsw : ∀ a : Fin 1, d.start (Shape.Idx.ofFin n) idx a + (d.window (Shape.Idx.ofFin n) a : Int) = (idx (ixP n)).toInt :=
    fun a => by rw [start_take d hs hv, window_take d hi]; simp
  have hlt : c.val < C := c.isLt
  unfold ScatterDims.resultIdx?
  constructor
  · intro h
    split at h
    · next hb =>
      have e := congrArg Fin.val (congrFun (Option.some.inj h) (0 : Fin 1))
      have e0 : (d.start (Shape.Idx.ofFin n) idx 0 + (d.window (Shape.Idx.ofFin n) 0 : Int)).toNat = c.val := e
      have h0 := (hb 0).1
      rw [hsw] at e0 h0
      omega
    · exact absurd h (by simp)
  · intro h
    have hb : ∀ a : Fin 1, 0 ≤ d.start (Shape.Idx.ofFin n) idx a + (d.window (Shape.Idx.ofFin n) a : Int)
        ∧ d.start (Shape.Idx.ofFin n) idx a + (d.window (Shape.Idx.ofFin n) a : Int) < ((⟨1, ![C]⟩ : Shape).size a : Int) := by
      intro a
      have ha : a = 0 := Subsingleton.elim _ _
      subst ha
      rw [hsw, h]
      refine ⟨by omega, ?_⟩
      show (c.val : Int) < (C : Int)
      omega
    rw [dif_pos hb]
    congr 1
    funext a
    have ha : a = 0 := Subsingleton.elim _ _
    subst ha
    apply Fin.ext
    show (d.start (Shape.Idx.ofFin n) idx 0 + (d.window (Shape.Idx.ofFin n) 0 : Int)).toNat = c.val
    rw [hsw, h]; simp

/-- A rank-1 index set is its coordinate range. -/
def rank1Equiv (n : Nat) : (⟨1, ![n]⟩ : Shape).Idx ≃ Fin n where
  toFun j := j 0
  invFun := Shape.Idx.ofFin
  left_inv j := (Shape.Idx.eq_ofFin j).symm
  right_inv k := Shape.Idx.ofFin_zero k

/-- THE SEGMENT COUNT. Scatter-adding the widened bits of a mask into a zero entry leaves there the NUMBER of updates `n`
    whose index word (read signed) is that entry and whose bit is set: the segment sum of a 0/1 array.
    `N` below 2³² so the count does not wrap. -/
theorem toNat_scatter_count (hN : N < 2 ^ 32) (hi : d.insertedWindowDims = [0]) (hs : d.scatterDimsToOperandDims = [0])
    (hv : d.indexVectorDim = 1) (x : IVec ⟨1, ![C]⟩ 32) (idx : IVec ⟨2, ![N, 1]⟩ w) (mask : IVec ⟨1, ![N]⟩ 1) (hw : 1 < 32)
    (c : Fin C) (hx : x (Shape.Idx.ofFin c) = 0#32) :
    (Host.scatter d IntOp.addi x idx (extui 32 mask hw) (Shape.Idx.ofFin c)).toNat
      = (Finset.univ.filter fun n : Fin N => (idx (ixP n)).toInt = (c.val : Int) ∧ mask (Shape.Idx.ofFin n) = 1#1).card := by
  classical
  have hterm : ∀ n : Fin N,
      (if d.resultIdx? (Shape.Idx.ofFin n) idx = some (Shape.Idx.ofFin c) then (extui 32 mask hw (Shape.Idx.ofFin n)).toNat else 0)
        = if (idx (ixP n)).toInt = (c.val : Int) ∧ mask (Shape.Idx.ofFin n) = 1#1 then 1 else 0 := by
    intro n
    rw [show (extui 32 mask hw (Shape.Idx.ofFin n)).toNat = if mask (Shape.Idx.ofFin n) = 1#1 then 1 else 0 from
      toNat_setWidth_bit (mask (Shape.Idx.ofFin n))]
    by_cases h1 : d.resultIdx? (Shape.Idx.ofFin n) idx = some (Shape.Idx.ofFin c)
    · have h2 := (resultIdx?_take d hi hs hv idx n c).1 h1
      by_cases h3 : mask (Shape.Idx.ofFin n) = 1#1 <;> simp [h1, h2, h3]
    · have h2 : ¬ (idx (ixP n)).toInt = (c.val : Int) := fun e => h1 ((resultIdx?_take d hi hs hv idx n c).2 e)
      simp [h1, h2]
  have hsum : (∑ j : (⟨1, ![N]⟩ : Shape).Idx,
        if d.resultIdx? j idx = some (Shape.Idx.ofFin c) then (extui 32 mask hw j).toNat else 0)
      = (Finset.univ.filter fun n : Fin N => (idx (ixP n)).toInt = (c.val : Int) ∧ mask (Shape.Idx.ofFin n) = 1#1).card := by
    rw [Finset.card_filter]
    exact (Fintype.sum_equiv (rank1Equiv N).symm _ _ fun n => (hterm n).symm).symm
  have hle : (Finset.univ.filter fun n : Fin N =>
      (idx (ixP n)).toInt = (c.val : Int) ∧ mask (Shape.Idx.ofFin n) = 1#1).card ≤ N := by
    simpa using Finset.card_le_univ (Finset.univ.filter fun n : Fin N =>
      (idx (ixP n)).toInt = (c.val : Int) ∧ mask (Shape.Idx.ofFin n) = 1#1)
  rw [toNat_scatter_addi d x idx _ _ (by rw [hx, hsum]; simp only [BitVec.toNat_ofNat, Nat.zero_mod, Nat.zero_add]; omega), hx,
    hsum]
  simp

end Take

end Idealize.ShloMosaic.StableHlo.ScatterCount
-- ==== Proof.Counts.lean ====
/-
  THE HISTOGRAM. How many valid rows carry each class, computed two ways — by scatter-adding each row's validity bit (as a
  32-bit word) at the row's label, and by comparing the labels against the classes 0 … 80, masking with the rows' validity
  and summing the widened bits down the rows — is the specification's `countWord`.
-/
import proofs.«415084_j9577777070150_2_alg».proof.Proof.LibScatterCount
import proofs.«415084_j9577777070150_2_alg».proof.Proof.Spec

noncomputable section

namespace Cert.Loss

open Idealize.ShloMosaic Idealize.ShloMosaic.ValueIdx Idealize.ShloMosaic.StableHlo.Predicate
  Idealize.ShloMosaic.StableHlo.ScatterCount

/-- The shapes the two programs name, spelled as they spell them. -/
private abbrev S262144 : Shape := ⟨1, ![262144]⟩
private abbrev S81 : Shape := ⟨1, ![81]⟩
private abbrev S262144x1 : Shape := ⟨2, ![262144, 1]⟩
private abbrev S262144x81 : Shape := ⟨2, ![262144, 81]⟩
private abbrev S_ : Shape := ⟨0, ![]⟩
private abbrev S1x81 : Shape := ⟨2, ![1, 81]⟩

/-! ## Small facts -/

/-- The count word's value is the count itself: at most 262144 rows, so it does not wrap. -/
theorem toNat_countWord (L : Labels) (Wt : Weights) (c : Fin 81) :
    (countWord L Wt c).toNat
      = (Finset.univ.filter fun i : Fin 262144 => L (ix1 i) = BitVec.ofNat 32 c.val ∧ valid (Wt (ix1 i)) = 1#1).card := by
  unfold countWord
  rw [BitVec.toNat_ofNat]
  apply Nat.mod_eq_of_lt
  have hle := Finset.card_le_univ
    (Finset.univ.filter fun i : Fin 262144 => L (ix1 i) = BitVec.ofNat 32 c.val ∧ valid (Wt (ix1 i)) = 1#1)
  rw [Fintype.card_fin] at hle
  omega

/-- The rank-1 index at a coordinate, in the library's spelling and in the specification's. -/
theorem ofFin_eq_ix1 {n : Nat} (k : Fin n) : Shape.Idx.ofFin k = ix1 k := (Shape.Idx.eq_ofFin (ix1 k)).symm

/-- A conjunction of two bits is set exactly when both are. -/
theorem andi_bit_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-- A row's validity bit as the programs compute it — its weight compared with a broadcast zero — is the specification's. -/
theorem valid_bit (b2 : S_.BroadcastsInDim S262144 ![]) (Wt : Weights) (i : Fin 262144) :
    cmpf (F := Ideal) .ogt Wt (broadcastInDim S262144 ![] b2 (constant S_ .f32 0x00000000#32)) (Shape.Idx.ofFin i)
      = valid (Wt (ix1 i)) := by
  rw [ofFin_eq_ix1]; rfl

/-- A label word in range, read signed, is class `c` exactly when it is the word `c`. -/
theorem label_toInt_iff (l : BitVec 32) (hl : l.toNat ≤ 80) (c : Fin 81) :
    l.toInt = (c.val : Int) ↔ l = BitVec.ofNat 32 c.val := by
  have hc := c.isLt
  rw [toInt_eq_toNat_of_lt (by omega)]
  constructor
  · intro e
    apply BitVec.eq_of_toNat_eq
    rw [BitVec.toNat_ofNat]
    omega
  · intro e
    rw [e, BitVec.toNat_ofNat]
    omega

/-! ## The scatter-add of the reference -/

-- the update window axes (none) follow from the other three dimension numbers; all four printed attributes are listed
/-- Scatter-adding each row's widened validity bit at the row's label, into zeros, gives at class `c` the count word. -/
theorem scatter_counts (d : ScatterDims S81 S262144x1 S262144) (hu : d.updateWindowDims = []) (hi : d.insertedWindowDims = [0]) (hs : d.scatterDimsToOperandDims = [0]) (hv : d.indexVectorDim = 1)
    (b0 : S_.BroadcastsInDim S81 ![]) (b1 : S262144.BroadcastsInDim S262144x1 ![0]) (b2 : S_.BroadcastsInDim S262144 ![]) (L : Labels) (Wt : Weights) (hL : LabelsInRange L) (j : S81.Idx) :
    Host.scatter d IntOp.addi (broadcastInDim S81 ![] b0 (constantI S_ 32 0#32)) (broadcastInDim S262144x1 ![0] b1 L)
      (extui 32 (cmpf (F := Ideal) .ogt Wt (broadcastInDim S262144 ![] b2 (constant S_ .f32 0x00000000#32))) (by decide)) j = countWord L Wt (j 0) := by
  obtain ⟨c, rfl⟩ : ∃ c : Fin 81, j = Shape.Idx.ofFin c := ⟨j 0, Shape.Idx.eq_ofFin j⟩
  apply BitVec.eq_of_toNat_eq
  have hN : 262144 < 2 ^ 32 := by norm_num
  refine (toNat_scatter_count d hN hi hs hv _ _ _ _ c rfl).trans (Eq.trans ?_ (toNat_countWord L Wt c).symm)
  refine congrArg Finset.card (Finset.filter_congr fun n _ => ?_)
  rw [bcast_col1 b1 L n, valid_bit b2 Wt n, ofFin_eq_ix1, label_toInt_iff _ (hL n) c]

/-! ## The compare-and-reduce of the kernel's wrapper -/

/-- Comparing every label with every class 0 … 80, and-ing with the row's validity, widening and summing down the rows
    gives at class `c` the count word. -/
theorem reduce_counts (b1 : S262144.BroadcastsInDim S262144x1 ![0]) (b3 : S81.BroadcastsInDim S1x81 ![1]) (b4 : S262144x1.BroadcastsInDim S262144x81 ![0, 1]) (b5 : S1x81.BroadcastsInDim S262144x81 ![0, 1]) (b2 : S_.BroadcastsInDim S262144 ![])
    (h : S262144x81.ReducesTo [0] S81) (hu : 0 < S_.numel) (L : Labels) (Wt : Weights) (j : S81.Idx) :
    Host.reduce IntOp.addi (extui 32 (andi (cmpi .eq (broadcastInDim S262144x81 ![0, 1] b4 (broadcastInDim S262144x1 ![0] b1 L)) (broadcastInDim S262144x81 ![0, 1] b5 (broadcastInDim S1x81 ![1] b3 (iotaInDim S81 32 0))))
        (broadcastInDim S262144x81 ![0, 1] b4 (broadcastInDim S262144x1 ![0] b1 (cmpf (F := Ideal) .ogt Wt (broadcastInDim S262144 ![] b2 (constant S_ .f32 0x00000000#32)))))) (by decide))
      (constantI S_ 32 0#32) h hu j = countWord L Wt (j 0) := by
  obtain ⟨c, rfl⟩ : ∃ c : Fin 81, j = Shape.Idx.ofFin c := ⟨j 0, Shape.Idx.eq_ofFin j⟩
  apply BitVec.eq_of_toNat_eq
  have hN : 262144 < 2 ^ 32 := by norm_num
  refine (toNat_reduce_count_rows hN _ _ h hu (Shape.Idx.ofFin c)).trans (Eq.trans ?_ (toNat_countWord L Wt c).symm)
  refine congrArg Finset.card (Finset.filter_congr fun p _ => ?_)
  show IntOp.andi (IntOp.cmpi .eq (broadcastInDim S262144x81 ![0, 1] b4 (broadcastInDim S262144x1 ![0] b1 L) (ij p c))
      (broadcastInDim S262144x81 ![0, 1] b5 (broadcastInDim S1x81 ![1] b3 (iotaInDim S81 32 0)) (ij p c)))
    (broadcastInDim S262144x81 ![0, 1] b4 (broadcastInDim S262144x1 ![0] b1
      (cmpf (F := Ideal) .ogt Wt (broadcastInDim S262144 ![] b2 (constant S_ .f32 0x00000000#32)))) (ij p c)) = 1#1 ↔ _
  rw [andi_bit_eq_one_iff, cmpi_eq_iff, bcast_rows b1 b4 L p c, bcast_rows b1 b4 _ p c, bcast_cols b3 b5 _ p c,
    iota_apply, valid_bit b2 Wt p, ofFin_eq_ix1]

end Cert.Loss

end
-- ==== Proof.KPrefix.lean ====
/-
  THE HOST PREFIX. What the kernel's region finds in its three computed input arrays, from the wrapper's statements before
  the call: the labels clipped into [0, 80] and laid out as a column, the weights as a column, and the "enough samples"
  flag of every row as a float column — the histogram of the valid rows' labels (every label compared with every class,
  masked by weight > 0, summed down the rows), read back at each row's own label and compared with 2.  With the labels in
  range the clip and the read's index wrap are the identity and its in-bounds flag is set, so the three columns are the
  labels, the weights and the specification's `enoughFlag`.
-/
import proofs.«415084_j9577777070150_2_alg».proof.Proof.KIRuns
import proofs.«415084_j9577777070150_2_alg».proof.Proof.KSpec
import proofs.«415084_j9577777070150_2_alg».proof.Proof.Counts
import Idealize.ShloMosaic.Lib.StableHlo.Predicate
import Idealize.ShloMosaic.Lib.Pipeline.Value
import Idealize.ShloMosaic.Lib.ValueIdx
import Idealize.ShloMosaic.PureOps.Ideal

set_option maxRecDepth 16384

noncomputable section

namespace Cert.Loss.Ker

open Cert.KernelIdeal Cert.KernelIdeal.Gen Cert.KernelIdeal.GenP
open Idealize.ShloMosaic Idealize.ShloMosaic.TcCoe Idealize.ShloMosaic.StableHlo

variable (m : (ℓ : Loc nD τ sig) → Buf (Elt Ideal) ℓ)

/-! ## The arrays the wrapper forms, as functions of the labels and the weights -/

/-- The labels clipped into [0, 80], as the wrapper's call of `clip` forms them. -/
def clipped (L : IVec S262144 32) : IVec S262144 32 :=
  minsi (broadcastInDim S262144 ![] Facts₀.bcast_S_S262144 (constantI S_ 32 80#32))
    (maxsi (broadcastInDim S262144 ![] Facts₀.bcast_S_S262144 (constantI S_ 32 0#32)) L)

/-- The histogram as the wrapper forms it: every label compared with every class 0 … 80, masked by the row's validity
    (weight > 0), widened to 32 bits and summed down the rows. -/
def counts (l : IVec S262144 32) (w : FVec Ideal S262144 .f32) : IVec S81 32 :=
  Host.reduce IntOp.addi
    (extui 32
      (andi
        (cmpi .eq
          (broadcastInDim S262144x81 ![0, 1] Facts₀.bcast_S262144x1_S262144x81_0_1 (broadcastInDim S262144x1 ![0] Facts₀.bcast_S262144_S262144x1_0 l))
          (broadcastInDim S262144x81 ![0, 1] Facts₀.bcast_S1x81_S262144x81_0_1 (broadcastInDim S1x81 ![1] Facts₀.bcast_S81_S1x81_1 (iotaInDim S81 32 0))))
        (broadcastInDim S262144x81 ![0, 1] Facts₀.bcast_S262144x1_S262144x81_0_1
          (broadcastInDim S262144x1 ![0] Facts₀.bcast_S262144_S262144x1_0
            (cmpf (F := Ideal) .ogt w (broadcastInDim S262144 ![] Facts₀.bcast_S_S262144 (constant S_ .f32 0x00000000#32))))))
      Facts₀.natLt_1_32)
    (constantI S_ 32 0#32) Facts₀.reducesTo_S262144x81_S81_d0 Facts₀.h_S_

/-- The labels as the `take` wraps them: a negative one moved up by 81. -/
def wrapped (l : IVec S262144 32) : IVec S262144 32 :=
  select (cmpi .slt l (broadcastInDim S262144 ![] Facts₀.bcast_S_S262144 (constantI S_ 32 0#32)))
    (addi l (broadcastInDim S262144 ![] Facts₀.bcast_S_S262144 (constantI S_ 32 81#32))) l

/-- The wrapped labels as a column of start indices. -/
def startCol (l : IVec S262144 32) : IVec S262144x1 32 :=
  broadcastInDim S262144x1 ![0] Facts₀.bcast_S262144_S262144x1_0 (wrapped l)

/-- The `take`'s in-bounds flag of each row: its start index is at least 0 and at most 80. -/
def inBounds (l : IVec S262144 32) : IVec S262144 1 :=
  Host.reduce IntOp.andi
    (andi (cmpi .sge (startCol l) (broadcastInDim S262144x1 ![] Facts₀.bcast_S_S262144x1 (constantI S_ 32 0#32)))
      (cmpi .sle (startCol l) (broadcastInDim S262144x1 ![0, 1] Facts₀.bcast_S1x1_S262144x1_0_1 (broadcastInDim S1x1 ![1] Facts₀.bcast_S1_S1x1_1 (constantI S1 32 80#32)))))
    (constantI S_ 1 1#1) Facts₀.reducesTo_S262144x1_S262144_d1 Facts₀.h_S_

/-- The count of each row's own class as the `take` reads it: the table gathered at the start indices where in bounds,
    the fill value elsewhere. -/
def taken (cnt : IVec S81 32) (l : IVec S262144 32) : IVec S262144 32 :=
  select (inBounds l) (Host.gather gather_S81_S262144x1_S262144_n_0_n_n_0_1_1 cnt (startCol l))
    (broadcastInDim S262144 ![] Facts₀.bcast_S_S262144 (constantI S_ 32 2147483648#32))

/-! ## The three columns as terms over the launch contents -/

set_option maxHeartbeats 4000000 in
/-- The label column: the clipped labels reshaped. -/
theorem labels_term (c : Dev nD) : (V m c main_v17 : S262144x1.Idx → BitVec 32)
    = fun i => shapeCast S262144x1 (clipped (m ((c : Thread nD τ).loc main_arg1))) Facts₀.shapeCasts_S262144_S262144x1 i := by
  dsimp only [V, V0]
  simp only [hostOps0, hostOps0_1, hostOps0_2, hostOps0_3, hostOps0_4, List.flatten_cons, List.flatten_nil, List.append_nil, List.cons_append, List.nil_append]
  after_results_simp
  simp only [TRef.ofBuf, TRef.toBuf, cast_eq]
  rfl

set_option maxHeartbeats 4000000 in
/-- The weight column: the weights reshaped. -/
theorem weights_term (c : Dev nD) : (V m c main_v18 : S262144x1.Idx → EReal)
    = fun i => shapeCast S262144x1 (m ((c : Thread nD τ).loc main_arg2)) Facts₀.shapeCasts_S262144_S262144x1 i := by
  dsimp only [V, V0]
  simp only [hostOps0, hostOps0_1, hostOps0_2, hostOps0_3, hostOps0_4, List.flatten_cons, List.flatten_nil, List.append_nil, List.cons_append, List.nil_append]
  after_results_simp
  rfl

/-! ## The flag column, stretch by stretch -/

/-- Two lines of host operations run one after the other. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-- The region-entry contents, stretch by stretch. -/
theorem V0_eq (c : Dev nD) :
    V0 m c = after hostOps0_4 (after hostOps0_3 (after hostOps0_2 (after hostOps0_1 (after hostOps0 (fun b => m (c, b)))))) := by
  show after (List.flatten [hostOps0, hostOps0_1, hostOps0_2, hostOps0_3, hostOps0_4]) _ = _
  simp only [List.flatten_cons, List.flatten_nil, List.append_nil, after_append]

set_option maxHeartbeats 4000000 in
/-- The two constants and the call of `clip`: the clipped labels. -/
theorem clip_result (W : Valuation τ sig (Elt Ideal)) :
    (after hostOps0_1 (after hostOps0 W) (Proc.devRef .tc main_v0) : S262144.Idx → BitVec 32)
      = clipped (W (Proc.devRef .tc main_arg1)) := by
  simp only [hostOps0, hostOps0_1]
  after_results_simp
  simp only [TRef.ofBuf, TRef.toBuf, cast_eq]
  rfl

set_option maxHeartbeats 4000000 in
/-- They leave the weights as they were. -/
theorem clip_keeps_weights (W : Valuation τ sig (Elt Ideal)) :
    (after hostOps0_1 (after hostOps0 W) (Proc.devRef .tc main_arg2) : S262144.Idx → EReal) = W (Proc.devRef .tc main_arg2) := by
  simp only [hostOps0, hostOps0_1]
  after_results_simp

set_option maxHeartbeats 4000000 in
/-- The histogram's stretch: the counts. -/
theorem counts_result (W : Valuation τ sig (Elt Ideal)) :
    (after hostOps0_2 W (Proc.devRef .tc main_v13) : S81.Idx → BitVec 32)
      = counts (W (Proc.devRef .tc main_v0)) (W (Proc.devRef .tc main_arg2)) := by
  simp only [hostOps0_2]
  after_results_simp
  rfl

set_option maxHeartbeats 4000000 in
/-- It leaves the clipped labels as they were. -/
theorem counts_keeps_labels (W : Valuation τ sig (Elt Ideal)) :
    (after hostOps0_2 W (Proc.devRef .tc main_v0) : S262144.Idx → BitVec 32) = W (Proc.devRef .tc main_v0) := by
  simp only [hostOps0_2]
  after_results_simp

set_option maxHeartbeats 4000000 in
/-- The call of `take`: each row's count. -/
theorem take_result (W : Valuation τ sig (Elt Ideal)) :
    (after hostOps0_3 W (Proc.devRef .tc main_v14) : S262144.Idx → BitVec 32)
      = taken (W (Proc.devRef .tc main_v13)) (W (Proc.devRef .tc main_v0)) := by
  simp only [hostOps0_3]
  after_results_simp
  simp only [TRef.ofBuf, TRef.toBuf, cast_eq]
  rfl

set_option maxHeartbeats 4000000 in
/-- The last stretch: the "enough samples" flag as a float column. -/
theorem flag_result (W : Valuation τ sig (Elt Ideal)) :
    (after hostOps0_4 W (Proc.devRef .tc main_v20) : S262144x1.Idx → EReal)
      = fun i => shapeCast S262144x1
          (uitofp (F := Ideal) .f32 (cmpi .sge (W (Proc.devRef .tc main_v14)) (broadcastInDim S262144 ![] Facts₀.bcast_S_S262144 (constantI S_ 32 2#32))))
          Facts₀.shapeCasts_S262144_S262144x1 i := by
  simp only [hostOps0_4]
  after_results_simp
  rfl

/-- The "enough samples" column the region finds, as a term over the launch contents. -/
theorem enough_term (c : Dev nD) : (V m c main_v20 : S262144x1.Idx → EReal)
    = fun i => shapeCast S262144x1
        (uitofp (F := Ideal) .f32
          (cmpi .sge (taken (counts (clipped (m ((c : Thread nD τ).loc main_arg1))) (m ((c : Thread nD τ).loc main_arg2)))
              (clipped (m ((c : Thread nD τ).loc main_arg1))))
            (broadcastInDim S262144 ![] Facts₀.bcast_S_S262144 (constantI S_ 32 2#32))))
        Facts₀.shapeCasts_S262144_S262144x1 i := by
  show V0 m c (Proc.devRef .tc main_v20) = _
  rw [V0_eq, flag_result, take_result, counts_result, counts_keeps_labels, clip_result, clip_keeps_weights]

open Idealize.ShloMosaic.ValueIdx Idealize.ShloMosaic.StableHlo.Predicate

/-! ## Reading the terms at a row -/

/-- The rank-1 index at a coordinate, in the library's two spellings. -/
theorem ofFin_ix1 {n : Nat} (k : Fin n) : Shape.Idx.ofFin k = ix1 k := (Shape.Idx.eq_ofFin (ix1 k)).symm

/-- A vector reshaped to a column reads, at row `j 0`, the vector there. -/
theorem reshape_col {α : Type} (x : S262144.Idx → α) (h : S262144.ShapeCasts S262144x1) (j : S262144x1.Idx) :
    shapeCast S262144x1 x h j = x (ix1 (j 0)) := by
  refine shapeCast_apply x h j (ix1 (j 0)) ?_
  rw [Shape.rowMajor_val_one, Shape.rowMajor_val_two]
  have h1 := idx2_lt1 j
  show (j 0).val = (j 0).val * 1 + (j 1).val
  omega

/-- The clip of a word already in [0, 80] is the word. -/
theorem clip_word (w : BitVec 32) (hw : w.toNat ≤ 80) : IntOp.minsi 80#32 (IntOp.maxsi 0#32 w) = w := by
  have hti : w.toInt = w.toNat := toInt_eq_toNat_of_lt (by omega)
  have h0 : ¬ (w.slt 0#32 = true) := by
    simp only [BitVec.slt, hti, show (0#32 : BitVec 32).toInt = 0 from by decide, decide_eq_true_eq]; omega
  have h80 : ¬ ((80#32 : BitVec 32).slt w = true) := by
    simp only [BitVec.slt, hti, show (80#32 : BitVec 32).toInt = 80 from by decide, decide_eq_true_eq]; omega
  unfold IntOp.minsi IntOp.maxsi
  rw [if_neg h0, if_neg h80]

/-- Labels in range are their own clip. -/
theorem clipped_eq (l : IVec S262144 32) (hl : ∀ i, (l i).toNat ≤ 80) : clipped l = l := by
  funext i
  exact clip_word (l i) (hl i)

/-- A small word is not negative. -/
theorem slt_zero_of_small (w : BitVec 32) (hw : w.toNat < 2 ^ 31) : IntOp.cmpi .slt w 0#32 = 0#1 := by
  apply eq_zero_of_ne_one
  rw [slt_iff_toNat hw (by decide)]
  show ¬ w.toNat < 0
  omega

/-- Labels in range are not wrapped. -/
theorem wrapped_eq (l : IVec S262144 32) (hl : ∀ i, (l i).toNat ≤ 80) : wrapped l = l := by
  funext i
  show Scalar.select (IntOp.cmpi .slt (l i) 0#32) (IntOp.addi (l i) 81#32) (l i) = l i
  rw [slt_zero_of_small (l i) (by have := hl i; omega), select_zero]

/-- The start index of row `p` is its label. -/
theorem startCol_apply (l : IVec S262144 32) (hl : ∀ i, (l i).toNat ≤ 80) (p : Fin 262144) :
    startCol l (ixP p) = l (Shape.Idx.ofFin p) := by
  unfold startCol
  rw [wrapped_eq l hl]
  exact bcast_col1 _ l p

/-- Every start index is in range. -/
theorem startCol_le (l : IVec S262144 32) (hl : ∀ i, (l i).toNat ≤ 80) (j : S262144x1.Idx) : (startCol l j).toNat ≤ 80 := by
  unfold startCol
  rw [wrapped_eq l hl]
  exact hl _

/-- A conjunction of ones, from one, is one. -/
theorem fold_andi_one {ι : Type} (S : Finset ι) : S.fold IntOp.andi 1#1 (fun _ => 1#1) = 1#1 := by
  classical
  induction S using Finset.induction_on with
  | empty => rfl
  | insert a S ha ih => rw [Finset.fold_insert ha, ih]; rfl

/-- With labels in range every row is in bounds. -/
theorem inBounds_eq (l : IVec S262144 32) (hl : ∀ i, (l i).toNat ≤ 80) (i : S262144.Idx) : inBounds l i = 1#1 := by
  unfold inBounds
  rw [Host.reduce_eq_fold]
  refine (Finset.fold_congr (g := fun _ => 1#1) fun j _ => ?_).trans (fold_andi_one _)
  show IntOp.andi (IntOp.cmpi .sge (startCol l j) 0#32) (IntOp.cmpi .sle (startCol l j) 80#32) = 1#1
  have hj := startCol_le l hl j
  rw [(sge_iff_toNat (by omega) (by decide)).2 (by show 0 ≤ _; omega), (sle_iff_toNat (by omega) (by decide)).2 (by show _ ≤ 80; omega)]
  rfl

/-- With labels in range the `take` reads, at row `p`, the table at the row's label. -/
theorem taken_apply (cnt : IVec S81 32) (l : IVec S262144 32) (hl : ∀ i, (l i).toNat ≤ 80) (p : Fin 262144) :
    taken cnt l (Shape.Idx.ofFin p)
      = cnt (Shape.Idx.ofFin ⟨(l (Shape.Idx.ofFin p)).toNat, by have := hl (Shape.Idx.ofFin p); omega⟩) := by
  have hp := hl (Shape.Idx.ofFin p)
  unfold taken
  rw [select_apply, inBounds_eq l hl, select_one,
    gather_take gather_S81_S262144x1_S262144_n_0_n_n_0_1_1 rfl rfl rfl rfl cnt (startCol l) p (by decide)]
  refine congrArg cnt (congrArg Shape.Idx.ofFin (Fin.ext ?_))
  show min (startCol l (ixP p)).toInt.toNat (81 - 1) = (l (Shape.Idx.ofFin p)).toNat
  rw [startCol_apply l hl p, toInt_eq_toNat_of_lt (by omega), Int.toNat_natCast]
  omega

/-! ## The interface: the three columns under the labels' range -/

/-- The range fact at any index of the label vector. -/
theorem inRange {L : Labels} (hL : LabelsInRange L) (i : S262144.Idx) : (L i).toNat ≤ 80 := by
  rw [eq_ix1 i]; exact hL (i 0)

/-- With labels in range, the count the `take` reads at row `p` is the count of the row's own class. -/
theorem count_at_row (L : Labels) (Wt : Weights) (hL : LabelsInRange L) (p : Fin 262144) :
    taken (counts L Wt) L (ix1 p) = countAt L Wt p := by
  rw [← ofFin_ix1, taken_apply _ _ (inRange hL)]
  unfold counts
  rw [reduce_counts]
  unfold countAt
  congr 1
  apply Fin.ext
  show (L (Shape.Idx.ofFin p)).toNat = (L (ix1 p)).toNat % 81
  rw [ofFin_ix1, Nat.mod_eq_of_lt (by have := hL p; omega)]

/-- The region finds the labels, as a column. -/
theorem V_labels (c : Dev nD) (hL : LabelsInRange (m ((c : Thread nD τ).loc main_arg1))) :
    (V m c main_v17 : S262144x1.Idx → BitVec 32) = fun j => m ((c : Thread nD τ).loc main_arg1) (ValueIdx.ix1 (j 0)) := by
  rw [labels_term]
  funext j
  beta_reduce
  rw [reshape_col, clipped_eq _ (inRange hL)]

/-- The region finds the weights, as a column. -/
theorem V_weights (c : Dev nD) :
    (V m c main_v18 : S262144x1.Idx → EReal) = fun j => m ((c : Thread nD τ).loc main_arg2) (ValueIdx.ix1 (j 0)) := by
  rw [weights_term]
  funext j
  beta_reduce
  rw [reshape_col]

/-- The region finds the "enough samples" flag of every row, as a float column. -/
theorem V_enough (c : Dev nD) (hL : LabelsInRange (m ((c : Thread nD τ).loc main_arg1))) :
    (V m c main_v20 : S262144x1.Idx → EReal)
      = fun j => enoughFlag (m ((c : Thread nD τ).loc main_arg1)) (m ((c : Thread nD τ).loc main_arg2)) (ValueIdx.ix1 (j 0)) := by
  rw [enough_term]
  funext j
  beta_reduce
  rw [reshape_col, clipped_eq _ (inRange hL)]
  show (((IntOp.cmpi .sge (taken (counts (m ((c : Thread nD τ).loc main_arg1)) (m ((c : Thread nD τ).loc main_arg2)))
      (m ((c : Thread nD τ).loc main_arg1)) (ix1 (j 0))) 2#32).toNat : ℝ) : EReal) = _
  exact congrArg (fun n : BitVec 32 => (((IntOp.cmpi .sge n 2#32).toNat : ℝ) : EReal)) (count_at_row _ _ hL (j 0))

end Cert.Loss.Ker

end
-- ==== Proof.KRun.lean ====
/-
  The kernel program's run, with its three results named: from any memory whose labels are class indices, the program
  terminates with each group's loss at `finish` of the grid's sums of that group (`gridAcc`) and the arguments unchanged.
-/
import proofs.«415084_j9577777070150_2_alg».proof.Proof.KOut
import proofs.«415084_j9577777070150_2_alg».proof.Proof.KTile
import proofs.«415084_j9577777070150_2_alg».proof.Proof.KPrefix

set_option maxRecDepth 16384

noncomputable section

namespace Cert.Loss.Ker

open Idealize.ShloMosaic Idealize.ShloMosaic.TcCoe Idealize.SL.Sem Idealize.ShloMosaic.ValueIdx
open Cert.KernelIdeal

/-- The per-tile facts, gathered. -/
theorem tileLaws : TileLaws :=
  ⟨fun c i arg2 harg2 arg3 harg3 arg4 harg4 arg5 harg5 arg6 harg6 arg7 harg7 hc0 hc1 x0 x1 x2 x3 hl y => scratch_A c i arg2 harg2 arg3 harg3 arg4 harg4 arg5 harg5 arg6 harg6 arg7 harg7 hc0 hc1 x0 x1 x2 x3 hl y,
   fun c i arg2 harg2 arg3 harg3 arg4 harg4 arg5 harg5 arg6 harg6 arg7 harg7 hc0 hc1 x0 x1 x2 x3 xs0 hl y => scratch_B c i arg2 harg2 arg3 harg3 arg4 harg4 arg5 harg5 arg6 harg6 arg7 harg7 hc0 hc1 x0 x1 x2 x3 xs0 hl y,
   fun c i arg2 harg2 arg3 harg3 arg4 harg4 arg5 harg5 arg6 harg6 arg7 harg7 hc0 hc1 x0 x1 x2 x3 xs0 hl y => scratch_C c i arg2 harg2 arg3 harg3 arg4 harg4 arg5 harg5 arg6 harg6 arg7 harg7 hc0 hc1 x0 x1 x2 x3 xs0 hl y,
   fun c i arg2 harg2 arg3 harg3 arg4 harg4 arg5 harg5 arg6 harg6 arg7 harg7 hc0 hc1 x0 x1 x2 x3 xs0 hl y => block_C c i arg2 harg2 arg3 harg3 arg4 harg4 arg5 harg5 arg6 harg6 arg7 harg7 hc0 hc1 x0 x1 x2 x3 xs0 hl y⟩

theorem kernel_run (m : (ℓ : Loc Cert.KernelIdeal.nD Cert.KernelIdeal.τ Cert.KernelIdeal.sig) → Buf (Elt Ideal) ℓ) (ρ : Dev Cert.KernelIdeal.nD → PrngReg)
    (hL : ∀ c : Dev Cert.KernelIdeal.nD, LabelsInRange (m ((c.tc : Thread Cert.KernelIdeal.nD Cert.KernelIdeal.τ).loc Cert.KernelIdeal.main_arg1))) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v42)
          = (fun _ => finish (gridAcc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) 0)
              (gridAcc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) 1) 0x3D088889#32)
      ∧ r.2.mem ((c.tc : Thread Cert.KernelIdeal.nD Cert.KernelIdeal.τ).loc Cert.KernelIdeal.main_v49)
          = (fun _ => finish (gridAcc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) 2)
              (gridAcc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) 3) 0x3DCCCCCD#32)
      ∧ r.2.mem ((c.tc : Thread Cert.KernelIdeal.nD Cert.KernelIdeal.τ).loc Cert.KernelIdeal.main_v56)
          = (fun _ => finish (gridAcc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) 4)
              (gridAcc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) 5) 0x3A83126F#32)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  kernel_run_of m ρ tileLaws hL (fun c => V_labels m c (hL c)) (fun c => V_weights m c) (fun c => V_enough m c (hL c))

end Cert.Loss.Ker

end
-- ==== Proof.RefReads.lean ====
/-
  Reading the host operations that the reference's stage-by-stage statement leaves unread, each once and at one element:
  the row maximum (a fold of `max` from −∞ over a row), the take along a row at a label (a gather with a batching axis),
  the take out of a table at a label, an and-reduction over an axis of extent one, and the count of set bits of a mask.
  A label word is a class index 0 … 80, so its signed reading is its value and the clamp into the table is the identity.
-/
import proofs.«415084_j9577777070150_2_alg».proof.Proof.Spec
import Idealize.ShloMosaic.PureOps.Reduce
import Idealize.ShloMosaic.PureOps.Ideal.Laws
import Idealize.ShloMosaic.Lib.ValueIdx
import Idealize.ShloMosaic.Lib.StableHlo.Predicate

noncomputable section

namespace Cert.Loss.Ref

open Idealize.ShloMosaic Idealize.ShloMosaic.ValueIdx Idealize.ShloMosaic.StableHlo

/-! ## Labels -/

/-- A label word in range read signed, as a natural, and clamped to 80 is its value. -/
theorem label_clamp (l : BitVec 32) (hl : l.toNat ≤ 80) : min l.toInt.toNat (81 - 1) = l.toNat := by
  rw [Predicate.toInt_eq_toNat_of_lt (by omega), Int.toNat_natCast]
  omega

/-- The class of a label word in range is the word's value. -/
theorem cls_val (l : BitVec 32) (hl : l.toNat ≤ 80) : (cls l).val = l.toNat := Nat.mod_eq_of_lt (by omega)

/-- A label word in range is not negative. -/
theorem label_not_neg (l : BitVec 32) (hl : l.toNat ≤ 80) : IntOp.cmpi .slt l 0#32 = 0#1 := by
  have h : ¬ (IntOp.cmpi .slt l 0#32 = 1#1) := by
    rw [Predicate.slt_iff_toNat (by omega) (by decide)]
    simp
  exact eq_zero_of_ne_one h

/-! ## The row maximum -/

/-- The index over row `i` with column `k` put back is (i, k). -/
theorem lift_row {N C : Nat} (h : (⟨2, ![N, C]⟩ : Shape).Reduces [1] (⟨1, ![N]⟩ : Shape)) (i : Fin N)
    (k : Fin ((⟨2, ![N, C]⟩ : Shape).size 1)) : h.lift (ix1 i) k = ix2 i (⟨k.val, k.isLt⟩ : Fin C) := by
  funext c; apply Fin.ext
  match c with
  | ⟨0, _⟩ => rfl
  | ⟨1, _⟩ => rfl

/-- The host's reduce with a maximum body over the columns, from −∞, is at row `i` that row's maximum. -/
theorem reduce_max_row (x : (⟨2, ![262144, 81]⟩ : Shape).Idx → EReal) (init : (⟨0, ![]⟩ : Shape).Idx → EReal)
    (hinit : ∀ j, init j = Ideal.ofBits .f32 0xFF800000#32)
    (h' : (⟨2, ![262144, 81]⟩ : Shape).ReducesTo [1] (⟨1, ![262144]⟩ : Shape))
    (h : (⟨2, ![262144, 81]⟩ : Shape).Reduces [1] (⟨1, ![262144]⟩ : Shape)) (hu : 0 < (⟨0, ![]⟩ : Shape).numel) (i : Fin 262144) :
    Host.reduce (FloatOps.maximumf (F := Ideal) (φ := .f32)) x init h' hu (ix1 i) = rowMax (fun c => x (ix2 i c)) := by
  rw [Host.reduce_eq_fold_single (FloatOps.maximumf (F := Ideal) (φ := .f32)) x init h' h hu, hinit]
  have hf : (x ∘ h.lift (ix1 i)) = fun c : Fin 81 => x (ix2 i c) := funext fun k => congrArg x (lift_row h i k)
  unfold rowMax
  exact congrArg (fun f => Finset.fold max (Ideal.ofBits .f32 0xFF800000#32) f (Finset.univ : Finset (Fin 81))) hf

/-- The maximum with −∞ is the other operand. -/
theorem max_neg_inf (y : EReal) : max (Ideal.ofBits .f32 0xFF800000#32) y = y := by
  simp [Ideal.ofBits, Ideal.ieee]

/-! ## The take along a row -/

/-- The dimension numbers of the take along the columns of an [N × C] array: the rows are a batching axis, the
    column is collapsed and start-indexed, and the start indices are an [N × 1 × 1] array. -/
abbrev rowTakeDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The take along row `i`: the array at (i, the row's start index read signed and clamped into the columns). -/
theorem gather_rowTake_apply {α : Type} {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (i : Fin N) :
    Host.gather (rowTakeDims N C wf) x idx (ix2 i (0 : Fin 1))
      = x (ix2 i ⟨min (idx (ix3 i (0 : Fin 1) (0 : Fin 1))).toInt.toNat (C - 1), by omega⟩) := by
  unfold Host.gather
  congr 1
  funext a
  refine Fin.ext ?_
  match a with
  | ⟨0, _⟩ =>
    show (rowTakeDims N C wf).start (ix2 i (0 : Fin 1)) idx 0 + (rowTakeDims N C wf).batchCoord (ix2 i (0 : Fin 1)) 0
      + (rowTakeDims N C wf).offCoord (ix2 i (0 : Fin 1)) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (rowTakeDims N C wf).start (ix2 i (0 : Fin 1)) idx 1 + (rowTakeDims N C wf).batchCoord (ix2 i (0 : Fin 1)) 1
      + (rowTakeDims N C wf).offCoord (ix2 i (0 : Fin 1)) 1 = min (idx (ix3 i (0 : Fin 1) (0 : Fin 1))).toInt.toNat (C - 1)
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims N C wf).startIndexMap from List.mem_singleton.mpr rfl)]
    have hsi : (rowTakeDims N C wf).siIdx (ix2 i (0 : Fin 1)) ⟨List.idxOf (1 : Fin 2) (rowTakeDims N C wf).startIndexMap,
        List.idxOf_lt_length_iff.2 (List.mem_singleton.mpr rfl)⟩ = ix3 i (0 : Fin 1) (0 : Fin 1) := by
      funext b; refine Fin.ext ?_
      match b with
      | ⟨0, _⟩ => rfl
      | ⟨1, _⟩ => rfl
      | ⟨2, _⟩ => rfl
    rw [hsi]
    rfl

/-- At a label in range the take along row `i` reads the array at (i, the label's class). -/
theorem gather_rowTake_label {α : Type}
    (wf : GatherDims.WF ⟨2, ![262144, 81]⟩ ⟨3, ![262144, 1, 1]⟩ ⟨2, ![262144, 1]⟩ [] [1] [0] [1] [0] 2 ![1, 1])
    (x : (⟨2, ![262144, 81]⟩ : Shape).Idx → α) (idx : IVec ⟨3, ![262144, 1, 1]⟩ 32) (i : Fin 262144) (l : BitVec 32)
    (hidx : idx (ix3 i (0 : Fin 1) (0 : Fin 1)) = l) (hl : l.toNat ≤ 80) :
    Host.gather (rowTakeDims 262144 81 wf) x idx (ix2 i (0 : Fin 1)) = x (ix2 i (cls l)) := by
  rw [gather_rowTake_apply (by decide) wf x idx i]
  refine congrArg x (congrArg (ix2 i) (Fin.ext ?_))
  show min (idx (ix3 i (0 : Fin 1) (0 : Fin 1))).toInt.toNat (81 - 1) = (cls l).val
  rw [hidx, label_clamp l hl, cls_val l hl]

/-! ## The take out of a table -/

/-- At a label in range the take out of an 81-entry table reads the table at the label's class. -/
theorem gather_take_label {α : Type} (d : GatherDims ⟨1, ![81]⟩ ⟨2, ![262144, 1]⟩ ⟨1, ![262144]⟩)
    (hcoll : d.collapsedSliceDims = [0]) (hob : d.operandBatchingDims = [])
    (hsim : d.startIndexMap = [0]) (hivd : d.indexVectorDim = 1)
    (x : (⟨1, ![81]⟩ : Shape).Idx → α) (idx : IVec ⟨2, ![262144, 1]⟩ 32) (i : Fin 262144) (l : BitVec 32)
    (hidx : idx (ix2 i (0 : Fin 1)) = l) (hl : l.toNat ≤ 80) :
    Host.gather d x idx (ix1 i) = x (ix1 (cls l)) := by
  have e1 : (ix1 i : (⟨1, ![262144]⟩ : Shape).Idx) = Shape.Idx.ofFin i := by
    funext a; match a with | ⟨0, _⟩ => rfl
  have e2 : (Predicate.ixP i : (⟨2, ![262144, 1]⟩ : Shape).Idx) = ix2 i (0 : Fin 1) := by
    funext a; match a with | ⟨0, _⟩ => rfl | ⟨1, _⟩ => rfl
  rw [e1, Predicate.gather_take d hcoll hob hsim hivd x idx i (by decide)]
  refine congrArg x ?_
  funext a
  match a with
  | ⟨0, _⟩ =>
    exact Fin.ext (by
      show min (idx (Predicate.ixP i)).toInt.toNat (81 - 1) = (cls l).val
      rw [e2, hidx, label_clamp l hl, cls_val l hl])

/-! ## An and-reduction over an axis of extent one -/

/-- Reducing with `and` over the last axis, of extent one, of an [N × 1 × 1] mask leaves at (i, 0) the mask's bit there,
    and-ed with the initial value. -/
theorem reduce_and_unit {N : Nat} (m : IVec ⟨3, ![N, 1, 1]⟩ 1) (init : (⟨0, ![]⟩ : Shape).Idx → BitVec 1)
    (h' : (⟨3, ![N, 1, 1]⟩ : Shape).ReducesTo [2] (⟨2, ![N, 1]⟩ : Shape))
    (h : (⟨3, ![N, 1, 1]⟩ : Shape).Reduces [2] (⟨2, ![N, 1]⟩ : Shape)) (hu : 0 < (⟨0, ![]⟩ : Shape).numel) (i : Fin N) :
    Host.reduce IntOp.andi m init h' hu (ix2 i (0 : Fin 1))
      = IntOp.andi (m (ix3 i (0 : Fin 1) (0 : Fin 1))) (init (Shape.Idx.first hu)) := by
  rw [Host.reduce_eq_fold_single IntOp.andi m init h' h hu]
  have key : ∀ (g : Fin 1 → BitVec 1) (b : BitVec 1),
      (Finset.univ : Finset (Fin 1)).fold IntOp.andi b g = IntOp.andi (g 0) b := by
    intro g b; rw [Finset.univ_unique, Finset.fold_singleton]; rfl
  refine (key (m ∘ h.lift (ix2 i (0 : Fin 1))) (init (Shape.Idx.first hu))).trans ?_
  show IntOp.andi (m (h.lift (ix2 i (0 : Fin 1)) (0 : Fin 1))) (init (Shape.Idx.first hu)) = _
  refine congrArg (fun z => IntOp.andi (m z) (init (Shape.Idx.first hu))) ?_
  funext c; apply Fin.ext
  match c with
  | ⟨0, _⟩ => rfl
  | ⟨1, _⟩ => rfl
  | ⟨2, _⟩ => rfl

/-! ## The count of a mask's set bits -/

/-- Summing the widened bits of a mask over its one axis gives a word whose value is the number of set bits. -/
theorem toNat_reduce_count (mask : IVec ⟨1, ![262144]⟩ 1) (hw : 1 < 32) (init : (⟨0, ![]⟩ : Shape).Idx → BitVec 32)
    (hinit : ∀ j, init j = 0#32)
    (h' : (⟨1, ![262144]⟩ : Shape).ReducesTo [0] (⟨0, ![]⟩ : Shape)) (hu : 0 < (⟨0, ![]⟩ : Shape).numel)
    (j : (⟨0, ![]⟩ : Shape).Idx) :
    (Host.reduce IntOp.addi (extui 32 mask hw) init h' hu j).toNat
      = (Finset.univ.filter (fun i : Fin 262144 => mask (ix1 i) = 1#1)).card := by
  classical
  rw [Host.reduce_eq_fold, hinit]
  have hall : (Finset.univ.filter fun i : (⟨1, ![262144]⟩ : Shape).Idx => h'.drop i = j) = Finset.univ :=
    Finset.filter_true_of_mem fun i _ => funext fun b => b.elim0
  rw [hall]
  have hval : ∀ i, (extui 32 mask hw i).toNat = if mask i = 1#1 then 1 else 0 := fun i => Predicate.toNat_setWidth_bit (mask i)
  have hsum : ∑ i : (⟨1, ![262144]⟩ : Shape).Idx, (extui 32 mask hw i).toNat
      = (Finset.univ.filter (fun i : Fin 262144 => mask (ix1 i) = 1#1)).card := by
    rw [Finset.card_filter]
    refine Finset.sum_bij' (fun i _ => i 0) (fun p _ => ix1 p) (fun _ _ => Finset.mem_univ _) (fun _ _ => Finset.mem_univ _)
      (fun i _ => (eq_ix1 i).symm) (fun _ _ => rfl) ?_
    intro i _
    rw [hval]
    exact congrArg (fun z => if mask z = 1#1 then 1 else 0) (eq_ix1 i)
  rw [Predicate.toNat_fold_addi _ _ (by rw [hsum]; exact lt_of_le_of_lt (Finset.card_le_univ _) (by simp)), hsum]

end Cert.Loss.Ref

end
-- ==== Proof.RefRow.lean ====
/-
  The reference's row stage, read at one element: the row maximum, the exponentials, the softmax probabilities, the
  labelled class's probability (the take along the row at the label, whose in-bounds flag is set for a label in range),
  the clipped margins' capped logarithms, the squared clipped slack, the weighted terms and the row sum.
-/
import proofs.«415084_j9577777070150_2_alg».proof.Proof.RIReadDefs
import proofs.«415084_j9577777070150_2_alg».proof.Proof.Spec
import proofs.«415084_j9577777070150_2_alg».proof.Proof.RefReads

noncomputable section

namespace Cert.Loss.Ref

open Idealize.ShloMosaic Idealize.ShloMosaic.ValueIdx Idealize.ShloMosaic.StableHlo
open Cert.ReferenceIdeal Cert.ReferenceIdeal.Gen Cert.ReferenceIdeal.Read

/-! ## Indices: the composed index functions of the broadcasts and reshapes are coordinates -/

theorem idx_col_row (i : Fin 262144) (c : Fin 81) : idx_main_v3 (idx_main_v4 (ix2 i c)) = ix1 i :=
  funext fun a => Fin.ext (by match a with | ⟨0, _⟩ => rfl)

theorem idx_sum_row (i : Fin 262144) (k : Fin 81) : idx_main_v7 (ix1 i) k = ix2 i k :=
  funext fun a => Fin.ext (by match a with | ⟨0, _⟩ => rfl | ⟨1, _⟩ => rfl)

/-! ## (i) the row maximum -/

theorem ref_rowmax (X : Scores) (i : Fin 262144) : val_main_v2 (F := Ideal) X (ix1 i) = rowMax (row X i) := by
  rw [val_main_v2_apply, val_main_v1_apply, val_main_cst_0_apply, Ideal.ofBits_def, Ideal.maximumf_def, max_neg_inf]
  exact reduce_max_row X _ (fun _ => rfl) reducesTo_S262144x81_S262144_d1 (by decide) h_S_ i

/-! ## (ii) the exponentials and the probabilities -/

theorem ref_expo (X : Scores) (i : Fin 262144) (c : Fin 81) : val_main_v6 (F := Ideal) X (ix2 i c) = expo (row X i) c := by
  rw [val_main_v6_apply, val_main_v5_apply, val_main_v4_apply, val_main_v3_apply, idx_col_row, ref_rowmax,
    Ideal.hostUnary_exp_def, Ideal.subf_def]
  rfl

theorem ref_prob (X : Scores) (i : Fin 262144) (c : Fin 81) : val_main_v10 (F := Ideal) X (ix2 i c) = prob (row X i) c := by
  rw [val_main_v10_apply, val_main_v9_apply, val_main_v8_apply, val_main_v7_apply, val_main_cst_1_apply,
    show idx_main_v8 (idx_main_v9 (ix2 i c)) = ix1 i from funext fun a => Fin.ext (by match a with | ⟨0, _⟩ => rfl)]
  simp only [idx_sum_row, ref_expo]
  rw [Ideal.ofBits_def, Ideal.ofBits_zero_f32, zero_add, Ideal.hostDivf_def]
  rfl

end Cert.Loss.Ref

end
-- ==== Proof.RefRows.lean ====
/-
  The reference's row sum, read at one row: the labelled class's probability (the take along the row at the label, whose
  in-bounds flag is set for a label in range), the clipped margins' capped logarithms, the clipped slack and its square
  (the float power by 2), the weighted terms, the label's own term (the same take, of the weighted terms), and the sum
  over the 81 classes less the label's term.
-/
import proofs.«415084_j9577777070150_2_alg».proof.Proof.RefRow
import proofs.«415084_j9577777070150_2_alg».proof.Proof.RowLaws

noncomputable section

namespace Cert.Loss.Ref

open Idealize.ShloMosaic Idealize.ShloMosaic.ValueIdx Idealize.ShloMosaic.StableHlo
open Cert.ReferenceIdeal Cert.ReferenceIdeal.Gen Cert.ReferenceIdeal.Read

/-! ## (iii) the labelled class's probability -/

theorem idx_call0_v5 (i : Fin 262144) : idx_main_call0_v5 (ix3 i (0 : Fin 1) (0 : Fin 1)) = ix2 i (0 : Fin 1) :=
  funext fun a => Fin.ext (by
    match a with
    | ⟨0, _⟩ => show ((i.val * 1 + 0) * 1 + 0) / 1 = i.val; omega
    | ⟨1, _⟩ => rfl)

theorem idx_v26 (i : Fin 262144) : idx_main_v26 (ix2 i (0 : Fin 1)) = ix1 i :=
  funext fun a => Fin.ext (by match a with | ⟨0, _⟩ => rfl)

/-- The start index of row `i`'s take: the label itself (a label in range is not negative, so it is not wrapped). -/
theorem ref_start0 (L : Labels) (hL : LabelsInRange L) (i : Fin 262144) :
    val_main_call0_v5 (F := Ideal) L (ix3 i (0 : Fin 1) (0 : Fin 1)) = L (ix1 i) := by
  rw [val_main_call0_v5_apply, idx_call0_v5, val_main_call0_v4_apply, val_main_call0_v1_apply, val_main_v26_apply,
    idx_v26, val_main_call0_v0_apply, val_main_call0_c_apply, label_not_neg _ (hL i), select_zero]

/-- The take's in-bounds flag is set: the label lies between 0 and 80. -/
theorem ref_inb0 (L : Labels) (hL : LabelsInRange L) (i : Fin 262144) :
    val_main_call0_v12 (F := Ideal) L (ix2 i (0 : Fin 1)) = 1#1 := by
  have hl := hL i
  have h1 : IntOp.cmpi .sge (L (ix1 i)) 0#32 = 1#1 :=
    (Predicate.sge_iff_toNat (by omega) (by decide)).mpr (Nat.zero_le _)
  have h2 : IntOp.cmpi .sle (L (ix1 i)) 80#32 = 1#1 :=
    (Predicate.sle_iff_toNat (by omega) (by decide)).mpr hl
  unfold val_main_call0_v12
  rw [reduce_and_unit _ _ reducesTo_S262144x1x1_S262144x1_d2 (by decide) h_S_ i, val_main_call0_c_3_apply,
    val_main_call0_v11_apply, val_main_call0_v7_apply, val_main_call0_v10_apply, ref_start0 L hL i,
    val_main_call0_v6_apply, val_main_call0_c_2_apply, val_main_call0_v9_apply, val_main_call0_v8_apply,
    val_main_call0_c_1_apply, h1, h2]
  rfl

/-- The take along row `i` of the probabilities reads the labelled class's. -/
theorem ref_take0 (X : Scores) (L : Labels) (hL : LabelsInRange L) (i : Fin 262144) :
    val_main_call0_v13 (F := Ideal) X L (ix2 i (0 : Fin 1)) = prob (row X i) (cls (L (ix1 i))) := by
  unfold val_main_call0_v13
  rw [← ref_prob]
  exact gather_rowTake_label gather_S262144x81_S262144x1x1_S262144x1_n_1_0_0_1_2_11_wf (val_main_v10 (F := Ideal) X)
    (val_main_call0_v5 (F := Ideal) L) i (L (ix1 i)) (ref_start0 L hL i) (hL i)

theorem idx_v28 (i : Fin 262144) : idx_main_v28 (ix1 i) = ix2 i (0 : Fin 1) :=
  funext fun a => Fin.ext (by
    match a with
    | ⟨0, _⟩ => show i.val / 1 = i.val; omega
    | ⟨1, _⟩ => rfl)

theorem ref_plabel (X : Scores) (L : Labels) (hL : LabelsInRange L) (i : Fin 262144) :
    val_main_v28 (F := Ideal) X L (ix1 i) = prob (row X i) (cls (L (ix1 i))) := by
  rw [val_main_v28_apply, idx_v28, val_main_v27_apply, ref_inb0 L hL i, select_one, ref_take0 X L hL i]

/-! ## (iv) the capped logarithm of the clipped margin, the clipped slack, the weighted term -/

theorem idx_v30 (i : Fin 262144) (c : Fin 81) : idx_main_v29 (idx_main_v30 (ix2 i c)) = ix1 i :=
  funext fun a => Fin.ext (by match a with | ⟨0, _⟩ => rfl)

theorem ref_logTerm (X : Scores) (L : Labels) (hL : LabelsInRange L) (i : Fin 262144) (c : Fin 81) :
    val_main_v36 (F := Ideal) X L (ix2 i c) = logTerm (row X i) (cls (L (ix1 i))) c := by
  rw [val_main_v36_apply, val_main_v35_apply, val_main_cst_8_apply, val_main_v34_apply, val_main_v33_apply,
    val_main_v32_apply, val_main_call1_v4_apply, val_main_call1_v3_apply, val_main_cst_7_apply, val_main_call1_v2_apply,
    val_main_call1_v1_apply, val_main_call1_v0_apply, val_main_cst_6_apply, val_main_v31_apply, val_main_v30_apply,
    val_main_v29_apply, idx_v30, ref_plabel X L hL i, ref_prob]
  simp only [Ideal.ofBits_def, Ideal.minimumf_def, Ideal.maximumf_def, Ideal.hostNegf_def, Ideal.negf_def,
    Ideal.hostUnary_log_def, Ideal.subf_def]
  rfl

theorem ref_slack (X : Scores) (L : Labels) (hL : LabelsInRange L) (i : Fin 262144) :
    val_main_v39 (F := Ideal) X L (ix1 i) = slack (row X i) (cls (L (ix1 i))) := by
  rw [val_main_v39_apply, val_main_call2_v4_apply, val_main_call2_v3_apply, val_main_cst_11_apply, val_main_call2_v2_apply,
    val_main_call2_v1_apply, val_main_call2_v0_apply, val_main_cst_10_apply, val_main_v38_apply, val_main_v37_apply,
    val_main_cst_9_apply, ref_plabel X L hL i]
  simp only [Ideal.ofBits_def, Ideal.minimumf_def, Ideal.maximumf_def, Ideal.subf_def]
  rfl

theorem idx_v43 (i : Fin 262144) (c : Fin 81) : idx_main_v42 (idx_main_v43 (ix2 i c)) = ix1 i :=
  funext fun a => Fin.ext (by match a with | ⟨0, _⟩ => rfl)

theorem ref_per (X : Scores) (L : Labels) (hL : LabelsInRange L) (i : Fin 262144) (c : Fin 81) :
    val_main_v44 (F := Ideal) X L (ix2 i c) = per (row X i) (cls (L (ix1 i))) c := by
  rw [val_main_v44_apply, val_main_v43_apply, val_main_v42_apply, idx_v43, val_main_v41_apply, val_main_v40_apply,
    val_main_cst_12_apply, ref_slack X L hL i, ref_logTerm X L hL i c, Ideal.ofBits_def, Ideal.hostPowf_def,
    pow_two_slack, Ideal.mulf_def]
  rfl

/-! ## The label's own term: the same take, of the weighted terms -/

theorem idx_call3_v5 (i : Fin 262144) : idx_main_call3_v5 (ix3 i (0 : Fin 1) (0 : Fin 1)) = ix2 i (0 : Fin 1) :=
  funext fun a => Fin.ext (by
    match a with
    | ⟨0, _⟩ => show ((i.val * 1 + 0) * 1 + 0) / 1 = i.val; omega
    | ⟨1, _⟩ => rfl)

theorem idx_v45 (i : Fin 262144) : idx_main_v45 (ix2 i (0 : Fin 1)) = ix1 i :=
  funext fun a => Fin.ext (by match a with | ⟨0, _⟩ => rfl)

/-- The start index of row `i`'s take: the label itself (a label in range is not negative, so it is not wrapped). -/
theorem ref_start3 (L : Labels) (hL : LabelsInRange L) (i : Fin 262144) :
    val_main_call3_v5 (F := Ideal) L (ix3 i (0 : Fin 1) (0 : Fin 1)) = L (ix1 i) := by
  rw [val_main_call3_v5_apply, idx_call3_v5, val_main_call3_v4_apply, val_main_call3_v1_apply, val_main_v45_apply,
    idx_v45, val_main_call3_v0_apply, val_main_call3_c_apply, label_not_neg _ (hL i), select_zero]

/-- The take's in-bounds flag is set: the label lies between 0 and 80. -/
theorem ref_inb3 (L : Labels) (hL : LabelsInRange L) (i : Fin 262144) :
    val_main_call3_v12 (F := Ideal) L (ix2 i (0 : Fin 1)) = 1#1 := by
  have hl := hL i
  have h1 : IntOp.cmpi .sge (L (ix1 i)) 0#32 = 1#1 :=
    (Predicate.sge_iff_toNat (by omega) (by decide)).mpr (Nat.zero_le _)
  have h2 : IntOp.cmpi .sle (L (ix1 i)) 80#32 = 1#1 :=
    (Predicate.sle_iff_toNat (by omega) (by decide)).mpr hl
  unfold val_main_call3_v12
  rw [reduce_and_unit _ _ reducesTo_S262144x1x1_S262144x1_d2 (by decide) h_S_ i, val_main_call3_c_3_apply,
    val_main_call3_v11_apply, val_main_call3_v7_apply, val_main_call3_v10_apply, ref_start3 L hL i,
    val_main_call3_v6_apply, val_main_call3_c_2_apply, val_main_call3_v9_apply, val_main_call3_v8_apply,
    val_main_call3_c_1_apply, h1, h2]
  rfl

theorem ref_take3 (X : Scores) (L : Labels) (hL : LabelsInRange L) (i : Fin 262144) :
    val_main_call3_v13 (F := Ideal) X L (ix2 i (0 : Fin 1))
      = per (row X i) (cls (L (ix1 i))) (cls (L (ix1 i))) := by
  unfold val_main_call3_v13
  rw [← ref_per X L hL i]
  exact gather_rowTake_label gather_S262144x81_S262144x1x1_S262144x1_n_1_0_0_1_2_11_wf (val_main_v44 (F := Ideal) X L)
    (val_main_call3_v5 (F := Ideal) L) i (L (ix1 i)) (ref_start3 L hL i) (hL i)

theorem idx_v47 (i : Fin 262144) : idx_main_v47 (ix1 i) = ix2 i (0 : Fin 1) :=
  funext fun a => Fin.ext (by
    match a with
    | ⟨0, _⟩ => show i.val / 1 = i.val; omega
    | ⟨1, _⟩ => rfl)

theorem ref_perLabel (X : Scores) (L : Labels) (hL : LabelsInRange L) (i : Fin 262144) :
    val_main_v47 (F := Ideal) X L (ix1 i) = per (row X i) (cls (L (ix1 i))) (cls (L (ix1 i))) := by
  rw [val_main_v47_apply, idx_v47, val_main_v46_apply, ref_inb3 L hL i, select_one, ref_take3 X L hL i]

/-! ## (v) the row sum -/

theorem idx_sum_per (i : Fin 262144) (k : Fin 81) : idx_main_v48 (ix1 i) k = ix2 i k :=
  funext fun a => Fin.ext (by match a with | ⟨0, _⟩ => rfl | ⟨1, _⟩ => rfl)

/-- Row `i`'s sum in the reference: the 81 weighted terms added from zero, less the label's own term. -/
theorem ref_rowSum (X : Scores) (L : Labels) (hL : LabelsInRange L) (i : Fin 262144) :
    Cert.ReferenceIdeal.Read.val_main_v49 (F := Ideal) X L (ValueIdx.ix1 i) = rowSumAt X L i := by
  rw [val_main_v49_apply, val_main_v48_apply, val_main_cst_13_apply, ref_perLabel X L hL i]
  simp only [idx_sum_per, ref_per X L hL i]
  rw [Ideal.ofBits_def, Ideal.ofBits_zero_f32, zero_add, Ideal.subf_def]
  rfl

end Cert.Loss.Ref

end
-- ==== Proof.RefTail.lean ====
/-
  The reference downstream of its row sums.  From the stage that holds every row's sum onward the reference computes:
  the table of count words (a scatter-add of the rows' validity bits at their labels), each row's own count word (the
  table read at the row's label) and its "enough samples" bit; the three selections of rows; for each selection the sum
  of the selected rows' sums (a select against zero, then a sum over all rows) and the number of selected rows (the
  selection's bits widened to words and summed); and the closing scalar chain, which divides the sum by
  max(count, 1) · 80 computed in words, keeps zero for an empty group, multiplies by the group's weight and caps at 1.
  Given that the row-sum stage holds the specification's row sums, the three results are the specification's losses.
-/
import proofs.«415084_j9577777070150_2_alg».proof.Proof.RIReadDefs
import proofs.«415084_j9577777070150_2_alg».proof.Proof.Spec
import proofs.«415084_j9577777070150_2_alg».proof.Proof.RowLaws
import proofs.«415084_j9577777070150_2_alg».proof.Proof.Counts
import proofs.«415084_j9577777070150_2_alg».proof.Proof.RefReads

noncomputable section

namespace Cert.Loss.Ref

open Idealize.ShloMosaic Idealize.ShloMosaic.ValueIdx Idealize.ShloMosaic.StableHlo
open Cert.ReferenceIdeal Cert.ReferenceIdeal.Gen Cert.ReferenceIdeal.Read

/-! ## A sum over a vector's indices -/

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The three shapes of the tail, each read once -/

/-- Zero plus the sum over all rows of "the row's value where selected, else zero" is the specification's `total`. -/
theorem sum_select_eq_total (m : S262144.Idx → BitVec 1) (y z : S262144.Idx → EReal)
    (sel : Fin 262144 → BitVec 1) (v : Fin 262144 → EReal) (hm : ∀ i, m (ix1 i) = sel i)
    (hy : ∀ i, y (ix1 i) = v i) (hz : ∀ i, z (ix1 i) = Ideal.ofBits .f32 0x00000000#32) :
    Ideal.ofBits .f32 0x00000000#32 + ∑ j : S262144.Idx, select m y z j = total sel v := by
  rw [Ideal.ofBits_zero_f32, zero_add, sum_idx1]
  unfold total
  refine Finset.sum_congr rfl fun i _ => ?_
  show Scalar.select (m (ix1 i)) (y (ix1 i)) (z (ix1 i)) = _
  rw [hm i, hy i, hz i, Ideal.ofBits_zero_f32]
  rfl

/-- Summing a selection's widened bits over all rows gives a word whose value is the number of selected rows. -/
theorem toNat_count_word (m : IVec S262144 1) (sel : Fin 262144 → BitVec 1) (hm : ∀ i, m (ix1 i) = sel i)
    (init : S_.Idx → BitVec 32) (hinit : ∀ j, init j = 0#32) (j : S_.Idx) :
    (Host.reduce IntOp.addi (extui 32 m natLt_1_32) init reducesTo_S262144_S_d0 h_S_ j).toNat
      = (Finset.univ.filter fun i => sel i = 1#1).card := by
  rw [toNat_reduce_count m natLt_1_32 init hinit reducesTo_S262144_S_d0 h_S_ j]
  exact congrArg Finset.card (Finset.filter_congr fun i _ => by rw [hm i])

/-- The closing scalar chain — the mean through words where the group is not empty, times the weight, capped at 1 — is
    the specification's `finish`. -/
theorem finish_chain (s : EReal) (n : BitVec 32) (sel : Fin 262144 → BitVec 1)
    (hn : n.toNat = (Finset.univ.filter fun i => sel i = 1#1).card) (wbits : BitVec 32) :
    FloatOps.minimumf (F := Ideal) (φ := .f32)
        (FloatOps.mulf
          (Scalar.select (IntOp.cmpi .sgt n 0#32)
            (FloatOps.hostDivf s (FloatOps.sitofp .f32 (IntOp.muli (IntOp.maxsi n 1#32) 80#32)))
            (FloatOps.ofBits .f32 0x00000000#32))
          (FloatOps.ofBits .f32 wbits))
        (FloatOps.ofBits .f32 0x3F800000#32)
      = finish s (number sel) wbits :=
  finish_of_word s sel n hn wbits

/-! ## The count words -/

/-- The scatter-add stage is the table of count words. -/
theorem counts_apply (L : Labels) (Wt : Weights) (hL : LabelsInRange L) (j : S81.Idx) :
    val_main_v16 (F := Ideal) L Wt j = countWord L Wt (j 0) :=
  scatter_counts scatter_S81_S262144x1_S262144_n_0_0_1 rfl rfl rfl rfl bcast_S_S81 bcast_S262144_S262144x1_0
    bcast_S_S262144 L Wt hL j

/-- The start index the table is read at: a label in range is not negative, so the wrap-around of a negative index
    leaves it alone. -/
theorem wrap_label (L : Labels) (hL : LabelsInRange L) (i : Fin 262144) :
    val_main_v22 (F := Ideal) L (ix2 i (0 : Fin 1)) = L (ix1 i) := by
  rw [val_main_v22_apply]
  have hi : idx_main_v22 (ix2 i (0 : Fin 1)) = ix1 i := by
    funext a; match a with | ⟨0, _⟩ => rfl
  rw [hi, val_main_v21_apply]
  show Scalar.select (IntOp.cmpi .slt (L (ix1 i)) 0#32) _ _ = _
  rw [label_not_neg _ (hL i)]
  rfl

/-- Row `i`'s count word: the table read at the row's class. -/
theorem count_at (L : Labels) (Wt : Weights) (hL : LabelsInRange L) (i : Fin 262144) :
    val_main_v23 (F := Ideal) L Wt (ix1 i) = countAt L Wt i := by
  unfold val_main_v23
  rw [gather_take_label gather_S81_S262144x1_S262144_n_0_n_n_0_1_1 rfl rfl rfl rfl _ _ i (L (ix1 i))
    (wrap_label L hL i) (hL i), counts_apply L Wt hL]
  rfl

/-- Row `i`'s "enough samples" bit. -/
theorem enough_at (L : Labels) (Wt : Weights) (hL : LabelsInRange L) (i : Fin 262144) :
    val_main_v25 (F := Ideal) L Wt (ix1 i) = enough (countAt L Wt i) := by
  rw [val_main_v25_apply, count_at L Wt hL i]
  rfl

/-! ## The three selections -/

theorem base_at (L : Labels) (Wt : Weights) (hL : LabelsInRange L) (i : Fin 262144) :
    val_main_v53 (F := Ideal) L Wt (ix1 i) = baseAt L Wt i := by
  rw [val_main_v53_apply, enough_at L Wt hL i]
  rfl

theorem novel_at (L : Labels) (Wt : Weights) (hL : LabelsInRange L) (i : Fin 262144) :
    val_main_v60 (F := Ideal) L Wt (ix1 i) = novelAt L Wt i := by
  rw [val_main_v60_apply, enough_at L Wt hL i]
  rfl

theorem neg_at (L : Labels) (Wt : Weights) (i : Fin 262144) :
    val_main_v63 (F := Ideal) L Wt (ix1 i) = negAt L Wt i := rfl

/-! ## The float totals and the count words of the three groups -/

theorem base_total (X : Scores) (L : Labels) (Wt : Weights) (hL : LabelsInRange L)
    (hrs : ∀ i : Fin 262144, val_main_v49 (F := Ideal) X L (ix1 i) = rowSumAt X L i) (j : S_.Idx) :
    val_main_v67 (F := Ideal) X L Wt j = total (baseAt L Wt) (rowSumAt X L) := by
  rw [val_main_v67_apply]
  exact sum_select_eq_total (val_main_v53 (F := Ideal) L Wt) (val_main_v49 (F := Ideal) X L)
    (val_main_call4_v1 (F := Ideal)) (baseAt L Wt) (rowSumAt X L) (base_at L Wt hL) hrs (fun _ => rfl)

theorem novel_total (X : Scores) (L : Labels) (Wt : Weights) (hL : LabelsInRange L)
    (hrs : ∀ i : Fin 262144, val_main_v49 (F := Ideal) X L (ix1 i) = rowSumAt X L i) (j : S_.Idx) :
    val_main_v79 (F := Ideal) X L Wt j = total (novelAt L Wt) (rowSumAt X L) := by
  rw [val_main_v79_apply]
  exact sum_select_eq_total (val_main_v60 (F := Ideal) L Wt) (val_main_v49 (F := Ideal) X L)
    (val_main_call6_v1 (F := Ideal)) (novelAt L Wt) (rowSumAt X L) (novel_at L Wt hL) hrs (fun _ => rfl)

theorem neg_total (X : Scores) (L : Labels) (Wt : Weights)
    (hrs : ∀ i : Fin 262144, val_main_v49 (F := Ideal) X L (ix1 i) = rowSumAt X L i) (j : S_.Idx) :
    val_main_v91 (F := Ideal) X L Wt j = total (negAt L Wt) (rowSumAt X L) := by
  rw [val_main_v91_apply]
  exact sum_select_eq_total (val_main_v63 (F := Ideal) L Wt) (val_main_v49 (F := Ideal) X L)
    (val_main_call8_v1 (F := Ideal)) (negAt L Wt) (rowSumAt X L) (neg_at L Wt) hrs (fun _ => rfl)

theorem base_word (L : Labels) (Wt : Weights) (hL : LabelsInRange L) (j : S_.Idx) :
    (val_main_v65 (F := Ideal) L Wt j).toNat = (Finset.univ.filter fun i => baseAt L Wt i = 1#1).card :=
  toNat_count_word (val_main_v53 (F := Ideal) L Wt) (baseAt L Wt) (base_at L Wt hL) (val_main_c_18 (F := Ideal))
    (fun _ => rfl) j

theorem novel_word (L : Labels) (Wt : Weights) (hL : LabelsInRange L) (j : S_.Idx) :
    (val_main_v77 (F := Ideal) L Wt j).toNat = (Finset.univ.filter fun i => novelAt L Wt i = 1#1).card :=
  toNat_count_word (val_main_v60 (F := Ideal) L Wt) (novelAt L Wt) (novel_at L Wt hL) (val_main_c_27 (F := Ideal))
    (fun _ => rfl) j

theorem neg_word (L : Labels) (Wt : Weights) (j : S_.Idx) :
    (val_main_v89 (F := Ideal) L Wt j).toNat = (Finset.univ.filter fun i => negAt L Wt i = 1#1).card :=
  toNat_count_word (val_main_v63 (F := Ideal) L Wt) (negAt L Wt) (neg_at L Wt) (val_main_c_36 (F := Ideal))
    (fun _ => rfl) j

/-! ## The three results -/

theorem ref_base_of_rows (X : Scores) (L : Labels) (Wt : Weights) (hL : LabelsInRange L)
    (hrs : ∀ i : Fin 262144, Cert.ReferenceIdeal.Read.val_main_v49 (F := Ideal) X L (ValueIdx.ix1 i) = rowSumAt X L i) :
    Cert.ReferenceIdeal.Read.val_main_v75 (F := Ideal) X L Wt = fun _ => lossBase X L Wt := by
  funext j
  have hs := base_total X L Wt hL hrs j
  have hn := base_word L Wt hL j
  rw [val_main_v75_apply, val_main_v74_apply, val_main_v73_apply, val_main_v72_apply, val_main_v71_apply,
    val_main_v70_apply, val_main_v69_apply, val_main_v68_apply, hs]
  exact finish_chain _ _ (baseAt L Wt) hn _

theorem ref_novel_of_rows (X : Scores) (L : Labels) (Wt : Weights) (hL : LabelsInRange L)
    (hrs : ∀ i : Fin 262144, Cert.ReferenceIdeal.Read.val_main_v49 (F := Ideal) X L (ValueIdx.ix1 i) = rowSumAt X L i) :
    Cert.ReferenceIdeal.Read.val_main_v87 (F := Ideal) X L Wt = fun _ => lossNovel X L Wt := by
  funext j
  have hs := novel_total X L Wt hL hrs j
  have hn := novel_word L Wt hL j
  rw [val_main_v87_apply, val_main_v86_apply, val_main_v85_apply, val_main_v84_apply, val_main_v83_apply,
    val_main_v82_apply, val_main_v81_apply, val_main_v80_apply, hs]
  exact finish_chain _ _ (novelAt L Wt) hn _

theorem ref_neg_of_rows (X : Scores) (L : Labels) (Wt : Weights) (hL : LabelsInRange L)
    (hrs : ∀ i : Fin 262144, Cert.ReferenceIdeal.Read.val_main_v49 (F := Ideal) X L (ValueIdx.ix1 i) = rowSumAt X L i) :
    Cert.ReferenceIdeal.Read.val_main_v99 (F := Ideal) X L Wt = fun _ => lossNeg X L Wt := by
  funext j
  have hs := neg_total X L Wt hrs j
  have hn := neg_word L Wt j
  rw [val_main_v99_apply, val_main_v98_apply, val_main_v97_apply, val_main_v96_apply, val_main_v95_apply,
    val_main_v94_apply, val_main_v93_apply, val_main_v92_apply, hs]
  exact finish_chain _ _ (negAt L Wt) hn _

end Cert.Loss.Ref

end
-- ==== Proof.RefValue.lean ====
/-
  The reference's three results are the specification's three losses: its row-sum stage is the specification's row sum at
  every row, and everything downstream of that stage — the per-class counts, the three selections, the totals and counts of
  the selected rows, and the closing mean, weight and cap — is the specification's `finish` of `total` and `number`.
-/
import proofs.«415084_j9577777070150_2_alg».proof.Proof.RefRows
import proofs.«415084_j9577777070150_2_alg».proof.Proof.RefTail

noncomputable section

namespace Cert.Loss.Ref

open Idealize.ShloMosaic

theorem ref_base (X : Scores) (L : Labels) (Wt : Weights) (hL : LabelsInRange L) :
    Cert.ReferenceIdeal.Read.val_main_v75 (F := Ideal) X L Wt = fun _ => lossBase X L Wt :=
  ref_base_of_rows X L Wt hL (fun i => ref_rowSum X L hL i)

theorem ref_novel (X : Scores) (L : Labels) (Wt : Weights) (hL : LabelsInRange L) :
    Cert.ReferenceIdeal.Read.val_main_v87 (F := Ideal) X L Wt = fun _ => lossNovel X L Wt :=
  ref_novel_of_rows X L Wt hL (fun i => ref_rowSum X L hL i)

theorem ref_neg (X : Scores) (L : Labels) (Wt : Weights) (hL : LabelsInRange L) :
    Cert.ReferenceIdeal.Read.val_main_v99 (F := Ideal) X L Wt = fun _ => lossNeg X L Wt :=
  ref_neg_of_rows X L Wt hL (fun i => ref_rowSum X L hL i)

end Cert.Loss.Ref

end
-- ==== Proof.lean ====
/-
  The certificate's claim: the three losses of the adaptive-distance loss, computed by the tiled kernel and by the
  jnp reference, are equal as extended reals whenever every label is a class index 0 … 80 (and the float inputs finite).

  Both programs are brought to one specification (Proof/Spec.lean): per row, the softmax of the scores, the clipped
  margin of the labelled class's probability over every class's, minus its logarithm capped at 5, weighted by the square of
  the clipped `1 − prob(label)`, summed over the other 80 classes; rows selected into three groups by label, weight and the
  per-class count of valid rows; each group's loss `min(sum / (max(count, 1) · 80) · weight, 1)`, zero for an empty group.
  The kernel reaches it tile by tile (4096 rows a tile, 32 tiles a core, two cores): the labelled class is read by a one-hot
  sum, the square is a product, the counts are float sums, and the per-class histogram a compare-and-reduce.  The reference
  reaches it over whole arrays: gathers at the label, the float power 2, integer counts converted at the end, and the
  histogram a scatter-add.  The laws that join them hold on the extended reals without any finiteness beyond what the clips
  force: a product with a 0/1 indicator summed is the term at the label; a value clipped into [f32(1e-4), 1] is a positive
  real, so its real power 2 is its square; sums regroup freely; a count below 2³¹/80 converts exactly.
-/
import proofs.«415084_j9577777070150_2_alg».proof.Defs
import proofs.«415084_j9577777070150_2_alg».proof.Proof.Gen.Kernel
import proofs.«415084_j9577777070150_2_alg».proof.Proof.Gen.KernelIdeal
import proofs.«415084_j9577777070150_2_alg».proof.Proof.Gen.ReferenceIdeal
import proofs.«415084_j9577777070150_2_alg».proof.Proof.Gen.Pre_finite_inputs
import proofs.«415084_j9577777070150_2_alg».proof.Proof.RefRun
import proofs.«415084_j9577777070150_2_alg».proof.Proof.KFrame
import proofs.«415084_j9577777070150_2_alg».proof.Proof.KIFrame
import proofs.«415084_j9577777070150_2_alg».proof.Proof.PreDecode
import proofs.«415084_j9577777070150_2_alg».proof.Proof.KJoin
import proofs.«415084_j9577777070150_2_alg».proof.Proof.KRun
import proofs.«415084_j9577777070150_2_alg».proof.Proof.RefValue
import Idealize.ShloMosaic.Adequacy
import Idealize.ShloMosaic.Init

noncomputable section

namespace Cert.Proof

open Idealize.ShloMosaic Idealize.SL.Sem Cert.Loss

/-- The word-level kernel runs and keeps its arguments. -/
theorem frame_k : Cert.frame_Kernel (hKernel := Cert.Kernel.Gen.facts) (hPre_finite_inputs := Cert.Pre_finite_inputs.Gen.facts) :=
  fun m ρ _ => Cert.Kernel.GenP.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference runs and keeps its arguments: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.Loss.Ref.ref_run m ρ)

/-- Both programs end at the specification's three losses of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hL : ∀ c : Dev Cert.KernelIdeal.nD, LabelsInRange (m ((c.tc : Thread Cert.KernelIdeal.nD Cert.KernelIdeal.τ).loc Cert.KernelIdeal.main_arg1)) :=
    fun c => labels_of_pre _ _ _ (hpre c)
  refine ⟨fun c => fun _ => lossBase (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => fun _ => lossNovel (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => fun _ => lossNeg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    ?_, ?_⟩
  · refine (θ_run Cert.KernelIdeal.defs _ _).mono (fun _ h c => ?_) (Cert.Loss.Ker.kernel_run m ρ hL)
    obtain ⟨h0, h1, h2, ha⟩ := h c
    exact ⟨h0.trans (funext fun _ => finish_base _ _ _), h1.trans (funext fun _ => finish_novel _ _ _),
      h2.trans (funext fun _ => finish_neg _ _ _), ha⟩
  · refine (θ_run Cert.ReferenceIdeal.defs _ _).mono (fun _ h c => ?_) (Cert.Loss.Ref.ref_run m' ρ')
    obtain ⟨h0, h1, h2, ha⟩ := h c
    have hL' : LabelsInRange (m' ((c.tc : Thread Cert.ReferenceIdeal.nD Cert.ReferenceIdeal.τ).loc Cert.ReferenceIdeal.main_arg1)) := by
      rw [(hagree c).2.1]; exact hL c
    refine ⟨?_, ?_, ?_, ha⟩
    · rw [h0, Cert.Loss.Ref.ref_base _ _ _ hL', (hagree c).1, (hagree c).2.1, (hagree c).2.2]
      rfl
    · rw [h1, Cert.Loss.Ref.ref_novel _ _ _ hL', (hagree c).1, (hagree c).2.1, (hagree c).2.2]
      rfl
    · rw [h2, Cert.Loss.Ref.ref_neg _ _ _ hL', (hagree c).1, (hagree c).2.1, (hagree c).2.2]
      rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
